-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_9" .f32 0x3DE38E39#32 ((1 / 9 : ℝ) : EReal)
  ∧ IdealRules.named_const.Statement Cert.KernelIdeal.κ "inv_9" .f32 0x3DE38E39#32 ((1 / 9 : ℝ) : EReal)
  ∧ IdealRules.named_const.Statement Cert.KernelIdeal.κ "inv_9" .f32 0x3DE38E39#32 ((1 / 9 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_v62) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x9x9x10 : Shape := ⟨4, ![65536, 9, 9, 10]⟩
abbrev S65536x9x9 : Shape := ⟨3, ![65536, 9, 9]⟩
abbrev S_ : Shape := ⟨0, ![]⟩

class Facts : Prop where
  bcast_S_S65536x9x9x10 : S_.BroadcastsInDim S65536x9x9x10 (![] : Fin 0 → Fin S65536x9x9x10.rank)
  reducesTo_S65536x9x9x10_S_d0_1_2_3 : S65536x9x9x10.ReducesTo [0, 1, 2, 3] S_
  h_S_ : 0 < S_.numel
  bcast_S_S65536x9x9 : S_.BroadcastsInDim S65536x9x9 (![] : Fin 0 → Fin S65536x9x9.rank)
  reducesTo_S65536x9x9_S_d0_1_2 : S65536x9x9.ReducesTo [0, 1, 2] S_

variable [Facts]

def fn {F : FTy → Type} [FloatOps F] (main_arg0 : FVec F S65536x9x9x10 .f32) (main_arg1 : IVec S65536x9x9 32) (main_arg2 : IVec S65536x9x9 32) : IVec S_ 1 :=
  let main_v0 : FVec F S65536x9x9x10 .f32 := Host.absf main_arg0
  let main_cst : FVec F S_ .f32 := constant S_ .f32 0x7F800000#32
  let main_v1 : FVec F S65536x9x9x10 .f32 := broadcastInDim S65536x9x9x10 ![] bcast_S_S65536x9x9x10 main_cst
  let main_v2 : IVec S65536x9x9x10 1 := cmpf .olt main_v0 main_v1
  let main_c : IVec S_ 1 := constantI S_ 1 1#1
  let main_v3 : IVec S_ 1 := (fun x v => Host.reduce IntOp.andi x v reducesTo_S65536x9x9x10_S_d0_1_2_3 h_S_) main_v2 main_c
  let main_c_0 : IVec S_ 32 := constantI S_ 32 0#32
  let main_v4 : IVec S65536x9x9 32 := broadcastInDim S65536x9x9 ![] bcast_S_S65536x9x9 main_c_0
  let main_v5 : IVec S65536x9x9 1 := cmpi .sge main_arg1 main_v4
  let main_c_1 : IVec S_ 32 := constantI S_ 32 10#32
  let main_v6 : IVec S65536x9x9 32 := broadcastInDim S65536x9x9 ![] bcast_S_S65536x9x9 main_c_1
  let main_v7 : IVec S65536x9x9 1 := cmpi .slt main_arg1 main_v6
  let main_v8 : IVec S65536x9x9 1 := andi main_v5 main_v7
  let main_c_2 : IVec S_ 1 := constantI S_ 1 1#1
  let main_v9 : IVec S_ 1 := (fun x v => Host.reduce IntOp.andi x v reducesTo_S65536x9x9_S_d0_1_2 h_S_) main_v8 main_c_2
  let main_v10 : IVec S_ 1 := andi main_v3 main_v9
  main_v10
-- ==== Kernel.lean ====
abbrev S65536x9x9x10 : Shape := ⟨4, ![65536, 9, 9, 10]⟩
abbrev S65536x9x9 : Shape := ⟨3, ![65536, 9, 9]⟩
abbrev S1x128 : Shape := ⟨2, ![1, 128]⟩
abbrev S64x9x9x10 : Shape := ⟨4, ![64, 9, 9, 10]⟩
abbrev S64x9x9 : Shape := ⟨3, ![64, 9, 9]⟩
abbrev S64x9x9x1 : Shape := ⟨4, ![64, 9, 9, 1]⟩
abbrev S64x9 : Shape := ⟨2, ![64, 9]⟩
abbrev S64 : Shape := ⟨1, ![64]⟩
abbrev S64x1 : Shape := ⟨2, ![64, 1]⟩
abbrev S1 : Shape := ⟨1, ![1]⟩
abbrev S1x1 : Shape := ⟨2, ![1, 1]⟩
abbrev S64x9x10 : Shape := ⟨3, ![64, 9, 10]⟩
abbrev S64x3x3x9x10 : Shape := ⟨5, ![64, 3, 3, 9, 10]⟩
abbrev S64x3x9x10 : Shape := ⟨4, ![64, 3, 9, 10]⟩
abbrev S64x3x3x3x10 : Shape := ⟨5, ![64, 3, 3, 3, 10]⟩
abbrev S64x3x3x10 : Shape := ⟨4, ![64, 3, 3, 10]⟩
abbrev S64x3x3x9 : Shape := ⟨4, ![64, 3, 3, 9]⟩
abbrev S64x3x9 : Shape := ⟨3, ![64, 3, 9]⟩
abbrev S64x3x3x3 : Shape := ⟨4, ![64, 3, 3, 3]⟩
abbrev S64x3x3 : Shape := ⟨3, ![64, 3, 3]⟩
abbrev S64x9x1 : Shape := ⟨3, ![64, 9, 1]⟩
abbrev S_ : Shape := ⟨0, ![]⟩

abbrev nBuf : Space → Nat
  | .hbm => 30
  | .vmem => 8
  | .smem => 0
  | _ => 0

abbrev bufTy : (tb : Table) → Fin (tcTables nBuf tb) → BufTy
  | .hbm, ⟨0, _⟩ => ⟨S65536x9x9x10, .f32⟩
  | .hbm, ⟨1, _⟩ => ⟨S65536x9x9, .i32⟩
  | .hbm, ⟨2, _⟩ => ⟨S65536x9x9, .i32⟩
  | .hbm, ⟨3, _⟩ => ⟨S1x128, .f32⟩
  | .hbm, ⟨4, _⟩ => ⟨S1x1, .f32⟩
  | .hbm, ⟨5, _⟩ => ⟨S_, .f32⟩
  | .hbm, ⟨6, _⟩ => ⟨S1x1, .f32⟩
  | .hbm, ⟨7, _⟩ => ⟨S_, .f32⟩
  | .hbm, ⟨8, _⟩ => ⟨S1x1, .f32⟩
  | .hbm, ⟨9, _⟩ => ⟨S_, .f32⟩
  | .hbm, ⟨10, _⟩ => ⟨S1x1, .f32⟩
  | .hbm, ⟨11, _⟩ => ⟨S_, .f32⟩
  | .hbm, ⟨12, _⟩ => ⟨S1x1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S64x9x9x10, .f32⟩
  | .local _ .vmem, ⟨1, _⟩ => ⟨S64x9x9x10, .f32⟩
  | .local _ .vmem, ⟨2, _⟩ => ⟨S64x9x9, .i32⟩
  | .local _ .vmem, ⟨3, _⟩ => ⟨S64x9x9, .i32⟩
  | .local _ .vmem, ⟨4, _⟩ => ⟨S64x9x9, .i32⟩
  | .local _ .vmem, ⟨5, _⟩ => ⟨S64x9x9, .i32⟩
  | .local _ .vmem, ⟨6, _⟩ => ⟨S1x128, .f32⟩
  | .local _ .vmem, ⟨7, _⟩ => ⟨S1x128, .f32⟩
  | _, _ => ⟨S65536x9x9x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![1024], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x9x9x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x9x9 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x9x9 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S64x9x9x10_S64x9x9x10_0_0_0_0 : ∀ a, (![0, 0, 0, 0] : Fin 4 → Nat) a + S64x9x9x10.size a ≤ S64x9x9x10.size a
  h_S64x9x9x10 : 0 < S64x9x9x10.numel
  inb_S64x9x9_S64x9x9_0_0_0 : ∀ a, (![0, 0, 0] : Fin 3 → Nat) a + S64x9x9.size a ≤ S64x9x9.size a
  h_S64x9x9 : 0 < S64x9x9.numel
  natLt_1_32 : 1 < 32
  reduces_S64x9x9x10_S64x9x9 : S64x9x9x10.Reduces [3] S64x9x9
  shapeCasts_S64x9x9_S64x9x9x1 : S64x9x9.ShapeCasts S64x9x9x1
  broadcasts_S64x9x9x1_S64x9x9x10 : S64x9x9x1.Broadcasts S64x9x9x10
  iota_S64x9x9x10_d3_w32 : S64x9x9x10.Iotas .tc 32 [3]
  reduces_S64x9x9_S64x9 : S64x9x9.Reduces [2] S64x9
  reduces_S64x9_S64 : S64x9.Reduces [1] S64
  shapeCasts_S64_S64x1 : S64.ShapeCasts S64x1
  reduces_S64x1_S1 : S64x1.Reduces [0] S1
  shapeCasts_S1_S1x1 : S1.ShapeCasts S1x1
  reduces_S64x9x9x10_S64x9x10 : S64x9x9x10.Reduces [2] S64x9x10
  reduces_S64x9x9x10_S64x9x10_2 : S64x9x9x10.Reduces [1] S64x9x10
  reduces_S64x9x9_S64x9_2 : S64x9x9.Reduces [1] S64x9
  shapeCasts_S64x9x9x10_S64x3x3x9x10 : S64x9x9x10.ShapeCasts S64x3x3x9x10
  reduces_S64x3x3x9x10_S64x3x9x10 : S64x3x3x9x10.Reduces [2] S64x3x9x10
  shapeCasts_S64x3x9x10_S64x3x3x3x10 : S64x3x9x10.ShapeCasts S64x3x3x3x10
  reduces_S64x3x3x3x10_S64x3x3x10 : S64x3x3x3x10.Reduces [3] S64x3x3x10
  shapeCasts_S64x3x3x10_S64x9x10 : S64x3x3x10.ShapeCasts S64x9x10
  shapeCasts_S64x9x9_S64x3x3x9 : S64x9x9.ShapeCasts S64x3x3x9
  reduces_S64x3x3x9_S64x3x9 : S64x3x3x9.Reduces [2] S64x3x9
  shapeCasts_S64x3x9_S64x3x3x3 : S64x3x9.ShapeCasts S64x3x3x3
  reduces_S64x3x3x3_S64x3x3 : S64x3x3x3.Reduces [3] S64x3x3
  shapeCasts_S64x3x3_S64x9 : S64x3x3.ShapeCasts S64x9
  shapeCasts_S64x9_S64x9x1 : S64x9.ShapeCasts S64x9x1
  slices_S64x9x10_o0_0_1_S64x9x9 : S64x9x10.Slices ![0, 0, 1] S64x9x9
  broadcasts_S64x9x1_S64x9x9 : S64x9x1.Broadcasts S64x9x9
  iota_S1x128_d1_w32 : S1x128.Iotas .tc 32 [1]
  shapeCasts_S1x1_S1x1 : S1x1.ShapeCasts S1x1
  broadcasts_S1x1_S1x128 : S1x1.Broadcasts S1x128
  slices_S1x128_S1x1_0_0 : S1x128.Slices ![0, 0] S1x1
  shapeCasts_S1x1_S_ : S1x1.ShapeCasts S_
  slices_S1x128_S1x1_0_1 : S1x128.Slices ![0, 1] S1x1
  slices_S1x128_S1x1_0_2 : S1x128.Slices ![0, 2] S1x1
  slices_S1x128_S1x1_0_3 : S1x128.Slices ![0, 3] S1x1
  slices_S1x128_S1x1_0_4 : S1x128.Slices ![0, 4] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x9x9x10.size a ≤ S65536x9x9x10.size a
  hwx0_0 : ∀ i : grid0.Coords, EltTy.bits .f32 = 32 ∨ (Rect.block (s := S65536x9x9x10) S64x9x9x10.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x9x9.size a ≤ S65536x9x9.size a
  hwx0_1 : ∀ i : grid0.Coords, EltTy.bits .i32 = 32 ∨ (Rect.block (s := S65536x9x9) S64x9x9.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x9x9.size a ≤ S65536x9x9.size a
  hwx0_2 : ∀ i : grid0.Coords, EltTy.bits .i32 = 32 ∨ (Rect.block (s := S65536x9x9) S64x9x9.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)

variable [Facts₀]

abbrev win0_0 : Pipeline.Window sig grid0 :=
  Pipeline.Window.ofSpec (Memref.whole main_arg0) S64x9x9x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x9x9.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x9x9.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x9x9x10 : Shape := ⟨4, ![65536, 9, 9, 10]⟩
abbrev S65536x9x9 : Shape := ⟨3, ![65536, 9, 9]⟩
abbrev S_ : Shape := ⟨0, ![]⟩
abbrev S65536x9x9x1 : Shape := ⟨4, ![65536, 9, 9, 1]⟩
abbrev S65536x9x9x1x1 : Shape := ⟨5, ![65536, 9, 9, 1, 1]⟩
abbrev S1 : Shape := ⟨1, ![1]⟩
abbrev S1x1x1x1x1 : Shape := ⟨5, ![1, 1, 1, 1, 1]⟩
abbrev S65536x9x10 : Shape := ⟨3, ![65536, 9, 10]⟩
abbrev S65536x9 : Shape := ⟨2, ![65536, 9]⟩
abbrev S65536x9x1 : Shape := ⟨3, ![65536, 9, 1]⟩
abbrev S9 : Shape := ⟨1, ![9]⟩
abbrev S65536x3x3x3x3x10 : Shape := ⟨6, ![65536, 3, 3, 3, 3, 10]⟩
abbrev S65536x3x3x10 : Shape := ⟨4, ![65536, 3, 3, 10]⟩
abbrev S65536x3x3x3x3 : Shape := ⟨5, ![65536, 3, 3, 3, 3]⟩
abbrev S65536x3x3 : Shape := ⟨3, ![65536, 3, 3]⟩

abbrev nBuf : Space → Nat
  | .hbm => 127
  | .vmem => 0
  | .smem => 0
  | _ => 0

abbrev bufTy : (tb : Table) → Fin (tcTables nBuf tb) → BufTy
  | .hbm, ⟨0, _⟩ => ⟨S65536x9x9x10, .f32⟩
  | .hbm, ⟨1, _⟩ => ⟨S65536x9x9, .i32⟩
  | .hbm, ⟨2, _⟩ => ⟨S65536x9x9, .i32⟩
  | .hbm, ⟨3, _⟩ => ⟨S_, .i32⟩
  | .hbm, ⟨4, _⟩ => ⟨S65536x9x9, .i32⟩
  | .hbm, ⟨5, _⟩ => ⟨S65536x9x9, .i1⟩
  | .hbm, ⟨6, _⟩ => ⟨S65536x9x9, .f32⟩
  | .hbm, ⟨7, _⟩ => ⟨S_, .f32⟩
  | .hbm, ⟨8, _⟩ => ⟨S65536x9x9, .f32⟩
  | .hbm, ⟨9, _⟩ => ⟨S_, .f32⟩
  | .hbm, ⟨10, _⟩ => ⟨S65536x9x9, .f32⟩
  | .hbm, ⟨11, _⟩ => ⟨S65536x9x9, .f32⟩
  | .hbm, ⟨12, _⟩ => ⟨S65536x9x9x1, .f32⟩
  | .hbm, ⟨13, _⟩ => ⟨S65536x9x9x10, .f32⟩
  | .hbm, ⟨14, _⟩ => ⟨S65536x9x9x10, .f32⟩
  | .hbm, ⟨15, _⟩ => ⟨S65536x9x9x10, .f32⟩
  | .hbm, ⟨16, _⟩ => ⟨S_, .f32⟩
  | .hbm, ⟨17, _⟩ => ⟨S65536x9x9, .f32⟩
  | .hbm, ⟨18, _⟩ => ⟨S65536x9x9x1, .f32⟩
  | .hbm, ⟨19, _⟩ => ⟨S65536x9x9x1, .f32⟩
  | .hbm, ⟨20, _⟩ => ⟨S65536x9x9x10, .f32⟩
  | .hbm, ⟨21, _⟩ => ⟨S65536x9x9x10, .f32⟩
  | .hbm, ⟨22, _⟩ => ⟨S65536x9x9x1, .i32⟩
  | .hbm, ⟨23, _⟩ => ⟨S_, .i32⟩
  | .hbm, ⟨24, _⟩ => ⟨S65536x9x9x1, .i32⟩
  | .hbm, ⟨25, _⟩ => ⟨S65536x9x9x1, .i1⟩
  | .hbm, ⟨26, _⟩ => ⟨S_, .i32⟩
  | .hbm, ⟨27, _⟩ => ⟨S65536x9x9x1, .i32⟩
  | .hbm, ⟨28, _⟩ => ⟨S65536x9x9x1, .i32⟩
  | .hbm, ⟨29, _⟩ => ⟨S65536x9x9x1, .i32⟩
  | .hbm, ⟨30, _⟩ => ⟨S65536x9x9x1x1, .i32⟩
  | .hbm, ⟨31, _⟩ => ⟨S1, .i32⟩
  | .hbm, ⟨32, _⟩ => ⟨S_, .i32⟩
  | .hbm, ⟨33, _⟩ => ⟨S65536x9x9x1x1, .i32⟩
  | .hbm, ⟨34, _⟩ => ⟨S65536x9x9x1x1, .i1⟩
  | .hbm, ⟨35, _⟩ => ⟨S1x1x1x1x1, .i32⟩
  | .hbm, ⟨36, _⟩ => ⟨S65536x9x9x1x1, .i32⟩
  | .hbm, ⟨37, _⟩ => ⟨S65536x9x9x1x1, .i1⟩
  | .hbm, ⟨38, _⟩ => ⟨S65536x9x9x1x1, .i1⟩
  | .hbm, ⟨39, _⟩ => ⟨S_, .i1⟩
  | .hbm, ⟨40, _⟩ => ⟨S65536x9x9x1, .i1⟩
  | .hbm, ⟨41, _⟩ => ⟨S65536x9x9x1, .f32⟩
  | .hbm, ⟨42, _⟩ => ⟨S_, .f32⟩
  | .hbm, ⟨43, _⟩ => ⟨S65536x9x9x1, .f32⟩
  | .hbm, ⟨44, _⟩ => ⟨S65536x9x9x1, .f32⟩
  | .hbm, ⟨45, _⟩ => ⟨S65536x9x9, .f32⟩
  | .hbm, ⟨46, _⟩ => ⟨S65536x9x9, .f32⟩
  | .hbm, ⟨47, _⟩ => ⟨S65536x9x9, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S65536x9x9x10, .f32⟩
  | .hbm, ⟨56, _⟩ => ⟨S65536x9x9x1, .f32⟩
  | .hbm, ⟨57, _⟩ => ⟨S65536x9x9x10, .f32⟩
  | .hbm, ⟨58, _⟩ => ⟨S65536x9x9x10, .f32⟩
  | .hbm, ⟨59, _⟩ => ⟨S_, .f32⟩
  | .hbm, ⟨60, _⟩ => ⟨S65536x9x10, .f32⟩
  | .hbm, ⟨61, _⟩ => ⟨S_, .f32⟩
  | .hbm, ⟨62, _⟩ => ⟨S65536x9, .f32⟩
  | .hbm, ⟨63, _⟩ => ⟨S65536x9x1, .f32⟩
  | .hbm, ⟨64, _⟩ => ⟨S_, .f32⟩
  | .hbm, ⟨65, _⟩ => ⟨S65536x9x1, .f32⟩
  | .hbm, ⟨66, _⟩ => ⟨S65536x9x1, .f32⟩
  | .hbm, ⟨67, _⟩ => ⟨S65536x9x9, .f32⟩
  | .hbm, ⟨68, _⟩ => ⟨S65536x9x9, .f32⟩
  | .hbm, ⟨69, _⟩ => ⟨S65536x9x9, .f32⟩
  | .hbm, ⟨70, _⟩ => ⟨S65536x9x9, .f32⟩
  | .hbm, ⟨71, _⟩ => ⟨S_, .f32⟩
  | .hbm, ⟨72, _⟩ => ⟨S9, .f32⟩
  | .hbm, ⟨73, _⟩ => ⟨S_, .f32⟩
  | .hbm, ⟨74, _⟩ => ⟨S9, .f32⟩
  | .hbm, ⟨75, _⟩ => ⟨S9, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S65536x9x10, .f32⟩
  | .hbm, ⟨80, _⟩ => ⟨S_, .f32⟩
  | .hbm, ⟨81, _⟩ => ⟨S65536x9, .f32⟩
  | .hbm, ⟨82, _⟩ => ⟨S65536x9x1, .f32⟩
  | .hbm, ⟨83, _⟩ => ⟨S_, .f32⟩
  | .hbm, ⟨84, _⟩ => ⟨S65536x9x1, .f32⟩
  | .hbm, ⟨85, _⟩ => ⟨S65536x9x1, .f32⟩
  | .hbm, ⟨86, _⟩ => ⟨S65536x9x9, .f32⟩
  | .hbm, ⟨87, _⟩ => ⟨S65536x9x9, .f32⟩
  | .hbm, ⟨88, _⟩ => ⟨S65536x9x9, .f32⟩
  | .hbm, ⟨89, _⟩ => ⟨S65536x9x9, .f32⟩
  | .hbm, ⟨90, _⟩ => ⟨S_, .f32⟩
  | .hbm, ⟨91, _⟩ => ⟨S9, .f32⟩
  | .hbm, ⟨92, _⟩ => ⟨S_, .f32⟩
  | .hbm, ⟨93, _⟩ => ⟨S9, .f32⟩
  | .hbm, ⟨94, _⟩ => ⟨S9, .f32⟩
  | .hbm, ⟨95, _⟩ => ⟨S_, .f32⟩
  | .hbm, ⟨96, _⟩ => ⟨S_, .f32⟩
  | .hbm, ⟨97, _⟩ => ⟨S65536x3x3x3x3x10, .f32⟩
  | .hbm, ⟨98, _⟩ => ⟨S_, .f32⟩
  | .hbm, ⟨99, _⟩ => ⟨S65536x3x3x10, .f32⟩
  | .hbm, ⟨100, _⟩ => ⟨S65536x9x10, .f32⟩
  | .hbm, ⟨101, _⟩ => ⟨S65536x3x3x3x3, .f32⟩
  | .hbm, ⟨102, _⟩ => ⟨S_, .f32⟩
  | .hbm, ⟨103, _⟩ => ⟨S65536x3x3, .f32⟩
  | .hbm, ⟨104, _⟩ => ⟨S65536x9, .f32⟩
  | .hbm, ⟨105, _⟩ => ⟨S65536x9x1, .f32⟩
  | .hbm, ⟨106, _⟩ => ⟨S_, .f32⟩
  | .hbm, ⟨107, _⟩ => ⟨S65536x9x1, .f32⟩
  | .hbm, ⟨108, _⟩ => ⟨S65536x9x1, .f32⟩
  | .hbm, ⟨109, _⟩ => ⟨S65536x9x9, .f32⟩
  | .hbm, ⟨110, _⟩ => ⟨S65536x9x9, .f32⟩
  | .hbm, ⟨111, _⟩ => ⟨S65536x9x9, .f32⟩
  | .hbm, ⟨112, _⟩ => ⟨S65536x9x9, .f32⟩
  | .hbm, ⟨113, _⟩ => ⟨S_, .f32⟩
  | .hbm, ⟨114, _⟩ => ⟨S9, .f32⟩
  | .hbm, ⟨115, _⟩ => ⟨S_, .f32⟩
  | .hbm, ⟨116, _⟩ => ⟨S9, .f32⟩
  | .hbm, ⟨117, _⟩ => ⟨S9, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | .hbm, ⟨124, _⟩ => ⟨S_, .f32⟩
  | .hbm, ⟨125, _⟩ => ⟨S_, .f32⟩
  | .hbm, ⟨126, _⟩ => ⟨S_, .f32⟩
  | _, _ => ⟨S65536x9x9x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_call0_cst_0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_cst_1 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_v3 : Ref sig .tc := ⟨.hbm, 21, rfl⟩
abbrev main_v4 : Ref sig .tc := ⟨.hbm, 22, rfl⟩
abbrev main_call1_c : Ref sig .tc := ⟨.hbm, 23, rfl⟩
abbrev main_call1_v0 : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_c_1 : Ref sig .tc := ⟨.hbm, 31, rfl⟩
abbrev main_call1_c_2 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_3 : Ref sig .tc := ⟨.hbm, 39, rfl⟩
abbrev main_call1_v12 : Ref sig .tc := ⟨.hbm, 40, rfl⟩
abbrev main_call1_v13 : Ref sig .tc := ⟨.hbm, 41, rfl⟩
abbrev main_call1_cst : Ref sig .tc := ⟨.hbm, 42, rfl⟩
abbrev main_call1_v14 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_cst : Ref sig .tc := ⟨.hbm, 48, rfl⟩
abbrev main_v9 : Ref sig .tc := ⟨.hbm, 49, rfl⟩
abbrev main_cst_0 : Ref sig .tc := ⟨.hbm, 50, rfl⟩
abbrev main_v10 : Ref sig .tc := ⟨.hbm, 51, rfl⟩
abbrev main_cst_1 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_cst_2 : Ref sig .tc := ⟨.hbm, 59, rfl⟩
abbrev main_v17 : Ref sig .tc := ⟨.hbm, 60, rfl⟩
abbrev main_cst_3 : Ref sig .tc := ⟨.hbm, 61, rfl⟩
abbrev main_v18 : Ref sig .tc := ⟨.hbm, 62, rfl⟩
abbrev main_v19 : Ref sig .tc := ⟨.hbm, 63, rfl⟩
abbrev main_cst_4 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_cst_5 : Ref sig .tc := ⟨.hbm, 71, rfl⟩
abbrev main_v26 : Ref sig .tc := ⟨.hbm, 72, rfl⟩
abbrev main_cst_6 : Ref sig .tc := ⟨.hbm, 73, rfl⟩
abbrev main_v27 : Ref sig .tc := ⟨.hbm, 74, rfl⟩
abbrev main_v28 : Ref sig .tc := ⟨.hbm, 75, rfl⟩
abbrev main_cst_7 : Ref sig .tc := ⟨.hbm, 76, rfl⟩
abbrev main_v29 : Ref sig .tc := ⟨.hbm, 77, rfl⟩
abbrev main_cst_8 : Ref sig .tc := ⟨.hbm, 78, rfl⟩
abbrev main_v30 : Ref sig .tc := ⟨.hbm, 79, rfl⟩
abbrev main_cst_9 : Ref sig .tc := ⟨.hbm, 80, rfl⟩
abbrev main_v31 : Ref sig .tc := ⟨.hbm, 81, rfl⟩
abbrev main_v32 : Ref sig .tc := ⟨.hbm, 82, rfl⟩
abbrev main_cst_10 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_cst_11 : Ref sig .tc := ⟨.hbm, 90, rfl⟩
abbrev main_v39 : Ref sig .tc := ⟨.hbm, 91, rfl⟩
abbrev main_cst_12 : Ref sig .tc := ⟨.hbm, 92, rfl⟩
abbrev main_v40 : Ref sig .tc := ⟨.hbm, 93, rfl⟩
abbrev main_v41 : Ref sig .tc := ⟨.hbm, 94, rfl⟩
abbrev main_cst_13 : Ref sig .tc := ⟨.hbm, 95, rfl⟩
abbrev main_v42 : Ref sig .tc := ⟨.hbm, 96, rfl⟩
abbrev main_v43 : Ref sig .tc := ⟨.hbm, 97, rfl⟩
abbrev main_cst_14 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_cst_15 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_cst_16 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_cst_17 : Ref sig .tc := ⟨.hbm, 113, rfl⟩
abbrev main_v56 : Ref sig .tc := ⟨.hbm, 114, rfl⟩
abbrev main_cst_18 : Ref sig .tc := ⟨.hbm, 115, rfl⟩
abbrev main_v57 : Ref sig .tc := ⟨.hbm, 116, rfl⟩
abbrev main_v58 : Ref sig .tc := ⟨.hbm, 117, rfl⟩
abbrev main_cst_19 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_cst_20 : Ref sig .tc := ⟨.hbm, 122, rfl⟩
abbrev main_v62 : Ref sig .tc := ⟨.hbm, 123, rfl⟩
abbrev main_cst_21 : Ref sig .tc := ⟨.hbm, 124, rfl⟩
abbrev main_v63 : Ref sig .tc := ⟨.hbm, 125, rfl⟩
abbrev main_v64 : Ref sig .tc := ⟨.hbm, 126, rfl⟩

abbrev nD : Nat := 1
abbrev τ : Topo := Topo.v7x

variable {F : FTy → Type} [FloatOps F]

class Facts₀ : Prop where
  bcast_S_S65536x9x9 : S_.BroadcastsInDim S65536x9x9 (![] : Fin 0 → Fin S65536x9x9.rank)
  reducesTo_S65536x9x9x10_S65536x9x9_d3 : S65536x9x9x10.ReducesTo [3] S65536x9x9
  h_S_ : 0 < S_.numel
  bcast_S65536x9x9_S65536x9x9x1_0_1_2 : S65536x9x9.BroadcastsInDim S65536x9x9x1 (![0, 1, 2] : Fin 3 → Fin S65536x9x9x1.rank)
  bcast_S65536x9x9x1_S65536x9x9x10_0_1_2_3 : S65536x9x9x1.BroadcastsInDim S65536x9x9x10 (![0, 1, 2, 3] : Fin 4 → Fin S65536x9x9x10.rank)
  bcast_S_S65536x9x9x1 : S_.BroadcastsInDim S65536x9x9x1 (![] : Fin 0 → Fin S65536x9x9x1.rank)
  shapeCasts_S65536x9x9x1_S65536x9x9x1x1 : S65536x9x9x1.ShapeCasts S65536x9x9x1x1
  bcast_S_S65536x9x9x1x1 : S_.BroadcastsInDim S65536x9x9x1x1 (![] : Fin 0 → Fin S65536x9x9x1x1.rank)
  bcast_S1_S1x1x1x1x1_4 : S1.BroadcastsInDim S1x1x1x1x1 (![4] : Fin 1 → Fin S1x1x1x1x1.rank)
  bcast_S1x1x1x1x1_S65536x9x9x1x1_0_1_2_3_4 : S1x1x1x1x1.BroadcastsInDim S65536x9x9x1x1 (![0, 1, 2, 3, 4] : Fin 5 → Fin S65536x9x9x1x1.rank)
  reducesTo_S65536x9x9x1x1_S65536x9x9x1_d4 : S65536x9x9x1x1.ReducesTo [4] S65536x9x9x1
  shapeCasts_S65536x9x9x1_S65536x9x9 : S65536x9x9x1.ShapeCasts S65536x9x9
  reducesTo_S65536x9x9_S_d0_1_2 : S65536x9x9.ReducesTo [0, 1, 2] S_
  reducesTo_S65536x9x9x10_S65536x9x10_d2 : S65536x9x9x10.ReducesTo [2] S65536x9x10
  reducesTo_S65536x9x9_S65536x9_d2 : S65536x9x9.ReducesTo [2] S65536x9
  bcast_S65536x9_S65536x9x1_0_1 : S65536x9.BroadcastsInDim S65536x9x1 (![0, 1] : Fin 2 → Fin S65536x9x1.rank)
  bcast_S_S65536x9x1 : S_.BroadcastsInDim S65536x9x1 (![] : Fin 0 → Fin S65536x9x1.rank)
  slices_S65536x9x10_S65536x9x9_0_0_1 : S65536x9x10.Slices ![0, 0, 1] S65536x9x9
  bcast_S65536x9x1_S65536x9x9_0_1_2 : S65536x9x1.BroadcastsInDim S65536x9x9 (![0, 1, 2] : Fin 3 → Fin S65536x9x9.rank)
  reducesTo_S65536x9x9_S9_d0_2 : S65536x9x9.ReducesTo [0, 2] S9
  bcast_S_S9 : S_.BroadcastsInDim S9 (![] : Fin 0 → Fin S9.rank)
  reducesTo_S9_S_d0 : S9.ReducesTo [0] S_
  reducesTo_S65536x9x9x10_S65536x9x10_d1 : S65536x9x9x10.ReducesTo [1] S65536x9x10
  reducesTo_S65536x9x9_S65536x9_d1 : S65536x9x9.ReducesTo [1] S65536x9
  shapeCasts_S65536x9x9x10_S65536x3x3x3x3x10 : S65536x9x9x10.ShapeCasts S65536x3x3x3x3x10
  reducesTo_S65536x3x3x3x3x10_S65536x3x3x10_d2_4 : S65536x3x3x3x3x10.ReducesTo [2, 4] S65536x3x3x10
  shapeCasts_S65536x3x3x10_S65536x9x10 : S65536x3x3x10.ShapeCasts S65536x9x10
  shapeCasts_S65536x9x9_S65536x3x3x3x3 : S65536x9x9.ShapeCasts S65536x3x3x3x3
  reducesTo_S65536x3x3x3x3_S65536x3x3_d2_4 : S65536x3x3x3x3.ReducesTo [2, 4] S65536x3x3
  shapeCasts_S65536x3x3_S65536x9 : S65536x3x3.ShapeCasts S65536x9
  gather_S65536x9x9x10_S65536x9x9x1x1_S65536x9x9x1_n_3_012_012_3_4_1111_wf : GatherDims.WF S65536x9x9x10 S65536x9x9x1x1 S65536x9x9x1 [] [3] [0, 1, 2] [3] [0, 1, 2] 4 ![1, 1, 1, 1]

variable [Facts₀]

def gather_S65536x9x9x10_S65536x9x9x1x1_S65536x9x9x1_n_3_012_012_3_4_1111 : GatherDims S65536x9x9x10 S65536x9x9x1x1 S65536x9x9x1 where
  offsetDims := []
  collapsedSliceDims := [3]
  operandBatchingDims := [0, 1, 2]
  startIndicesBatchingDims := [0, 1, 2]
  startIndexMap := [3]
  indexVectorDim := 4
  sliceSizes := ![1, 1, 1, 1]
  wf := gather_S65536x9x9x10_S65536x9x9x1x1_S65536x9x9x1_n_3_012_012_3_4_1111_wf

class Facts : Prop extends Facts₀ where

variable [Facts]
-- ==== Proof.KAcc.lean ====
import proofs.«410291_j73229192397510_2_alg».proof.Proof.Gen.KernelIdeal.Frame
import Idealize.ShloMosaic.Lib.Pipeline.Value
import Idealize.ShloMosaic.Lib.StableHlo.Run
import Idealize.ShloMosaic.Lib.Tactic

/-!
  The kernel's run, read as values, at any float instance.

  The kernel keeps a 128-lane accumulator.  At every grid point it forms, from that point's block
  of 64 puzzles, a 128-lane vector holding five scalars in lanes 0 … 4 and adds it to the
  accumulator; at the first point the accumulator starts from zero.  The output block never moves
  and is written back once, after the last point, so the result array is the accumulator after
  point 1023.  The three results are then computed from lanes 0 … 4 of that array.
-/

set_option maxRecDepth 16384

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F] [Named F]
variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- One point's work: from the block's scores `x0`, labels `x1` and givens `x2`, the accumulator `acc` plus the
    point's five-lane vector. -/
def step (x0 : Vec F S64x9x9x10 .f32) (x1 x2 : Vec F S64x9x9 .i32) (acc : Vec F S1x128 .f32) : Vec F S1x128 .f32 :=
  k0_pay1 (k0_pay15 (k0_pay11 (k0_pay3 x2) (k0_pay7 x0)) (k0_pay12 (k0_pay3 x2))) acc
    (iota .tc S1x128 32 [1] iota_S1x128_d1_w32)
    (k0_pay16 (k0_pay8 x0 x1 x2) (k0_pay9 (k0_pay3 x2)) (k0_pay13 (k0_pay3 x2) (k0_pay7 x0)) (k0_pay14 (k0_pay3 x2) (k0_pay7 x0)))

/-- A later point leaves, in the accumulator holding `xs0`, one step from `xs0`. -/
theorem sout_B (c : Dev nD) (i : grid0.Coords) (a1 : Memref sig .tc .vmem S64x9x9x10 .f32) (h1 : a1.IsWhole)
    (a2 : Memref sig .tc .vmem S64x9x9 .i32) (h2 : a2.IsWhole) (a3 : Memref sig .tc .vmem S64x9x9 .i32) (h3 : a3.IsWhole)
    (a4 : Memref sig .tc .vmem S1x128 .f32) (h4 : a4.IsWhole) (a5 : Memref sig .tc .vmem S1x128 .f32) (h5 : a5.IsWhole)
    (hc : ¬cond0_0 i) (x0 : Vec F S64x9x9x10 .f32) (x1 x2 : Vec F S64x9x9 .i32) (xs0 : Vec F S1x128 .f32) :
    sout0_B_0 c i a1 h1 a2 h2 a3 h3 a4 h4 a5 h5 hc x0 x1 x2 xs0 = step x0 x1 x2 xs0 := by
  unfold sout0_B_0
  rw [View.read_writes_eq_canon _ _ _ (scover0_B_0 c i a1 h1 a2 h2 a3 h3 a4 h4 a5 h5 hc x0 x1 x2 xs0)]
  unfold kernelRun0_B
  dsimp only
  sl_unfold_words
  rw [View.canon_unit_zero hz2]
  simp only [View.readAt_eq_ld, h1.read_unread, h2.read_unread, h3.read_unread, h5.read_unread,
    View.ld_unit_zero (S := S64x9x9x10) hz4, View.ld_unit_zero (S := S64x9x9) hz3, View.ld_unit_zero (S := S1x128) hz2]
  rfl

/-- and the same in the output's staging buffer, which is loaded from the accumulator just stored. -/
theorem out_B (c : Dev nD) (i : grid0.Coords) (a1 : Memref sig .tc .vmem S64x9x9x10 .f32) (h1 : a1.IsWhole)
    (a2 : Memref sig .tc .vmem S64x9x9 .i32) (h2 : a2.IsWhole) (a3 : Memref sig .tc .vmem S64x9x9 .i32) (h3 : a3.IsWhole)
    (a4 : Memref sig .tc .vmem S1x128 .f32) (h4 : a4.IsWhole) (a5 : Memref sig .tc .vmem S1x128 .f32) (h5 : a5.IsWhole)
    (hc : ¬cond0_0 i) (x0 : Vec F S64x9x9x10 .f32) (x1 x2 : Vec F S64x9x9 .i32) (xs0 : Vec F S1x128 .f32) :
    out0_B_3 c i a1 h1 a2 h2 a3 h3 a4 h4 a5 h5 hc x0 x1 x2 xs0 = step x0 x1 x2 xs0 := by
  unfold out0_B_3
  rw [View.read_writes_eq_canon _ _ _ (cover0_B_3 c i a1 h1 a2 h2 a3 h3 a4 h4 a5 h5 hc x0 x1 x2 xs0)]
  unfold kernelRun0_B
  dsimp only
  sl_unfold_words
  rw [View.canon_unit_zero hz2, View.readCov_unit_zero (S := S1x128) _ hz2]
  simp only [View.readAt_eq_ld, h1.read_unread, h2.read_unread, h3.read_unread, h5.read_unread,
    View.ld_unit_zero (S := S64x9x9x10) hz4, View.ld_unit_zero (S := S64x9x9) hz3, View.ld_unit_zero (S := S1x128) hz2]
  rfl

/-- The first point stores zero, reads it back, and leaves one step from zero. -/
theorem sout_A (c : Dev nD) (i : grid0.Coords) (a1 : Memref sig .tc .vmem S64x9x9x10 .f32) (h1 : a1.IsWhole)
    (a2 : Memref sig .tc .vmem S64x9x9 .i32) (h2 : a2.IsWhole) (a3 : Memref sig .tc .vmem S64x9x9 .i32) (h3 : a3.IsWhole)
    (a4 : Memref sig .tc .vmem S1x128 .f32) (h4 : a4.IsWhole) (a5 : Memref sig .tc .vmem S1x128 .f32) (h5 : a5.IsWhole)
    (hc : cond0_0 i) (x0 : Vec F S64x9x9x10 .f32) (x1 x2 : Vec F S64x9x9 .i32) :
    sout0_A_0 c i a1 h1 a2 h2 a3 h3 a4 h4 a5 h5 hc x0 x1 x2 = step x0 x1 x2 k0_pay2 := by
  unfold sout0_A_0
  rw [View.read_writes_eq_canon _ _ _ (scover0_A_0 c i a1 h1 a2 h2 a3 h3 a4 h4 a5 h5 hc x0 x1 x2)]
  unfold kernelRun0_A
  dsimp only
  sl_unfold_words
  rw [View.canon_cons_unit_zero (S := S1x128) hz2, View.readCov_unit_zero (S := S1x128) _ hz2]
  simp only [View.readAt_eq_ld, h1.read_unread, h2.read_unread, h3.read_unread,
    View.ld_unit_zero (S := S64x9x9x10) hz4, View.ld_unit_zero (S := S64x9x9) hz3, View.ld_unit_zero (S := S1x128) hz2]
  rfl

theorem out_A (c : Dev nD) (i : grid0.Coords) (a1 : Memref sig .tc .vmem S64x9x9x10 .f32) (h1 : a1.IsWhole)
    (a2 : Memref sig .tc .vmem S64x9x9 .i32) (h2 : a2.IsWhole) (a3 : Memref sig .tc .vmem S64x9x9 .i32) (h3 : a3.IsWhole)
    (a4 : Memref sig .tc .vmem S1x128 .f32) (h4 : a4.IsWhole) (a5 : Memref sig .tc .vmem S1x128 .f32) (h5 : a5.IsWhole)
    (hc : cond0_0 i) (x0 : Vec F S64x9x9x10 .f32) (x1 x2 : Vec F S64x9x9 .i32) :
    out0_A_3 c i a1 h1 a2 h2 a3 h3 a4 h4 a5 h5 hc x0 x1 x2 = step x0 x1 x2 k0_pay2 := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_unit_zero hz2, View.readCov_cons_toLoadRect, View.readCov_unit_zero (S := S1x128) _ hz2]
  simp only [View.readAt_eq_ld, h1.read_unread, h2.read_unread, h3.read_unread,
    View.ld_unit_zero (S := S64x9x9x10) hz4, View.ld_unit_zero (S := S64x9x9) hz3, View.ld_unit_zero (S := S1x128) hz2]
  rfl

/-! ## Point by point -/

/-- The blocks of the three inputs at point `t`, at their literal types. -/
abbrev xblk (c : Dev nD) (t : Fin cfg0.N) : Vec F S64x9x9x10 .f32 := iblk m c 0 t
abbrev tblk (c : Dev nD) (t : Fin cfg0.N) : Vec F S64x9x9 .i32 := iblk m c 1 t
abbrev pblk (c : Dev nD) (t : Fin cfg0.N) : Vec F S64x9x9 .i32 := iblk m c 2 t

/-- The accumulator after point `n`: one step from zero at point 0, then one step per point. -/
def accAt (c : Dev nD) : (n : ℕ) → n < cfg0.N → Vec F S1x128 .f32
  | 0, h => step (xblk m c ⟨0, h⟩) (tblk m c ⟨0, h⟩) (pblk m c ⟨0, h⟩) k0_pay2
  | n + 1, h => step (xblk m c ⟨n + 1, h⟩) (tblk m c ⟨n + 1, h⟩) (pblk m c ⟨n + 1, h⟩) (accAt c n (Nat.lt_of_succ_lt h))

/-- After every point both the output's staging buffer and the carried scratch hold the accumulator. -/
theorem outsAt_eq (c : Dev nD) : ∀ (n : ℕ) (h : n < cfg0.N), outsAt0 m c n h = (accAt m c n h, accAt m c n h)
  | 0, h => by
    rw [outsAt0_A m c ⟨0, h⟩ rfl, out_A, sout_A]
    rfl
  | n + 1, h => by
    have hN : cfg0.N = 1024 := N_0
    have hB : ¬(⟨n + 1, h⟩ : Fin cfg0.N).val % 1024 = 0 := by dsimp only; omega
    rw [outsAt0_B m c ⟨n + 1, h⟩ hB, out_B, sout_B]
    show (step _ _ _ (outsAt0 m c n _).2, step _ _ _ (outsAt0 m c n _).2) = _
    rw [outsAt_eq c n]
    rfl

/-! ## The result array -/

theorem lastLt : 1023 < cfg0.N := by rw [show cfg0.N = 1024 from N_0]; decide

/-- The last grid point. -/
def tLast : Fin cfg0.N := ⟨1023, lastLt⟩

/-- The accumulator after the last point, as contents of the result array (its one block is the whole array). -/
abbrev result (c : Dev nD) : Buf (Elt F) ((c : Thread nD τ).loc main_v0) := accAt m c 1023 lastLt

/-- The output block never moves: its index is (0, 0) at every point. -/
theorem outIdx (t : Fin cfg0.N) (a : Fin 2) : win0_3.index t a = 0 := by
  fin_cases a <;> rfl

/-- The one write-back, after the last point, writes the accumulator: block (0, 0) of the [1, 128] array read through
    zero offsets is the array. -/
theorem flushed_eq (c : Dev nD) (t : Fin cfg0.N) (hf : (cfg0.win 3).flush t = true) :
    (dats m 0 c).flushed 3 t = ((cfg0.win 3).blk t).view.read (Elt F) (result m c) := by
  have hN : cfg0.N = 1024 := N_0
  have h3 : t.val = 1023 := by have := (flush0_3 t).mp hf; have := t.isLt; omega
  obtain rfl : t = tLast := Fin.ext h3
  show (cfg0.win 3).cut (grid0.coords tLast) ((dats m 0 c).after 3 tLast) = _
  rw [after0_3, outsAt_eq]
  have hz' : (fun a => win0_3.index tLast a * main_v0.ty.shape.size a) = fun _ => 0 :=
    funext fun a => by rw [outIdx]; exact Nat.zero_mul _
  exact (Memref.read_access_unit_zero (Elt F) main_v0 hz' (fun a => by rw [congrFun hz' a]; simp) (result m c)).symm

/-- So the result array ends holding the accumulator after the last point: that point's block covers it. -/
theorem final_o (c : Dev nD) : (dats m 0 c).arrAt 3 cfg0.N = result m c :=
  (dats m 0 c).arrAt_eq_of_cover 3 (result m c) (flushed_eq m c) fun i =>
    ⟨tLast, (flush0_3 tLast).mpr rfl, by
      show i ∈ ((View.whole main_v0).slice (win0_3.rect tLast)).set
      rw [View.set_slice_whole, Rect.mem_set_unit]
      intro a
      have h0 : (i 0 : Nat) < 1 := (i 0).isLt
      have h1 : (i 1 : Nat) < 128 := (i 1).isLt
      match a with
      | ⟨0, _⟩ =>
        show win0_3.index tLast 0 * win0_3.size 0 ≤ (i 0 : Nat) ∧ (i 0 : Nat) < win0_3.index tLast 0 * win0_3.size 0 + win0_3.xsize (grid0.coords tLast) 0
        rw [outIdx, show win0_3.xsize (grid0.coords tLast) 0 = 1 from rfl]; omega
      | ⟨1, _⟩ =>
        show win0_3.index tLast 1 * win0_3.size 1 ≤ (i 1 : Nat) ∧ (i 1 : Nat) < win0_3.index tLast 1 * win0_3.size 1 + win0_3.xsize (grid0.coords tLast) 1
        rw [outIdx, show win0_3.xsize (grid0.coords tLast) 1 = 128 from rfl]; omega⟩

/-! ## The lines after the region -/

/-- One lane of the result array, as a rank-0 value. -/
def laneOf (o : Vec F S1x128 .f32) (off : Fin 2 → ℕ) (h : S1x128.Slices off S1x1) : FVec F S_ .f32 :=
  shapeCast S_ (extractStridedSlice S1x1 off o h) shapeCasts_S1x1_S_

/-- The cross-entropy loss from lanes 0 and 1. -/
def tailCe (o : Vec F S1x128 .f32) : FVec F S_ .f32 :=
  Host.divf (laneOf o ![0, 0] slices_S1x128_S1x1_0_0)
    (addf (laneOf o ![0, 1] slices_S1x128_S1x1_0_1) (constant S_ .f32 0x322BCC77#32))

/-- The constraint loss from lanes 2, 3 and 4. -/
def tailCon (o : Vec F S1x128 .f32) : FVec F S_ .f32 :=
  Host.divf (addf (addf (Host.divf (laneOf o ![0, 2] slices_S1x128_S1x1_0_2) (constant S_ .f32 0x49100000#32))
      (Host.divf (laneOf o ![0, 3] slices_S1x128_S1x1_0_3) (constant S_ .f32 0x49100000#32)))
      (Host.divf (laneOf o ![0, 4] slices_S1x128_S1x1_0_4) (constant S_ .f32 0x49100000#32)))
    (constant S_ .f32 0x41D80000#32)

/-- The total. -/
def tailTotal (o : Vec F S1x128 .f32) : FVec F S_ .f32 :=
  addf (tailCe o) (mulf (constant S_ .f32 0x3DCCCCCD#32) (tailCon o))

/-- What the lines after the region find in the result array. -/
theorem region_out (c : Dev nD) :
    Pipeline.withArrays (cfgs 0).spec c (V0 m c) (fun w => (dats m 0 c).arrAt w (cfgs 0).N) (Proc.tc.devRef main_v0)
      = result m c :=
  (Pipeline.withArrays_arr spec0 launch0.win.arr_inj c _ _ 3).trans (final_o m c)

theorem tail_v12 (c : Dev nD) :
    Pipeline.afterTail₀ cfgs (dats m) 0 (V0 m) [hostOps1] c main_v12 = tailCe (result m c) := by
  unfold Pipeline.afterTail₀
  show StableHlo.after hostOps1 _ (Proc.devRef .tc main_v12) = _
  after_results
  rw [region_out]
  rfl

theorem tail_v18 (c : Dev nD) :
    Pipeline.afterTail₀ cfgs (dats m) 0 (V0 m) [hostOps1] c main_v18 = tailCon (result m c) := by
  unfold Pipeline.afterTail₀
  show StableHlo.after hostOps1 _ (Proc.devRef .tc main_v18) = _
  after_results
  rw [region_out]
  rfl

set_option maxHeartbeats 1600000 in
theorem tail_v20 (c : Dev nD) :
    Pipeline.afterTail₀ cfgs (dats m) 0 (V0 m) [hostOps1] c main_v20 = tailTotal (result m c) := by
  unfold Pipeline.afterTail₀
  show StableHlo.after hostOps1 _ (Proc.devRef .tc main_v20) = _
  after_results_simp
  rw [region_out]
  rfl

/-! ## The run -/

/-- Every weakly fair execution ends with the three results at the tail's functions of the accumulator after the last
    point, and the three arguments unchanged. -/
theorem run : θ_run defs (onTc (τ := τ) (main (F := F))) ⟨m, fun _ => 0, ρ⟩ fun r => ∀ c : Dev nD,
      r.2.mem ((c.tc : Thread nD τ).loc main_v20) = tailTotal (result m c)
      ∧ r.2.mem ((c.tc : Thread nD τ).loc main_v12) = tailCe (result m c)
      ∧ r.2.mem ((c.tc : Thread nD τ).loc main_v18) = tailCon (result m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v20 (Pipeline.mem_restRefs_of main_v20 rfl (by decide))).trans (tail_v20 m c),
     ((h c).2 main_v12 (Pipeline.mem_restRefs_of main_v12 rfl (by decide))).trans (tail_v12 m c),
     ((h c).2 main_v18 (Pipeline.mem_restRefs_of main_v18 rfl (by decide))).trans (tail_v18 m c),
     ((h c).1 0).trans ((dats m 0 c).arrAt_in 0 rfl _),
     ((h c).1 1).trans ((dats m 0 c).arrAt_in 1 rfl _),
     ((h c).1 2).trans ((dats m 0 c).arrAt_in 2 rfl _)⟩)
    (run_main m ρ)

end Cert.KernelIdeal.Acc

end
-- ==== Proof.Spec.lean ====
import Idealize.ShloMosaic.PureOps.Ideal
import Idealize.ShloMosaic.Lib.ValueIdx

/-!
  The Sudoku loss as mathematics.

  One puzzle is a 9 × 9 board; each cell carries ten class scores (`Board`), a label word and a
  givens word (`Words`).  A cell is BLANK when its givens word is zero.  Per cell: the scores are
  shifted by their maximum, `mass` is the sum of their exponentials, `logp` the log-softmax and
  `prob` the softmax.  Per puzzle five numbers are formed: the cross entropy summed over blank
  cells, the number of blank cells, and for rows, columns and 3 × 3 boxes the sum over groups and
  over the classes 1 … 9 of the squared deviation of the group's blank-weighted probability mass
  from one ninth of the group's blank count.  The loss is built from the five totals over all
  65536 puzzles.

  Two spellings of the same quantities are given.  The first (`prob`, `ce`, `ninthOf`, one
  division of each total) is a product form: the softmax as a quotient, the label picked by a
  one-hot sum, the ninth as a product with 1/9.  The second (`probE`, `ceAt`, `byNine`, a
  division per group then a sum) exponentiates the log-softmax, reads it at the label, divides
  by nine, and averages each group before adding the groups.  They agree when every score is a
  real number and every label lies in 0 … 9.
-/

noncomputable section

open scoped BigOperators

namespace Cert.Sudoku

open Idealize.ShloMosaic Idealize.ShloMosaic.ValueIdx

/-- One puzzle's scores by (row, column, class). -/
abbrev Board := Fin 9 → Fin 9 → Fin 10 → EReal
/-- One puzzle's words (labels, or givens) by (row, column). -/
abbrev Words := Fin 9 → Fin 9 → BitVec 32
/-- A weight per (row, column, class), and a weight per (row, column). -/
abbrev W3 := Fin 9 → Fin 9 → Fin 10 → EReal
abbrev W2 := Fin 9 → Fin 9 → EReal

/-! ## One cell -/

/-- 1 on a blank cell (givens word zero), else 0. -/
def blank (p : Words) : W2 := fun r c => if p r c = 0#32 then 1 else 0

/-- The largest of a cell's ten scores (the fold of `max` from −∞). -/
def peak (x : Board) (r c : Fin 9) : EReal :=
  (Finset.univ : Finset (Fin 10)).fold max ⊥ (fun k => x r c k)

def shifted (x : Board) (r c : Fin 9) (k : Fin 10) : EReal := x r c k - peak x r c

def mass (x : Board) (r c : Fin 9) : EReal := ∑ k : Fin 10, Ideal.exp (shifted x r c k)

/-- The log-softmax. -/
def logp (x : Board) (r c : Fin 9) (k : Fin 10) : EReal := shifted x r c k - Ideal.log (mass x r c)

/-- The softmax as a quotient. -/
def prob (x : Board) : W3 := fun r c k => Ideal.div (Ideal.exp (shifted x r c k)) (mass x r c)

/-- The softmax as the exponential of the log-softmax. -/
def probE (x : Board) : W3 := fun r c k => Ideal.exp (logp x r c k)

/-- 1 where class `k` is the cell's label, else 0. -/
def hit (t : Words) (r c : Fin 9) (k : Fin 10) : EReal := if BitVec.ofNat 32 k.val = t r c then 1 else 0

/-- The cell's cross entropy by a one-hot sum. -/
def ce (x : Board) (t : Words) : W2 := fun r c => 0 - ∑ k : Fin 10, hit t r c k * logp x r c k

/-- A label word as a class (its value modulo ten: the value itself on 0 … 9). -/
def label (w : BitVec 32) : Fin 10 := ⟨w.toNat % 10, Nat.mod_lt _ (by decide)⟩

/-- The cell's cross entropy read at the label. -/
def ceAt (x : Board) (t : Words) : W2 := fun r c => -(logp x r c (label (t r c)))

/-- A per-class weight masked by the blanks. -/
def masked (w : W3) (b : W2) : W3 := fun r c k => w r c k * b r c

/-! ## One puzzle -/

/-- The sum over the board of a per-cell value times the blank indicator, rows outermost. -/
def ceSum (e b : W2) : EReal := ∑ r : Fin 9, ∑ c : Fin 9, e r c * b r c

def count (b : W2) : EReal := ∑ r : Fin 9, ∑ c : Fin 9, b r c

/-- Row `g`: sums over its columns. -/
def rowDs (w : W3) (g : Fin 9) (k : Fin 10) : EReal := ∑ c : Fin 9, w g c k
def rowMs (b : W2) (g : Fin 9) : EReal := ∑ c : Fin 9, b g c

/-- Column `g`: sums over its rows. -/
def colDs (w : W3) (g : Fin 9) (k : Fin 10) : EReal := ∑ r : Fin 9, w r g k
def colMs (b : W2) (g : Fin 9) : EReal := ∑ r : Fin 9, b r g

/-- Line `3a + i` of band `a`. -/
def line (a i : Fin 3) : Fin 9 := ⟨3 * a.val + i.val, by have := a.isLt; have := i.isLt; omega⟩
/-- Box `g` is band `g / 3` of rows and band `g % 3` of columns. -/
def bandR (g : Fin 9) : Fin 3 := ⟨g.val / 3, by have := g.isLt; omega⟩
def bandC (g : Fin 9) : Fin 3 := ⟨g.val % 3, Nat.mod_lt _ (by decide)⟩

/-- Box `g`: sums over its three columns of the sums over its three rows. -/
def boxDs (w : W3) (g : Fin 9) (k : Fin 10) : EReal :=
  ∑ j : Fin 3, ∑ i : Fin 3, w (line (bandR g) i) (line (bandC g) j) k
def boxMs (b : W2) (g : Fin 9) : EReal :=
  ∑ j : Fin 3, ∑ i : Fin 3, b (line (bandR g) i) (line (bandC g) j)

/-- One ninth, as a real. -/
def ninth : EReal := ((1 / 9 : ℝ) : EReal)

/-- A ninth of a count, as a product. -/
def ninthOf (m : EReal) : EReal := m * ninth

/-- A ninth of a count, as a quotient by the float nine. -/
def byNine (m : EReal) : EReal := Ideal.div m (Ideal.ofBits .f32 0x41100000#32)

/-- The squared deviation of class `k + 1`'s mass in group `g` from the group's target. -/
def dev2 (tgt : EReal → EReal) (ds : Fin 9 → Fin 10 → EReal) (ms : Fin 9 → EReal) (g k : Fin 9) : EReal :=
  (ds g k.succ - tgt (ms g)) * (ds g k.succ - tgt (ms g))

/-- Summed over groups, then over the classes 1 … 9. -/
def sqDev (tgt : EReal → EReal) (ds : Fin 9 → Fin 10 → EReal) (ms : Fin 9 → EReal) : EReal :=
  ∑ g : Fin 9, ∑ k : Fin 9, dev2 tgt ds ms g k

/-! ## All puzzles -/

abbrev Scores := (⟨4, ![65536, 9, 9, 10]⟩ : Shape).Idx → EReal
abbrev WordsAll := (⟨3, ![65536, 9, 9]⟩ : Shape).Idx → BitVec 32

def boardAt (X : Scores) (n : Fin 65536) : Board := fun r c k => X (ix4 n r c k)
def wordsAt (W : WordsAll) (n : Fin 65536) : Words := fun r c => W (ix3 n r c)

/-- The float constants of the final combination. -/
def cEps : EReal := Ideal.ofBits .f32 0x322BCC77#32
def cCnt : EReal := Ideal.ofBits .f32 0x49100000#32
def cGroups : EReal := Ideal.ofBits .f32 0x41D80000#32
def cWeight : EReal := Ideal.ofBits .f32 0x3DCCCCCD#32

/-- The five totals, product form. -/
def totCe (X : Scores) (T P : WordsAll) : EReal :=
  ∑ n : Fin 65536, ceSum (ce (boardAt X n) (wordsAt T n)) (blank (wordsAt P n))
def totCount (P : WordsAll) : EReal := ∑ n : Fin 65536, count (blank (wordsAt P n))
def totRow (X : Scores) (P : WordsAll) : EReal :=
  ∑ n : Fin 65536, sqDev ninthOf (rowDs (masked (prob (boardAt X n)) (blank (wordsAt P n)))) (rowMs (blank (wordsAt P n)))
def totCol (X : Scores) (P : WordsAll) : EReal :=
  ∑ n : Fin 65536, sqDev ninthOf (colDs (masked (prob (boardAt X n)) (blank (wordsAt P n)))) (colMs (blank (wordsAt P n)))
def totBox (X : Scores) (P : WordsAll) : EReal :=
  ∑ n : Fin 65536, sqDev ninthOf (boxDs (masked (prob (boardAt X n)) (blank (wordsAt P n)))) (boxMs (blank (wordsAt P n)))

/-- The three results. -/
def ceLoss (X : Scores) (T P : WordsAll) : EReal := Ideal.div (totCe X T P) (totCount P + cEps)
def conLoss (X : Scores) (P : WordsAll) : EReal :=
  Ideal.div (Ideal.div (totRow X P) cCnt + Ideal.div (totCol X P) cCnt + Ideal.div (totBox X P) cCnt) cGroups
def totalLoss (X : Scores) (T P : WordsAll) : EReal := ceLoss X T P + cWeight * conLoss X P

/-! ### The second spelling's totals -/

def totCeAt (X : Scores) (T P : WordsAll) : EReal :=
  ∑ n : Fin 65536, ceSum (ceAt (boardAt X n) (wordsAt T n)) (blank (wordsAt P n))

/-- A group kind's loss: per group the mean over puzzles and classes of the squared deviation, the groups added. -/
def meanOf (D : Fin 65536 → Fin 9 → Fin 9 → EReal) : EReal :=
  ∑ g : Fin 9, Ideal.div (∑ n : Fin 65536, ∑ k : Fin 9, D n g k) cCnt

def rowLossE (X : Scores) (P : WordsAll) : EReal :=
  meanOf fun n => dev2 byNine (rowDs (masked (probE (boardAt X n)) (blank (wordsAt P n)))) (rowMs (blank (wordsAt P n)))
def colLossE (X : Scores) (P : WordsAll) : EReal :=
  meanOf fun n => dev2 byNine (colDs (masked (probE (boardAt X n)) (blank (wordsAt P n)))) (colMs (blank (wordsAt P n)))
def boxLossE (X : Scores) (P : WordsAll) : EReal :=
  meanOf fun n => dev2 byNine (boxDs (masked (probE (boardAt X n)) (blank (wordsAt P n)))) (boxMs (blank (wordsAt P n)))

def ceLossE (X : Scores) (T P : WordsAll) : EReal := Ideal.div (totCeAt X T P) (totCount P + cEps)
def conLossE (X : Scores) (P : WordsAll) : EReal :=
  Ideal.div (rowLossE X P + colLossE X P + boxLossE X P) cGroups
def totalLossE (X : Scores) (T P : WordsAll) : EReal := ceLossE X T P + cWeight * conLossE X P

end Cert.Sudoku

end
-- ==== Proof.KCell.lean ====
import proofs.«410291_j73229192397510_2_alg».proof.Proof.Spec
import proofs.«410291_j73229192397510_2_alg».proof.Proof.Gen.KernelIdeal.Skeleton
import Idealize.ShloMosaic.PureOps.Ideal.Laws
import Idealize.ShloMosaic.PureOps.IdealRules
import Idealize.ShloMosaic.Lib.Pipeline.Value
import Idealize.ShloMosaic.Lib.ValueLayout

noncomputable section

open scoped BigOperators

namespace Cert.Sudoku.Block

open Idealize.ShloMosaic Idealize.ShloMosaic.ValueIdx Cert.Sudoku Cert.KernelIdeal Cert.KernelIdeal.Gen

/-- Puzzle `b` of a block of 64: its scores and its words. -/
def boardOf (x0 : Vec Ideal S64x9x9x10 .f32) (b : Fin 64) : Board := fun r c k => x0 (ix4 b r c k)
def wordsOf (x : Vec Ideal S64x9x9 .i32) (b : Fin 64) : Words := fun r c => x (ix3 b r c)

/-- The float of a zero-extended equality bit: 1 where the two words agree, else 0. -/
theorem indicator_eq (x y : BitVec 32) :
    (FloatOps.sitofp (F := Ideal) .f32 (BitVec.setWidth 32 (IntOp.cmpi .eq x y)) : EReal) = if x = y then 1 else 0 := by
  show (((BitVec.setWidth 32 (IntOp.cmpi .eq x y)).toInt : ℝ) : EReal) = _
  by_cases h : x = y
  · rw [if_pos h]; subst h; simp [IntOp.cmpi]
  · have hb : (x == y) = false := beq_eq_false_iff_ne.mpr h
    rw [if_neg h]; simp [IntOp.cmpi, hb]

/-- The blank indicator of the block, cell by cell. -/
theorem pay3_apply (x2 : Vec Ideal S64x9x9 .i32) (b : Fin 64) (r c : Fin 9) :
    k0_pay3 (F := Ideal) x2 (ix3 b r c) = blank (wordsOf x2 b) r c := by
  unfold k0_pay3
  simp only [sitofp_apply, extui_apply]
  exact indicator_eq _ _

/-! ## Layout: a per-cell value spread over the classes, and a reduction over the classes -/

section Layout
variable {α : Type}

/-- A value on a unit class axis spread along the ten classes reads, at every class, its one entry of the cell. -/
theorem along_apply (y : S64x9x9x1.Idx → α) (h2 : S64x9x9x1.Broadcasts S64x9x9x10)
    (b : Fin 64) (r c : Fin 9) (k : Fin 10) :
    broadcastTo S64x9x9x10 y h2 (ix4 b r c k) = y (ix4 b r c (0 : Fin 1)) :=
  broadcastTo_apply y h2 (ix4 b r c k) (ix4 b r c (0 : Fin 1)) fun a => by
    match a with
    | ⟨0, _⟩ => rfl
    | ⟨1, _⟩ => rfl
    | ⟨2, _⟩ => rfl
    | ⟨3, _⟩ => rfl

/-- A per-cell value given a unit class axis reads, at the cell's one entry, the cell's value. -/
theorem unit_apply (x : S64x9x9.Idx → α) (h1 : S64x9x9.ShapeCasts S64x9x9x1) (b : Fin 64) (r c : Fin 9) (u : Fin 1) :
    shapeCast S64x9x9x1 x h1 (ix4 b r c u) = x (ix3 b r c) :=
  shapeCast_apply x h1 _ (ix3 b r c) (by
    have hu : u.val = 0 := by omega
    rw [Shape.rowMajor_val_three, Shape.rowMajor_val_four]
    show (b.val * 9 + r.val) * 9 + c.val = ((b.val * 9 + r.val) * 9 + c.val) * 1 + u.val
    omega)

/-- A per-cell value given a unit class axis and then spread along the ten classes reads, at every class, the
    cell's value. -/
theorem spread_apply (x : S64x9x9.Idx → α) (h1 : S64x9x9.ShapeCasts S64x9x9x1) (h2 : S64x9x9x1.Broadcasts S64x9x9x10)
    (b : Fin 64) (r c : Fin 9) (k : Fin 10) :
    broadcastTo S64x9x9x10 (shapeCast S64x9x9x1 x h1) h2 (ix4 b r c k) = x (ix3 b r c) :=
  (along_apply _ h2 b r c k).trans (unit_apply x h1 b r c 0)

/-- The cell `(b, r, c)` with class `k` put back on the reduced axis is the entry `(b, r, c, k)`. -/
theorem lift_class (h : S64x9x9x10.Reduces [3] S64x9x9) (b : Fin 64) (r c : Fin 9) (k : Fin 10) :
    h.lift (ix3 b r c) k = ix4 b r c k := by
  funext a
  refine Fin.ext ?_
  match a with
  | ⟨0, _⟩ => rfl
  | ⟨1, _⟩ => rfl
  | ⟨2, _⟩ => rfl
  | ⟨3, _⟩ => rfl

end Layout

/-- A sum over the class axis, read at a cell: the sum over the ten classes. -/
theorem sum_class (src : FVec Ideal S64x9x9x10 .f32) (h : S64x9x9x10.Reduces [3] S64x9x9) (hφ : FKind.Formats .f32)
    (hacc : (0x00000000#32 : BitVec 32) = FKind.add.neutral .f32 hφ) (b : Fin 64) (r c : Fin 9) :
    multiReduction .add [3] S64x9x9 src 0x00000000#32 h hφ hacc (ix3 b r c) = ∑ k : Fin 10, src (ix4 b r c k) :=
  (Ideal.multiReduction_add_single src _ h hφ hacc (ix3 b r c)).trans
    (Finset.sum_congr rfl fun k _ => congrArg src (lift_class h b r c k))

/-- The word of minus infinity is the bottom of the extended reals. -/
theorem ofBits_neg_inf : Ideal.ofBits .f32 0xFF800000#32 = ⊥ := by simp [Ideal.ofBits, Ideal.ieee]

/-- A maximum over the class axis, read at a cell: the fold of `max` from the bottom over the ten classes. -/
theorem max_class (src : FVec Ideal S64x9x9x10 .f32) (h : S64x9x9x10.Reduces [3] S64x9x9) (hφ : FKind.Formats .f32)
    (hacc : (0xFF800000#32 : BitVec 32) = FKind.maximumf.neutral .f32 hφ) (b : Fin 64) (r c : Fin 9) :
    multiReduction .maximumf [3] S64x9x9 src 0xFF800000#32 h hφ hacc (ix3 b r c)
      = (Finset.univ : Finset (Fin 10)).fold max ⊥ (fun k => src (ix4 b r c k)) := by
  refine (Ideal.multiReduction_maximumf_single src _ h hφ hacc (ix3 b r c)).trans ?_
  have e : (src ∘ h.lift (ix3 b r c)) = fun k : Fin 10 => src (ix4 b r c k) :=
    funext fun k => congrArg src (lift_class h b r c k)
  rw [e]
  exact congrArg (fun z => (Finset.univ : Finset (Fin 10)).fold max z fun k => src (ix4 b r c k)) ofBits_neg_inf

/-! ## The cell's shifted scores, their exponentials and their mass -/

/-- The scores minus the cell's largest score. -/
theorem pay4_apply (x0 : Vec Ideal S64x9x9x10 .f32) (b : Fin 64) (r c : Fin 9) (k : Fin 10) :
    k0_pay4 (F := Ideal) x0 (ix4 b r c k) = shifted (boardOf x0 b) r c k := by
  unfold k0_pay4
  rw [subf_apply, spread_apply]
  exact congrArg (x0 (ix4 b r c k) - ·) (max_class x0 _ _ _ b r c)

/-- The exponential of the shifted scores. -/
theorem pay5_apply (x0 : Vec Ideal S64x9x9x10 .f32) (b : Fin 64) (r c : Fin 9) (k : Fin 10) :
    k0_pay5 (F := Ideal) x0 (ix4 b r c k) = Ideal.exp (shifted (boardOf x0 b) r c k) := by
  unfold k0_pay5
  exact congrArg Ideal.exp (pay4_apply x0 b r c k)

/-- The cell's mass, on its unit class axis. -/
theorem pay6_apply (x0 : Vec Ideal S64x9x9x10 .f32) (b : Fin 64) (r c : Fin 9) (u : Fin 1) :
    k0_pay6 (F := Ideal) x0 (ix4 b r c u) = mass (boardOf x0 b) r c := by
  unfold k0_pay6
  rw [unit_apply]
  refine (sum_class _ _ _ _ b r c).trans ?_
  exact Finset.sum_congr rfl fun k _ => pay5_apply x0 b r c k

/-- The cell's mass spread along the classes. -/
theorem pay6_spread (x0 : Vec Ideal S64x9x9x10 .f32) (h2 : S64x9x9x1.Broadcasts S64x9x9x10) (b : Fin 64) (r c : Fin 9) (k : Fin 10) :
    broadcastTo S64x9x9x10 (k0_pay6 (F := Ideal) x0) h2 (ix4 b r c k) = mass (boardOf x0 b) r c :=
  (along_apply _ h2 b r c k).trans (pay6_apply x0 b r c 0)

/-- The log-softmax: the shifted score minus the logarithm of the cell's mass spread along the classes. -/
theorem logp_apply (x0 : Vec Ideal S64x9x9x10 .f32) (h2 : S64x9x9x1.Broadcasts S64x9x9x10) (b : Fin 64) (r c : Fin 9) (k : Fin 10) :
    subf (k0_pay4 (F := Ideal) x0) (broadcastTo S64x9x9x10 (log (k0_pay6 (F := Ideal) x0)) h2) (ix4 b r c k)
      = logp (boardOf x0 b) r c k := by
  rw [subf_apply, pay4_apply, along_apply]
  exact congrArg (fun z => shifted (boardOf x0 b) r c k - Ideal.log z) (pay6_apply x0 b r c 0)

/-- The one-hot of the cell's label along the classes: the float of "class number = label word". -/
theorem hit_apply (x1 : Vec Ideal S64x9x9 .i32) (hi : S64x9x9x10.Iotas .tc 32 [3]) (h1 : S64x9x9.ShapeCasts S64x9x9x1)
    (h2 : S64x9x9x1.Broadcasts S64x9x9x10) (hlt : 1 < 32) (b : Fin 64) (r c : Fin 9) (k : Fin 10) :
    (sitofp .f32 (extui 32 (cmpi .eq (iota .tc S64x9x9x10 32 [3] hi)
        (broadcastTo S64x9x9x10 (shapeCast S64x9x9x1 x1 h1) h2)) hlt) : FVec Ideal S64x9x9x10 .f32) (ix4 b r c k)
      = hit (wordsOf x1 b) r c k := by
  rw [sitofp_apply, extui_apply]
  show FloatOps.sitofp (F := Ideal) .f32 (BitVec.setWidth 32 (IntOp.cmpi .eq (iota .tc S64x9x9x10 32 [3] hi (ix4 b r c k))
    (broadcastTo S64x9x9x10 (shapeCast S64x9x9x1 x1 h1) h2 (ix4 b r c k)))) = _
  rw [iota_single_apply, spread_apply]
  exact indicator_eq _ _

/-- The softmax of the block, entry by entry. -/
theorem pay7_apply (x0 : Vec Ideal S64x9x9x10 .f32) (b : Fin 64) (r c : Fin 9) (k : Fin 10) :
    k0_pay7 (F := Ideal) x0 (ix4 b r c k) = prob (boardOf x0 b) r c k := by
  unfold k0_pay7
  rw [divf_apply, pay6_spread, pay5_apply]
  rfl

/-- A per-class weight times a per-cell weight, entry by entry. -/
theorem pay10_apply (v9 : FVec Ideal S64x9x9 .f32) (v21 : FVec Ideal S64x9x9x10 .f32) (b : Fin 64) (r c : Fin 9) (k : Fin 10) :
    k0_pay10 (F := Ideal) v9 v21 (ix4 b r c k) = v21 (ix4 b r c k) * v9 (ix3 b r c) := by
  unfold k0_pay10
  rw [mulf_apply, spread_apply]

/-! ## The block total of a per-cell value -/

/-- Row `(b, r)` with column `c` put back on the reduced axis is the cell `(b, r, c)`. -/
theorem lift_col (h : S64x9x9.Reduces [2] S64x9) (b : Fin 64) (r c : Fin 9) : h.lift (ix2 b r) c = ix3 b r c := by
  funext a
  refine Fin.ext ?_
  match a with
  | ⟨0, _⟩ => rfl
  | ⟨1, _⟩ => rfl
  | ⟨2, _⟩ => rfl

/-- Puzzle `b` with row `r` put back on the reduced axis is the row `(b, r)`. -/
theorem lift_row (h : S64x9.Reduces [1] S64) (b : Fin 64) (r : Fin 9) : h.lift (ix1 b) r = ix2 b r := by
  funext a
  refine Fin.ext ?_
  match a with
  | ⟨0, _⟩ => rfl
  | ⟨1, _⟩ => rfl

/-- The one entry of the total with puzzle `b` put back on the reduced axis is `(b, ·)`. -/
theorem lift_puzzle (h : S64x1.Reduces [0] S1) (u : Fin 1) (b : Fin 64) : h.lift (ix1 u) b = ix2 b u := by
  funext a
  refine Fin.ext ?_
  match a with
  | ⟨0, _⟩ => rfl
  | ⟨1, _⟩ => rfl

/-- A per-cell value summed over the columns, then over the rows, then over the block's 64 puzzles: the triple
    sum, puzzles outermost. -/
theorem total_apply (v : FVec Ideal S64x9x9 .f32) (h2 : S64x9x9.Reduces [2] S64x9) (h1 : S64x9.Reduces [1] S64)
    (c1 : S64.ShapeCasts S64x1) (h0 : S64x1.Reduces [0] S1) (c0 : S1.ShapeCasts S1x1) (hφ : FKind.Formats .f32)
    (hacc : (0x00000000#32 : BitVec 32) = FKind.add.neutral .f32 hφ) :
    shapeCast S1x1 (multiReduction .add [0] S1 (shapeCast S64x1 (multiReduction .add [1] S64
        (multiReduction .add [2] S64x9 v 0x00000000#32 h2 hφ hacc) 0x00000000#32 h1 hφ hacc) c1) 0x00000000#32 h0 hφ hacc) c0
        (ix2 (0 : Fin 1) (0 : Fin 1))
      = ∑ b : Fin 64, ∑ r : Fin 9, ∑ c : Fin 9, v (ix3 b r c) := by
  refine (shapeCast_apply _ c0 _ (ix1 (0 : Fin 1)) ?_).trans ?_
  · rw [Shape.rowMajor_val_one, Shape.rowMajor_val_two]; rfl
  refine (Ideal.multiReduction_add_single _ _ h0 hφ hacc _).trans ?_
  refine Finset.sum_congr rfl fun (b : Fin 64) _ => ?_
  have e0 : h0.lift (ix1 (0 : Fin 1)) b = ix2 b (0 : Fin 1) := lift_puzzle h0 0 b
  rw [e0]
  refine (shapeCast_apply _ c1 _ (ix1 b) ?_).trans ?_
  · rw [Shape.rowMajor_val_one, Shape.rowMajor_val_two]; show b.val = b.val * 1 + 0; omega
  refine (Ideal.multiReduction_add_single _ _ h1 hφ hacc _).trans ?_
  refine Finset.sum_congr rfl fun (r : Fin 9) _ => ?_
  have e1 : h1.lift (ix1 b) r = ix2 b r := lift_row h1 b r
  rw [e1]
  refine (Ideal.multiReduction_add_single _ _ h2 hφ hacc _).trans ?_
  exact Finset.sum_congr rfl fun (c : Fin 9) _ => congrArg v (lift_col h2 b r c)

/-- The block's masked cross entropy: the sum over its puzzles of each puzzle's. -/
theorem pay8_eq (x0 : Vec Ideal S64x9x9x10 .f32) (x1 x2 : Vec Ideal S64x9x9 .i32) :
    k0_pay8 (F := Ideal) x0 x1 x2 (ix2 (0 : Fin 1) (0 : Fin 1))
      = ∑ b : Fin 64, ceSum (ce (boardOf x0 b) (wordsOf x1 b)) (blank (wordsOf x2 b)) := by
  unfold k0_pay8
  refine (total_apply _ _ _ _ _ _ _ _).trans ?_
  refine Finset.sum_congr rfl fun b _ => ?_
  unfold ceSum
  refine Finset.sum_congr rfl fun r _ => Finset.sum_congr rfl fun c _ => ?_
  rw [mulf_apply, pay3_apply, subf_apply, broadcast_apply]
  refine congrArg (· * blank (wordsOf x2 b) r c) ?_
  show Ideal.ofBits .f32 0x00000000#32 - _ = 0 - _
  rw [Ideal.ofBits_zero_f32]
  refine congrArg (0 - ·) ?_
  refine (sum_class _ _ _ _ b r c).trans ?_
  refine Finset.sum_congr rfl fun k _ => ?_
  rw [mulf_apply, hit_apply, logp_apply]

/-- The block's number of blank cells. -/
theorem pay9_eq (x2 : Vec Ideal S64x9x9 .i32) :
    k0_pay9 (F := Ideal) (k0_pay3 x2) (ix2 (0 : Fin 1) (0 : Fin 1)) = ∑ b : Fin 64, count (blank (wordsOf x2 b)) := by
  unfold k0_pay9
  refine (total_apply _ _ _ _ _ _ _ _).trans ?_
  refine Finset.sum_congr rfl fun b _ => ?_
  unfold count
  exact Finset.sum_congr rfl fun r _ => Finset.sum_congr rfl fun c _ => pay3_apply x2 b r c

end Cert.Sudoku.Block

end
-- ==== Proof.KSums.lean ====
import proofs.«410291_j73229192397510_2_alg».proof.Proof.Gen.KernelIdeal.Skeleton
import Idealize.ShloMosaic.PureOps.Ideal.Laws
import Idealize.ShloMosaic.Lib.Pipeline.Value
import Idealize.ShloMosaic.Lib.ValueIdx

noncomputable section

open scoped BigOperators

namespace Cert.Sudoku.Block

open Idealize.ShloMosaic Idealize.ShloMosaic.ValueIdx Cert.KernelIdeal Cert.KernelIdeal.Gen

/-- Summing a [64, 9] value over its second axis, then over its first, into one number: the double sum. -/
theorem sum_S64x9 (v : FVec Ideal S64x9 .f32) :
    shapeCast S1x1 (multiReduction .add [0] S1 (shapeCast S64x1 (multiReduction .add [1] S64 v 0x00000000#32 reduces_S64x9_S64 (.inl rfl) rfl)
        shapeCasts_S64_S64x1) 0x00000000#32 reduces_S64x1_S1 (.inl rfl) rfl) shapeCasts_S1_S1x1 (ix2 (0 : Fin 1) (0 : Fin 1))
      = ∑ b : Fin 64, ∑ g : Fin 9, v (ix2 b g) := by
  refine (shapeCast_apply _ shapeCasts_S1_S1x1 (ix2 (0 : Fin 1) (0 : Fin 1)) (ix1 (0 : Fin 1)) (by decide)).trans ?_
  refine (Ideal.multiReduction_add_single _ _ reduces_S64x1_S1 (.inl rfl) rfl (ix1 (0 : Fin 1))).trans ?_
  show ∑ b : Fin 64, _ = _
  refine Finset.sum_congr rfl fun b _ => ?_
  refine (shapeCast_apply _ shapeCasts_S64_S64x1 _ (ix1 b) ?_).trans ?_
  · rw [Shape.rowMajor_val_one, Shape.rowMajor_val_two]
    show b.val = b.val * 1 + 0
    omega
  refine (Ideal.multiReduction_add_single _ _ reduces_S64x9_S64 (.inl rfl) rfl (ix1 b)).trans ?_
  show ∑ g : Fin 9, _ = _
  refine Finset.sum_congr rfl fun g _ => ?_
  refine congrArg v (funext fun a => ?_)
  match a with
  | ⟨0, _⟩ => rfl
  | ⟨1, _⟩ => rfl

/-- Summing a [64, 9, 9] value over its last axis, then its middle axis, then its first, into one number: the triple sum. -/
theorem sum_S64x9x9 (v : FVec Ideal S64x9x9 .f32) :
    shapeCast S1x1 (multiReduction .add [0] S1 (shapeCast S64x1 (multiReduction .add [1] S64
        (multiReduction .add [2] S64x9 v 0x00000000#32 reduces_S64x9x9_S64x9 (.inl rfl) rfl) 0x00000000#32 reduces_S64x9_S64 (.inl rfl) rfl)
        shapeCasts_S64_S64x1) 0x00000000#32 reduces_S64x1_S1 (.inl rfl) rfl) shapeCasts_S1_S1x1 (ix2 (0 : Fin 1) (0 : Fin 1))
      = ∑ b : Fin 64, ∑ r : Fin 9, ∑ c : Fin 9, v (ix3 b r c) := by
  rw [sum_S64x9]
  refine Finset.sum_congr rfl fun b _ => Finset.sum_congr rfl fun r _ => ?_
  refine (Ideal.multiReduction_add_single _ _ reduces_S64x9x9_S64x9 (.inl rfl) rfl (ix2 b r)).trans ?_
  show ∑ c : Fin 9, _ = _
  refine Finset.sum_congr rfl fun c _ => ?_
  refine congrArg v (funext fun a => ?_)
  match a with
  | ⟨0, _⟩ => rfl
  | ⟨1, _⟩ => rfl
  | ⟨2, _⟩ => rfl

end Cert.Sudoku.Block

end
-- ==== Proof.KRowCol.lean ====
import proofs.«410291_j73229192397510_2_alg».proof.Proof.KCell
import proofs.«410291_j73229192397510_2_alg».proof.Proof.KSums

noncomputable section

open scoped BigOperators

namespace Cert.Sudoku.Block

open Idealize.ShloMosaic Idealize.ShloMosaic.ValueIdx Cert.Sudoku Cert.KernelIdeal Cert.KernelIdeal.Gen

/-! ## The named ninth, and the indices put back on a reduced axis -/

/-- The kernel's named reciprocal of nine denotes the rational 1/9 on the extended reals. -/
theorem inv9 : Named.named (F := Ideal) Cert.KernelIdeal.κ "inv_9" (φ := .f32) 0x3DE38E39#32 = ninth :=
  IdealRules.named_const.ideal_named_scalar _ _ _ _ rfl

/-- Row (b, g) and class k with column c put back on the reduced column axis is the entry (b, g, c, k). -/
theorem lift_rowsum (h : S64x9x9x10.Reduces [2] S64x9x10) (b : Fin 64) (g : Fin 9) (k : Fin 10) (c : Fin 9) :
    h.lift (ix3 b g k) c = ix4 b g c k := by
  funext a
  refine Fin.ext ?_
  match a with
  | ⟨0, _⟩ => rfl
  | ⟨1, _⟩ => rfl
  | ⟨2, _⟩ => rfl
  | ⟨3, _⟩ => rfl

/-- Column (b, g) and class k with row r put back on the reduced row axis is the entry (b, r, g, k). -/
theorem lift_colsum (h : S64x9x9x10.Reduces [1] S64x9x10) (b : Fin 64) (g : Fin 9) (k : Fin 10) (r : Fin 9) :
    h.lift (ix3 b g k) r = ix4 b r g k := by
  funext a
  refine Fin.ext ?_
  match a with
  | ⟨0, _⟩ => rfl
  | ⟨1, _⟩ => rfl
  | ⟨2, _⟩ => rfl
  | ⟨3, _⟩ => rfl

/-- Column (b, g) with row r put back on the reduced row axis is the cell (b, r, g). -/
theorem lift_rowOf (h : S64x9x9.Reduces [1] S64x9) (b : Fin 64) (g r : Fin 9) : h.lift (ix2 b g) r = ix3 b r g := by
  funext a
  refine Fin.ext ?_
  match a with
  | ⟨0, _⟩ => rfl
  | ⟨1, _⟩ => rfl
  | ⟨2, _⟩ => rfl

/-! ## The group sums -/

/-- The masked weights summed over the columns: at row (b, g) and class k, the sum over the row's cells. -/
theorem rowsum_apply (v9 : FVec Ideal S64x9x9 .f32) (v21 : FVec Ideal S64x9x9x10 .f32) (b : Fin 64) (g : Fin 9) (k : Fin 10) :
    multiReduction .add [2] S64x9x10 (k0_pay10 (F := Ideal) v9 v21) 0x00000000#32 reduces_S64x9x9x10_S64x9x10 (.inl rfl) rfl (ix3 b g k)
      = ∑ c : Fin 9, v21 (ix4 b g c k) * v9 (ix3 b g c) :=
  (Ideal.multiReduction_add_single _ _ reduces_S64x9x9x10_S64x9x10 (.inl rfl) rfl (ix3 b g k)).trans
    (Finset.sum_congr rfl fun c _ =>
      (congrArg (k0_pay10 (F := Ideal) v9 v21) (lift_rowsum _ b g k c)).trans (pay10_apply v9 v21 b g c k))

/-- The masked weights summed over the rows: at column (b, g) and class k, the sum over the column's cells. -/
theorem colsum_apply (v9 : FVec Ideal S64x9x9 .f32) (v21 : FVec Ideal S64x9x9x10 .f32) (b : Fin 64) (g : Fin 9) (k : Fin 10) :
    multiReduction .add [1] S64x9x10 (k0_pay10 (F := Ideal) v9 v21) 0x00000000#32 reduces_S64x9x9x10_S64x9x10_2 (.inl rfl) rfl (ix3 b g k)
      = ∑ r : Fin 9, v21 (ix4 b r g k) * v9 (ix3 b r g) :=
  (Ideal.multiReduction_add_single _ _ reduces_S64x9x9x10_S64x9x10_2 (.inl rfl) rfl (ix3 b g k)).trans
    (Finset.sum_congr rfl fun r _ =>
      (congrArg (k0_pay10 (F := Ideal) v9 v21) (lift_colsum _ b g k r)).trans (pay10_apply v9 v21 b r g k))

/-- A per-cell weight summed over the columns: at row (b, g), the sum over the row's cells. -/
theorem rowcount_apply (v9 : FVec Ideal S64x9x9 .f32) (b : Fin 64) (g : Fin 9) :
    multiReduction .add [2] S64x9 v9 0x00000000#32 reduces_S64x9x9_S64x9 (.inl rfl) rfl (ix2 b g) = ∑ c : Fin 9, v9 (ix3 b g c) :=
  (Ideal.multiReduction_add_single _ _ reduces_S64x9x9_S64x9 (.inl rfl) rfl (ix2 b g)).trans
    (Finset.sum_congr rfl fun c _ => congrArg v9 (lift_col _ b g c))

/-- A per-cell weight summed over the rows: at column (b, g), the sum over the column's cells. -/
theorem colcount_apply (v9 : FVec Ideal S64x9x9 .f32) (b : Fin 64) (g : Fin 9) :
    multiReduction .add [1] S64x9 v9 0x00000000#32 reduces_S64x9x9_S64x9_2 (.inl rfl) rfl (ix2 b g) = ∑ r : Fin 9, v9 (ix3 b r g) :=
  (Ideal.multiReduction_add_single _ _ reduces_S64x9x9_S64x9_2 (.inl rfl) rfl (ix2 b g)).trans
    (Finset.sum_congr rfl fun r _ => congrArg v9 (lift_rowOf _ b g r))

/-! ## The deviation of a group's class mass from a ninth of the group's count -/

/-- Class k + 1's mass of each group minus a ninth of the group's count, as the kernel spells it: the class masses
    with class 0 sliced off, minus the counts times the named ninth spread along the nine classes. -/
def devOf (ds : FVec Ideal S64x9x10 .f32) (ms : FVec Ideal S64x9 .f32) : FVec Ideal S64x9x9 .f32 :=
  subf (extractStridedSlice S64x9x9 ![0, 0, 1] ds slices_S64x9x10_o0_0_1_S64x9x9)
    (broadcastTo S64x9x9 (mulf (shapeCast S64x9x1 ms shapeCasts_S64x9_S64x9x1)
      (broadcast S64x9x1 (Named.named Cert.KernelIdeal.κ "inv_9" 0x3DE38E39#32))) broadcasts_S64x9x1_S64x9x9)

/-- The slice that drops class 0 reads class k + 1. -/
theorem slice_apply (ds : FVec Ideal S64x9x10 .f32) (b : Fin 64) (g k : Fin 9) :
    extractStridedSlice S64x9x9 ![0, 0, 1] ds slices_S64x9x10_o0_0_1_S64x9x9 (ix3 b g k) = ds (ix3 b g (k.succ : Fin 10)) :=
  extractStridedSlice_apply _ ds _ (ix3 b g k) (ix3 b g (k.succ : Fin 10)) fun a => by
    match a with
    | ⟨0, _⟩ => exact (Nat.zero_add b.val).symm
    | ⟨1, _⟩ => exact (Nat.zero_add g.val).symm
    | ⟨2, _⟩ => exact (Fin.val_succ k).trans (Nat.add_comm k.val 1)

/-- A ninth of the group's count, spread along the nine classes. -/
theorem ninth_apply (ms : FVec Ideal S64x9 .f32) (b : Fin 64) (g k : Fin 9) :
    broadcastTo S64x9x9 (mulf (shapeCast S64x9x1 ms shapeCasts_S64x9_S64x9x1)
      (broadcast S64x9x1 (Named.named Cert.KernelIdeal.κ "inv_9" 0x3DE38E39#32))) broadcasts_S64x9x1_S64x9x9 (ix3 b g k)
      = ninthOf (ms (ix2 b g)) := by
  refine (broadcastTo_apply _ _ (ix3 b g k) (ix3 b g (0 : Fin 1)) fun a => ?_).trans ?_
  · match a with
    | ⟨0, _⟩ => rfl
    | ⟨1, _⟩ => rfl
    | ⟨2, _⟩ => rfl
  rw [mulf_apply, broadcast_apply, inv9]
  refine congrArg (· * ninth) ?_
  refine shapeCast_apply ms _ _ (ix2 b g) ?_
  rw [Shape.rowMajor_val_two, Shape.rowMajor_val_three]
  show b.val * 9 + g.val = (b.val * 9 + g.val) * 1 + 0
  omega

/-- The deviation at group (b, g) and class k + 1. -/
theorem devOf_apply (ds : FVec Ideal S64x9x10 .f32) (ms : FVec Ideal S64x9 .f32) (b : Fin 64) (g k : Fin 9) :
    devOf ds ms (ix3 b g k) = ds (ix3 b g (k.succ : Fin 10)) - ninthOf (ms (ix2 b g)) := by
  unfold devOf
  rw [subf_apply, slice_apply, ninth_apply]

/-- The squared deviation at group (b, g) and class k + 1. -/
theorem sq_apply (ds : FVec Ideal S64x9x10 .f32) (ms : FVec Ideal S64x9 .f32) (b : Fin 64) (g k : Fin 9) :
    mulf (devOf ds ms) (devOf ds ms) (ix3 b g k)
      = (ds (ix3 b g (k.succ : Fin 10)) - ninthOf (ms (ix2 b g))) * (ds (ix3 b g (k.succ : Fin 10)) - ninthOf (ms (ix2 b g))) := by
  rw [mulf_apply, devOf_apply]

/-! ## The two terms -/

/-- The row sums of the masked softmax and of the blanks are the specification's. -/
theorem rowDs_apply (x0 : Vec Ideal S64x9x9x10 .f32) (x2 : Vec Ideal S64x9x9 .i32) (b : Fin 64) (g : Fin 9) (k : Fin 10) :
    (∑ c : Fin 9, k0_pay7 (F := Ideal) x0 (ix4 b g c k) * k0_pay3 (F := Ideal) x2 (ix3 b g c))
      = rowDs (masked (prob (boardOf x0 b)) (blank (wordsOf x2 b))) g k := by
  unfold rowDs masked
  exact Finset.sum_congr rfl fun c _ => congrArg₂ (· * ·) (pay7_apply x0 b g c k) (pay3_apply x2 b g c)

theorem rowMs_apply (x2 : Vec Ideal S64x9x9 .i32) (b : Fin 64) (g : Fin 9) :
    (∑ c : Fin 9, k0_pay3 (F := Ideal) x2 (ix3 b g c)) = rowMs (blank (wordsOf x2 b)) g := by
  unfold rowMs
  exact Finset.sum_congr rfl fun c _ => pay3_apply x2 b g c

/-- The column sums of the masked softmax and of the blanks are the specification's. -/
theorem colDs_apply (x0 : Vec Ideal S64x9x9x10 .f32) (x2 : Vec Ideal S64x9x9 .i32) (b : Fin 64) (g : Fin 9) (k : Fin 10) :
    (∑ r : Fin 9, k0_pay7 (F := Ideal) x0 (ix4 b r g k) * k0_pay3 (F := Ideal) x2 (ix3 b r g))
      = colDs (masked (prob (boardOf x0 b)) (blank (wordsOf x2 b))) g k := by
  unfold colDs masked
  exact Finset.sum_congr rfl fun r _ => congrArg₂ (· * ·) (pay7_apply x0 b r g k) (pay3_apply x2 b r g)

theorem colMs_apply (x2 : Vec Ideal S64x9x9 .i32) (b : Fin 64) (g : Fin 9) :
    (∑ r : Fin 9, k0_pay3 (F := Ideal) x2 (ix3 b r g)) = colMs (blank (wordsOf x2 b)) g := by
  unfold colMs
  exact Finset.sum_congr rfl fun r _ => pay3_apply x2 b r g

/-- The block's row term: the sum over its puzzles of each puzzle's squared row deviations. -/
theorem pay13_eq (x0 : Vec Ideal S64x9x9x10 .f32) (x2 : Vec Ideal S64x9x9 .i32) :
    k0_pay13 (F := Ideal) (k0_pay3 x2) (k0_pay7 x0) (ix2 (0 : Fin 1) (0 : Fin 1))
      = ∑ b : Fin 64, sqDev ninthOf (rowDs (masked (prob (boardOf x0 b)) (blank (wordsOf x2 b)))) (rowMs (blank (wordsOf x2 b))) := by
  unfold k0_pay13
  refine (sum_S64x9x9 _).trans ?_
  refine Finset.sum_congr rfl fun b _ => ?_
  unfold sqDev
  refine Finset.sum_congr rfl fun g _ => Finset.sum_congr rfl fun k _ => ?_
  refine (sq_apply _ _ b g k).trans ?_
  rw [rowsum_apply, rowcount_apply, rowDs_apply, rowMs_apply]
  rfl

/-- One group of the column term: the sum over the classes 1 … 9 of the squared column deviations. -/
theorem pay14_apply (x0 : Vec Ideal S64x9x9x10 .f32) (x2 : Vec Ideal S64x9x9 .i32) (b : Fin 64) (g : Fin 9) :
    k0_pay14 (F := Ideal) (k0_pay3 x2) (k0_pay7 x0) (ix2 b g)
      = ∑ k : Fin 9, dev2 ninthOf (colDs (masked (prob (boardOf x0 b)) (blank (wordsOf x2 b)))) (colMs (blank (wordsOf x2 b))) g k := by
  unfold k0_pay14
  refine (rowcount_apply _ b g).trans ?_
  refine Finset.sum_congr rfl fun k _ => ?_
  refine (sq_apply _ _ b g k).trans ?_
  rw [colsum_apply, colcount_apply, colDs_apply, colMs_apply]
  rfl

/-- The block's column term, as the sum over puzzles and groups of the per-group sums over the classes. -/
theorem pay14_total (x0 : Vec Ideal S64x9x9x10 .f32) (x2 : Vec Ideal S64x9x9 .i32) :
    (∑ b : Fin 64, ∑ g : Fin 9, k0_pay14 (F := Ideal) (k0_pay3 x2) (k0_pay7 x0) (ix2 b g))
      = ∑ b : Fin 64, sqDev ninthOf (colDs (masked (prob (boardOf x0 b)) (blank (wordsOf x2 b)))) (colMs (blank (wordsOf x2 b))) := by
  refine Finset.sum_congr rfl fun b _ => ?_
  unfold sqDev
  exact Finset.sum_congr rfl fun g _ => pay14_apply x0 x2 b g

end Cert.Sudoku.Block

end
-- ==== Proof.KBox.lean ====
import proofs.«410291_j73229192397510_2_alg».proof.Proof.KCell

noncomputable section

open scoped BigOperators

namespace Cert.Sudoku.Block

open Idealize.ShloMosaic Idealize.ShloMosaic.ValueIdx Cert.Sudoku Cert.KernelIdeal Cert.KernelIdeal.Gen

/-! ## Rows and columns split into bands, and the bands joined into boxes

A row index `r` of the board is `3a + i`: band `a`, line `i` of the band; likewise a column. Splitting an axis of nine
into (band, line) and joining (row band, column band) into one box axis keep the row-major position, so each of these
reads one entry of its operand. -/

section Bands
variable {α : Type}

/-- The rows split as (band, line): entry `(b, a, i, c, k)` is the entry of row `3a + i`. -/
theorem rows_split_apply (x : S64x9x9x10.Idx → α) (h : S64x9x9x10.ShapeCasts S64x3x3x9x10)
    (b : Fin 64) (a i : Fin 3) (c : Fin 9) (k : Fin 10) :
    shapeCast S64x3x3x9x10 x h (ix5 b a i c k) = x (ix4 b (line a i) c k) :=
  shapeCast_apply x h _ (ix4 b (line a i) c k) (by
    rw [Shape.rowMajor_val_four, Shape.rowMajor_val_five]
    show ((b.val * 9 + (3 * a.val + i.val)) * 9 + c.val) * 10 + k.val
      = (((b.val * 3 + a.val) * 3 + i.val) * 9 + c.val) * 10 + k.val
    omega)

/-- The columns split as (band, line), the rows already summed within their band: entry `(b, a, e, j, k)` is the entry
    of column `3e + j`. -/
theorem cols_split_apply (x : S64x3x9x10.Idx → α) (h : S64x3x9x10.ShapeCasts S64x3x3x3x10)
    (b : Fin 64) (a e j : Fin 3) (k : Fin 10) :
    shapeCast S64x3x3x3x10 x h (ix5 b a e j k) = x (ix4 b a (line e j) k) :=
  shapeCast_apply x h _ (ix4 b a (line e j) k) (by
    rw [Shape.rowMajor_val_four, Shape.rowMajor_val_five]
    show ((b.val * 3 + a.val) * 9 + (3 * e.val + j.val)) * 10 + k.val
      = (((b.val * 3 + a.val) * 3 + e.val) * 3 + j.val) * 10 + k.val
    omega)

/-- The (row band, column band) pairs joined into the nine boxes: box `g` is row band `g / 3`, column band `g % 3`. -/
theorem boxes_join_apply (x : S64x3x3x10.Idx → α) (h : S64x3x3x10.ShapeCasts S64x9x10)
    (b : Fin 64) (g : Fin 9) (k : Fin 10) :
    shapeCast S64x9x10 x h (ix3 b g k) = x (ix4 b (bandR g) (bandC g) k) :=
  shapeCast_apply x h _ (ix4 b (bandR g) (bandC g) k) (by
    rw [Shape.rowMajor_val_three, Shape.rowMajor_val_four]
    show ((b.val * 3 + g.val / 3) * 3 + g.val % 3) * 10 + k.val = (b.val * 9 + g.val) * 10 + k.val
    omega)

/-- The same three readings for a per-cell value (no class axis). -/
theorem rows_split_cell (x : S64x9x9.Idx → α) (h : S64x9x9.ShapeCasts S64x3x3x9)
    (b : Fin 64) (a i : Fin 3) (c : Fin 9) :
    shapeCast S64x3x3x9 x h (ix4 b a i c) = x (ix3 b (line a i) c) :=
  shapeCast_apply x h _ (ix3 b (line a i) c) (by
    rw [Shape.rowMajor_val_three, Shape.rowMajor_val_four]
    show (b.val * 9 + (3 * a.val + i.val)) * 9 + c.val = ((b.val * 3 + a.val) * 3 + i.val) * 9 + c.val
    omega)

theorem cols_split_cell (x : S64x3x9.Idx → α) (h : S64x3x9.ShapeCasts S64x3x3x3)
    (b : Fin 64) (a e j : Fin 3) :
    shapeCast S64x3x3x3 x h (ix4 b a e j) = x (ix3 b a (line e j)) :=
  shapeCast_apply x h _ (ix3 b a (line e j)) (by
    rw [Shape.rowMajor_val_three, Shape.rowMajor_val_four]
    show (b.val * 3 + a.val) * 9 + (3 * e.val + j.val) = ((b.val * 3 + a.val) * 3 + e.val) * 3 + j.val
    omega)

theorem boxes_join_cell (x : S64x3x3.Idx → α) (h : S64x3x3.ShapeCasts S64x9) (b : Fin 64) (g : Fin 9) :
    shapeCast S64x9 x h (ix2 b g) = x (ix3 b (bandR g) (bandC g)) :=
  shapeCast_apply x h _ (ix3 b (bandR g) (bandC g)) (by
    rw [Shape.rowMajor_val_two, Shape.rowMajor_val_three]
    show (b.val * 3 + g.val / 3) * 3 + g.val % 3 = b.val * 9 + g.val
    omega)

/-- The entry `(b, a, c, k)` with line `i` put back on the reduced axis is `(b, a, i, c, k)`. -/
theorem lift_rowLine (h : S64x3x3x9x10.Reduces [2] S64x3x9x10) (b : Fin 64) (a : Fin 3) (c : Fin 9) (k : Fin 10) (i : Fin 3) :
    h.lift (ix4 b a c k) i = ix5 b a i c k := by
  funext d
  refine Fin.ext ?_
  match d with
  | ⟨0, _⟩ => rfl
  | ⟨1, _⟩ => rfl
  | ⟨2, _⟩ => rfl
  | ⟨3, _⟩ => rfl
  | ⟨4, _⟩ => rfl

/-- The entry `(b, a, e, k)` with line `j` put back on the reduced axis is `(b, a, e, j, k)`. -/
theorem lift_colLine (h : S64x3x3x3x10.Reduces [3] S64x3x3x10) (b : Fin 64) (a e : Fin 3) (k : Fin 10) (j : Fin 3) :
    h.lift (ix4 b a e k) j = ix5 b a e j k := by
  funext d
  refine Fin.ext ?_
  match d with
  | ⟨0, _⟩ => rfl
  | ⟨1, _⟩ => rfl
  | ⟨2, _⟩ => rfl
  | ⟨3, _⟩ => rfl
  | ⟨4, _⟩ => rfl

theorem lift_rowLine_cell (h : S64x3x3x9.Reduces [2] S64x3x9) (b : Fin 64) (a : Fin 3) (c : Fin 9) (i : Fin 3) :
    h.lift (ix3 b a c) i = ix4 b a i c := by
  funext d
  refine Fin.ext ?_
  match d with
  | ⟨0, _⟩ => rfl
  | ⟨1, _⟩ => rfl
  | ⟨2, _⟩ => rfl
  | ⟨3, _⟩ => rfl

theorem lift_colLine_cell (h : S64x3x3x3.Reduces [3] S64x3x3) (b : Fin 64) (a e : Fin 3) (j : Fin 3) :
    h.lift (ix3 b a e) j = ix4 b a e j := by
  funext d
  refine Fin.ext ?_
  match d with
  | ⟨0, _⟩ => rfl
  | ⟨1, _⟩ => rfl
  | ⟨2, _⟩ => rfl
  | ⟨3, _⟩ => rfl

end Bands

/-- A sum over the lines of a row band, read at `(b, a, c, k)`: the sum over the band's three lines. -/
theorem sum_rowLine (src : FVec Ideal S64x3x3x9x10 .f32) (h : S64x3x3x9x10.Reduces [2] S64x3x9x10) (hφ : FKind.Formats .f32)
    (hacc : (0x00000000#32 : BitVec 32) = FKind.add.neutral .f32 hφ) (b : Fin 64) (a : Fin 3) (c : Fin 9) (k : Fin 10) :
    multiReduction .add [2] S64x3x9x10 src 0x00000000#32 h hφ hacc (ix4 b a c k) = ∑ i : Fin 3, src (ix5 b a i c k) :=
  (Ideal.multiReduction_add_single src _ h hφ hacc (ix4 b a c k)).trans
    (Finset.sum_congr rfl fun i _ => congrArg src (lift_rowLine h b a c k i))

/-- A sum over the lines of a column band, read at `(b, a, e, k)`: the sum over the band's three lines. -/
theorem sum_colLine (src : FVec Ideal S64x3x3x3x10 .f32) (h : S64x3x3x3x10.Reduces [3] S64x3x3x10) (hφ : FKind.Formats .f32)
    (hacc : (0x00000000#32 : BitVec 32) = FKind.add.neutral .f32 hφ) (b : Fin 64) (a e : Fin 3) (k : Fin 10) :
    multiReduction .add [3] S64x3x3x10 src 0x00000000#32 h hφ hacc (ix4 b a e k) = ∑ j : Fin 3, src (ix5 b a e j k) :=
  (Ideal.multiReduction_add_single src _ h hφ hacc (ix4 b a e k)).trans
    (Finset.sum_congr rfl fun j _ => congrArg src (lift_colLine h b a e k j))

theorem sum_rowLine_cell (src : FVec Ideal S64x3x3x9 .f32) (h : S64x3x3x9.Reduces [2] S64x3x9) (hφ : FKind.Formats .f32)
    (hacc : (0x00000000#32 : BitVec 32) = FKind.add.neutral .f32 hφ) (b : Fin 64) (a : Fin 3) (c : Fin 9) :
    multiReduction .add [2] S64x3x9 src 0x00000000#32 h hφ hacc (ix3 b a c) = ∑ i : Fin 3, src (ix4 b a i c) :=
  (Ideal.multiReduction_add_single src _ h hφ hacc (ix3 b a c)).trans
    (Finset.sum_congr rfl fun i _ => congrArg src (lift_rowLine_cell h b a c i))

theorem sum_colLine_cell (src : FVec Ideal S64x3x3x3 .f32) (h : S64x3x3x3.Reduces [3] S64x3x3) (hφ : FKind.Formats .f32)
    (hacc : (0x00000000#32 : BitVec 32) = FKind.add.neutral .f32 hφ) (b : Fin 64) (a e : Fin 3) :
    multiReduction .add [3] S64x3x3 src 0x00000000#32 h hφ hacc (ix3 b a e) = ∑ j : Fin 3, src (ix4 b a e j) :=
  (Ideal.multiReduction_add_single src _ h hφ hacc (ix3 b a e)).trans
    (Finset.sum_congr rfl fun j _ => congrArg src (lift_colLine_cell h b a e j))

/-! ## The box sums -/

/-- The per-class box sums of a masked weight: over the box's three columns, of the sums over its three rows. -/
theorem pay11_apply (v9 : FVec Ideal S64x9x9 .f32) (v21 : FVec Ideal S64x9x9x10 .f32) (b : Fin 64) (g : Fin 9) (k : Fin 10) :
    k0_pay11 (F := Ideal) v9 v21 (ix3 b g k)
      = ∑ j : Fin 3, ∑ i : Fin 3, k0_pay10 (F := Ideal) v9 v21 (ix4 b (line (bandR g) i) (line (bandC g) j) k) := by
  unfold k0_pay11
  refine (boxes_join_apply _ _ b g k).trans ?_
  refine (sum_colLine _ _ _ _ b (bandR g) (bandC g) k).trans ?_
  refine Finset.sum_congr rfl fun (j : Fin 3) _ => ?_
  refine (cols_split_apply _ _ b (bandR g) (bandC g) j k).trans ?_
  refine (sum_rowLine _ _ _ _ b (bandR g) (line (bandC g) j) k).trans ?_
  exact Finset.sum_congr rfl fun (i : Fin 3) _ => rows_split_apply _ _ b (bandR g) i (line (bandC g) j) k

/-- The per-box sums of a per-cell weight. -/
theorem pay12_apply (v9 : FVec Ideal S64x9x9 .f32) (b : Fin 64) (g : Fin 9) :
    k0_pay12 (F := Ideal) v9 (ix2 b g)
      = ∑ j : Fin 3, ∑ i : Fin 3, v9 (ix3 b (line (bandR g) i) (line (bandC g) j)) := by
  unfold k0_pay12
  refine (boxes_join_cell _ _ b g).trans ?_
  refine (sum_colLine_cell _ _ _ _ b (bandR g) (bandC g)).trans ?_
  refine Finset.sum_congr rfl fun (j : Fin 3) _ => ?_
  refine (cols_split_cell _ _ b (bandR g) (bandC g) j).trans ?_
  refine (sum_rowLine_cell _ _ _ _ b (bandR g) (line (bandC g) j)).trans ?_
  exact Finset.sum_congr rfl fun (i : Fin 3) _ => rows_split_cell _ _ b (bandR g) i (line (bandC g) j)

/-- Box `g`'s blank-weighted probability mass of class `k`, in puzzle `b`. -/
theorem boxDs_apply (x0 : Vec Ideal S64x9x9x10 .f32) (x2 : Vec Ideal S64x9x9 .i32) (b : Fin 64) (g : Fin 9) (k : Fin 10) :
    k0_pay11 (F := Ideal) (k0_pay3 x2) (k0_pay7 x0) (ix3 b g k)
      = boxDs (masked (prob (boardOf x0 b)) (blank (wordsOf x2 b))) g k := by
  refine (pay11_apply _ _ b g k).trans ?_
  unfold boxDs masked
  refine Finset.sum_congr rfl fun j _ => Finset.sum_congr rfl fun i _ => ?_
  rw [pay10_apply, pay7_apply, pay3_apply]

/-- Box `g`'s number of blank cells, in puzzle `b`. -/
theorem boxMs_apply (x2 : Vec Ideal S64x9x9 .i32) (b : Fin 64) (g : Fin 9) :
    k0_pay12 (F := Ideal) (k0_pay3 x2) (ix2 b g) = boxMs (blank (wordsOf x2 b)) g := by
  refine (pay12_apply _ b g).trans ?_
  unfold boxMs
  exact Finset.sum_congr rfl fun j _ => Finset.sum_congr rfl fun i _ => pay3_apply x2 b _ _

/-! ## The squared deviations of the groups' masses from a ninth of their counts -/

section Groups
variable {α : Type}

/-- The classes 1 … 9 of a per-group, per-class value: entry `k` of the slice is class `k + 1`. -/
theorem tail_apply (x : S64x9x10.Idx → α) (h : S64x9x10.Slices ![0, 0, 1] S64x9x9) (b : Fin 64) (g k : Fin 9) :
    extractStridedSlice S64x9x9 ![0, 0, 1] x h (ix3 b g k) = x (ix3 b g (k.succ : Fin 10)) :=
  extractStridedSlice_apply _ x h _ (ix3 b g (k.succ : Fin 10)) fun a => by
    match a with
    | ⟨0, _⟩ => show b.val = 0 + b.val; omega
    | ⟨1, _⟩ => show g.val = 0 + g.val; omega
    | ⟨2, _⟩ => show k.val + 1 = 1 + k.val; omega

/-- A per-group value given a unit class axis reads, at the group's one entry, the group's value. -/
theorem unitGroup_apply (x : S64x9.Idx → α) (h : S64x9.ShapeCasts S64x9x1) (b : Fin 64) (g : Fin 9) (u : Fin 1) :
    shapeCast S64x9x1 x h (ix3 b g u) = x (ix2 b g) :=
  shapeCast_apply x h _ (ix2 b g) (by
    have hu : u.val = 0 := by omega
    rw [Shape.rowMajor_val_two, Shape.rowMajor_val_three]
    show b.val * 9 + g.val = (b.val * 9 + g.val) * 1 + u.val
    omega)

/-- A value on a unit class axis spread along nine classes reads, at every class, its one entry of the group. -/
theorem alongGroup_apply (y : S64x9x1.Idx → α) (h : S64x9x1.Broadcasts S64x9x9) (b : Fin 64) (g k : Fin 9) :
    broadcastTo S64x9x9 y h (ix3 b g k) = y (ix3 b g (0 : Fin 1)) :=
  broadcastTo_apply y h (ix3 b g k) (ix3 b g (0 : Fin 1)) fun a => by
    match a with
    | ⟨0, _⟩ => rfl
    | ⟨1, _⟩ => rfl
    | ⟨2, _⟩ => rfl

end Groups

/-- The named constant of the group terms is one ninth. -/
theorem inv_nine : Named.named (F := Ideal) Cert.KernelIdeal.κ "inv_9" (φ := .f32) 0x3DE38E39#32 = ninth :=
  IdealRules.named_const.ideal_named_scalar _ _ _ _ rfl

/-- The group term of a block, for any per-group masses `v54` and counts `v59`: the sum over the block's puzzles of
    the squared deviations of the masses of the classes 1 … 9 from a ninth of the group's count. -/
theorem pay15_apply (v54 : FVec Ideal S64x9x10 .f32) (v59 : FVec Ideal S64x9 .f32) :
    k0_pay15 (F := Ideal) v54 v59 (ix2 (0 : Fin 1) (0 : Fin 1))
      = ∑ b : Fin 64, sqDev ninthOf (fun g k => v54 (ix3 b g k)) (fun g => v59 (ix2 b g)) := by
  unfold k0_pay15
  refine (total_apply _ _ _ _ _ _ _ _).trans ?_
  refine Finset.sum_congr rfl fun b _ => ?_
  unfold sqDev
  refine Finset.sum_congr rfl fun g _ => Finset.sum_congr rfl fun k _ => ?_
  rw [mulf_apply, subf_apply, tail_apply, alongGroup_apply, mulf_apply, unitGroup_apply, broadcast_apply, inv_nine]
  rfl

/-- The block's box term: the sum over its puzzles of each puzzle's squared box deviations. -/
theorem pay15_eq (x0 : Vec Ideal S64x9x9x10 .f32) (x2 : Vec Ideal S64x9x9 .i32) :
    k0_pay15 (F := Ideal) (k0_pay11 (k0_pay3 x2) (k0_pay7 x0)) (k0_pay12 (k0_pay3 x2)) (ix2 (0 : Fin 1) (0 : Fin 1))
      = ∑ b : Fin 64, sqDev ninthOf (boxDs (masked (prob (boardOf x0 b)) (blank (wordsOf x2 b)))) (boxMs (blank (wordsOf x2 b))) := by
  refine (pay15_apply _ _).trans ?_
  refine Finset.sum_congr rfl fun b _ => ?_
  have hd : (fun (g : Fin 9) (k : Fin 10) => k0_pay11 (F := Ideal) (k0_pay3 x2) (k0_pay7 x0) (ix3 b g k))
      = boxDs (masked (prob (boardOf x0 b)) (blank (wordsOf x2 b))) :=
    funext fun g => funext fun k => boxDs_apply x0 x2 b g k
  have hm : (fun (g : Fin 9) => k0_pay12 (F := Ideal) (k0_pay3 x2) (ix2 b g)) = boxMs (blank (wordsOf x2 b)) :=
    funext fun g => boxMs_apply x2 b g
  rw [hd, hm]

end Cert.Sudoku.Block

end
-- ==== Proof.KLanes.lean ====
import proofs.«410291_j73229192397510_2_alg».proof.Proof.Spec
import proofs.«410291_j73229192397510_2_alg».proof.Proof.KSums
import proofs.«410291_j73229192397510_2_alg».proof.Proof.Gen.KernelIdeal.Skeleton
import Idealize.ShloMosaic.PureOps.Ideal.Laws
import Idealize.ShloMosaic.Lib.Pipeline.Value
import Idealize.ShloMosaic.Lib.ValueLayout

noncomputable section

open scoped BigOperators

namespace Cert.Sudoku.Block

open Idealize.ShloMosaic Idealize.ShloMosaic.ValueIdx Cert.Sudoku Cert.KernelIdeal Cert.KernelIdeal.Gen

theorem ofBits_zero : Scalar.ofBits (F := Ideal) .f32 0x00000000#32 = (0 : EReal) := by
  show Ideal.ofBits .f32 0x00000000#32 = 0
  exact Ideal.ofBits_zero_f32

/-- Lane `j`'s number is `n` exactly when `j = n`, for a small `n`. -/
theorem lane_eq_iff (j : Fin 128) (n : Nat) (hn : n < 128) : BitVec.ofNat 32 j.val = BitVec.ofNat 32 n ↔ j.val = n := by
  have hj := j.isLt
  constructor
  · intro h
    have := congrArg BitVec.toNat h
    simp only [BitVec.toNat_ofNat] at this
    omega
  · intro h; rw [h]

/-- A scalar placed in lane `n` of a zero vector, read at lane `j`. -/
theorem placed (v : FVec Ideal S1x1 .f32) (n : Nat) (hn : n < 128) (w : BitVec 32) (hw : w = BitVec.ofNat 32 n) (j : Fin 128) :
    select (cmpi .eq (iota .tc S1x128 32 [1] iota_S1x128_d1_w32) (broadcast S1x128 w))
        (broadcastTo S1x128 (shapeCast S1x1 v shapeCasts_S1x1_S1x1) broadcasts_S1x1_S1x128)
        (broadcast S1x128 (Scalar.ofBits (F := Ideal) .f32 0x00000000#32)) (ix2 (0 : Fin 1) j)
      = if j.val = n then v (ix2 0 0) else 0 := by
  rw [select_apply, shapeCast_self]
  have hb : broadcastTo S1x128 v broadcasts_S1x1_S1x128 (ix2 (0 : Fin 1) j) = v (ix2 0 0) :=
    broadcastTo_apply v broadcasts_S1x1_S1x128 (ix2 (0 : Fin 1) j) (ix2 0 0) (fun a => by
      match a with
      | ⟨0, _⟩ => rfl
      | ⟨1, _⟩ => rfl)
  rw [hb, broadcast_apply, ofBits_zero]
  show Scalar.select (IntOp.cmpi .eq (iota .tc S1x128 32 [1] iota_S1x128_d1_w32 (ix2 (0 : Fin 1) j)) w) _ _ = _
  rw [iota_single_apply, hw]
  show Scalar.select (IntOp.cmpi .eq (BitVec.ofNat 32 j.val) (BitVec.ofNat 32 n)) _ _ = _
  by_cases h : j.val = n
  · rw [if_pos h, show IntOp.cmpi .eq (BitVec.ofNat 32 j.val) (BitVec.ofNat 32 n) = 1#1 from by rw [h]; simp [IntOp.cmpi], select_one]
  · rw [if_neg h, show IntOp.cmpi .eq (BitVec.ofNat 32 j.val) (BitVec.ofNat 32 n) = 0#1 from by
      have hne : ¬ BitVec.ofNat 32 j.val = BitVec.ofNat 32 n := fun e => h ((lane_eq_iff j n hn).mp e)
      have hbe : (BitVec.ofNat 32 j.val == BitVec.ofNat 32 n) = false := beq_eq_false_iff_ne.mpr hne
      simp [IntOp.cmpi, hbe], select_zero]

/-- Lane `j` of the five-lane vector before the fifth term is added: the first three scalars in lanes 0, 1, 2, the
    total of the per-group column sums in lane 3, zero elsewhere. -/
theorem pay16_lane (v37 v42 v71 : FVec Ideal S1x1 .f32) (v79 : FVec Ideal S64x9 .f32) (j : Fin 128) :
    k0_pay16 (F := Ideal) v37 v42 v71 v79 (ix2 (0 : Fin 1) j)
      = if j.val = 0 then v37 (ix2 0 0) else if j.val = 1 then v42 (ix2 0 0) else if j.val = 2 then v71 (ix2 0 0)
        else if j.val = 3 then ∑ b : Fin 64, ∑ g : Fin 9, v79 (ix2 b g) else 0 := by
  unfold k0_pay16
  rw [addf_apply, addf_apply, addf_apply, placed v37 0 (by decide) 0#32 rfl, placed v42 1 (by decide) 1#32 rfl,
    placed v71 2 (by decide) 2#32 rfl, placed _ 3 (by decide) 3#32 rfl, sum_S64x9]
  by_cases h0 : j.val = 0
  · simp [h0]
  by_cases h1 : j.val = 1
  · simp [h1]
  by_cases h2 : j.val = 2
  · simp [h2]
  by_cases h3 : j.val = 3
  · simp [h3]
  simp [h0, h1, h2, h3]

/-- Lane `j` of the updated accumulator: the old lane plus the lane of the five-lane vector, the fifth scalar in lane 4. -/
theorem pay1_lane (v95 : FVec Ideal S1x1 .f32) (v96 : Vec Ideal S1x128 .f32) (v124 : FVec Ideal S1x128 .f32) (j : Fin 128) :
    k0_pay1 (F := Ideal) v95 v96 (iota .tc S1x128 32 [1] iota_S1x128_d1_w32) v124 (ix2 (0 : Fin 1) j)
      = v96 (ix2 0 j) + (v124 (ix2 0 j) + (if j.val = 4 then v95 (ix2 0 0) else 0)) := by
  unfold k0_pay1
  rw [shapeCast_self, addf_apply, addf_apply, placed v95 4 (by decide) 4#32 rfl]

/-- The reset value is zero in every lane. -/
theorem pay2_lane (j : Fin 128) : k0_pay2 (F := Ideal) (ix2 (0 : Fin 1) j) = 0 := by
  unfold k0_pay2
  rw [shapeCast_self, broadcast_apply, ofBits_zero]

end Cert.Sudoku.Block

end
-- ==== Proof.LibReal.lean ====
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Analysis.SpecialFunctions.Pow.Real

/-!
  Extended reals that are real numbers.

  At the ideal instance a float value is an extended real.  The arithmetic of `EReal` is
  not a ring (`⊤ + ⊥`, `0 * ⊤` have conventional values), but on the image of `ℝ` every
  operation is the real one.  This file names that image (`IsReal`), shows it closed under
  the operations used, and proves the expansion of a squared distance
  `Σ (e - c)² = Σ e² - 2 Σ e c + Σ c²` for real entries, all operations being `EReal`'s.
-/

open scoped BigOperators

namespace Cert.LibReal

open Idealize.ShloMosaic

/-- An extended real that is a real number. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} : IsReal x → IsReal y → IsReal (x + y) := by
  rintro ⟨a, rfl⟩ ⟨b, rfl⟩
  exact ⟨a + b, (EReal.coe_add a b).symm⟩

theorem IsReal.sub {x y : EReal} : IsReal x → IsReal y → IsReal (x - y) := by
  rintro ⟨a, rfl⟩ ⟨b, rfl⟩
  exact ⟨a - b, (EReal.coe_sub a b).symm⟩

theorem IsReal.mul {x y : EReal} : IsReal x → IsReal y → IsReal (x * y) := by
  rintro ⟨a, rfl⟩ ⟨b, rfl⟩
  exact ⟨a * b, (EReal.coe_mul a b).symm⟩

theorem IsReal.neg {x : EReal} : IsReal x → IsReal (-x) := by
  rintro ⟨a, rfl⟩
  exact ⟨-a, (EReal.coe_neg a).symm⟩

theorem IsReal.max {x y : EReal} : IsReal x → IsReal y → IsReal (max x y) := by
  intro hx hy
  rcases le_total x y with h | h
  · rw [max_eq_right h]; exact hy
  · rw [max_eq_left h]; exact hx

theorem IsReal.sum {ι : Type} (s : Finset ι) (f : ι → EReal) :
    (∀ i ∈ s, IsReal (f i)) → IsReal (∑ i ∈ s, f i) := by
  classical
  refine Finset.induction_on s ?_ ?_
  · intro _; rw [Finset.sum_empty]; exact IsReal.zero
  · intro a t ha ih h
    rw [Finset.sum_insert ha]
    exact IsReal.add (h a (Finset.mem_insert_self a t))
      (ih fun i hi => h i (Finset.mem_insert_of_mem hi))

/-- The quotient of a real by a NONZERO real is real (by zero the total division returns an
    infinity). -/
theorem IsReal.div {x y : EReal} : IsReal x → IsReal y → y ≠ 0 → IsReal (Ideal.div x y) := by
  rintro ⟨a, rfl⟩ ⟨b, rfl⟩ hb
  have hb' : b ≠ 0 := fun h => hb (by rw [h]; rfl)
  rw [Ideal.div_coe hb']
  exact IsReal.mul (IsReal.coe a) (IsReal.coe _)

theorem IsReal.exp {x : EReal} : IsReal x → IsReal (Ideal.exp x) := by
  rintro ⟨a, rfl⟩
  exact ⟨Real.exp a, Ideal.exp_coe a⟩

/-- The coercion `ℝ → EReal` commutes with finite sums. -/
theorem coe_sum {ι : Type} (s : Finset ι) (f : ι → ℝ) :
    ((∑ i ∈ s, f i : ℝ) : EReal) = ∑ i ∈ s, (f i : EReal) := by
  classical
  refine Finset.induction_on s ?_ ?_
  · rw [Finset.sum_empty, Finset.sum_empty]; rfl
  · intro a t ha ih
    rw [Finset.sum_insert ha, Finset.sum_insert ha, EReal.coe_add, ih]

/-- `Σ (e - c)² = Σ e² - 2 · Σ e c + Σ c²` on real entries, every operation `EReal`'s. -/
theorem sqdist_expand {n : ℕ} (e c : Fin n → EReal) (he : ∀ k, IsReal (e k)) (hc : ∀ k, IsReal (c k)) :
    ∑ k, (e k - c k) * (e k - c k)
      = (∑ k, e k * e k) - ((2 : ℝ) : EReal) * (∑ k, e k * c k) + ∑ k, c k * c k := by
  choose a ha using he
  choose b hb using hc
  have hE : e = fun k => (a k : EReal) := funext ha
  have hC : c = fun k => (b k : EReal) := funext hb
  subst hE hC
  simp only [← EReal.coe_sub, ← EReal.coe_mul, ← coe_sum, ← EReal.coe_add]
  congr 1
  rw [Finset.mul_sum, ← Finset.sum_sub_distrib, ← Finset.sum_add_distrib]
  exact Finset.sum_congr rfl fun k _ => by ring

/-- Division by one is the identity on a real. -/
theorem div_one_of_isReal {x : EReal} : IsReal x → Ideal.div x 1 = x := by
  rintro ⟨a, rfl⟩
  rw [← EReal.coe_one, Ideal.div_coe one_ne_zero, ← EReal.coe_mul]
  congr 1
  rw [div_one, mul_one]

/-- The power one is the identity on a real. -/
theorem pow_one_of_isReal {x : EReal} : IsReal x → Ideal.pow x 1 = x := by
  rintro ⟨a, rfl⟩
  rw [← EReal.coe_one, Ideal.pow_coe_coe]
  congr 1
  exact Real.rpow_one a

/-- The power one is the identity on every extended real: `⊥` stays `⊥`, `⊤` stays `⊤` since
    `0 < 1`, and a real is `Real.rpow_one`. -/
theorem pow_one (x : EReal) : Ideal.pow x 1 = x := by
  induction x using EReal.rec with
  | bot => exact Ideal.pow_bot 1
  | coe r =>
    rw [← EReal.coe_one, Ideal.pow_coe_coe]
    congr 1
    exact Real.rpow_one r
  | top => rw [Ideal.pow_top, if_pos (by exact_mod_cast (zero_lt_one : (0 : ℝ) < 1))]

end Cert.LibReal
-- ==== Proof.Math.lean ====
import proofs.«410291_j73229192397510_2_alg».proof.Proof.Spec
import proofs.«410291_j73229192397510_2_alg».proof.Proof.LibReal

noncomputable section

open scoped BigOperators

namespace Cert.Sudoku

open Idealize.ShloMosaic Idealize.ShloMosaic.ValueIdx Cert.Sudoku Cert.LibReal

/-! ## Auxiliary facts on the extended reals -/

/-- The square of an extended real is never negative: `⊥ * ⊥ = ⊤ * ⊤ = ⊤`, and a real square is a real square. -/
theorem mul_self_nonneg_ereal (a : EReal) : 0 ≤ a * a := by
  induction a using EReal.rec with
  | bot => rw [EReal.bot_mul_bot]; exact le_top
  | coe r => rw [← EReal.coe_mul]; exact_mod_cast mul_self_nonneg r
  | top => rw [EReal.top_mul_top]; exact le_top

/-- A finite sum times a nonnegative real factor is the sum of the products. -/
theorem sum_mul_coe_nonneg {ι : Type} (s : Finset ι) (f : ι → EReal) (c : ℝ) (hc : 0 ≤ c) :
    (∑ i ∈ s, f i) * (c : EReal) = ∑ i ∈ s, f i * (c : EReal) := by
  classical
  refine Finset.induction_on s ?_ ?_
  · rw [Finset.sum_empty, Finset.sum_empty, zero_mul]
  · intro a t ha ih
    rw [Finset.sum_insert ha, Finset.sum_insert ha,
      EReal.right_distrib_of_nonneg_of_ne_top (by exact_mod_cast hc) (EReal.coe_ne_top c), ih]

/-- The fold of `max` from `⊥` over a nonempty family is one of the family's members. -/
theorem fold_max_mem {ι : Type} (s : Finset ι) (hs : s.Nonempty) (f : ι → EReal) :
    ∃ i ∈ s, s.fold max ⊥ f = f i :=
  Finset.exists_mem_eq_sup s hs f

/-- The float word `0x41100000` is nine. -/
theorem ofBits_nine : Ideal.ofBits .f32 0x41100000#32 = ((9 : ℝ) : EReal) := by
  simp [Ideal.ofBits, Ideal.ieee]
  rw [← EReal.coe_mul]
  congr 1
  norm_num

/-- The float word `0x49100000` is 589824. -/
theorem cCnt_eq : cCnt = ((589824 : ℝ) : EReal) := by
  unfold cCnt
  simp [Ideal.ofBits, Ideal.ieee]
  rw [← EReal.coe_mul]
  congr 1
  norm_num

/-- On real scores the exponential of the log-softmax is the quotient form of the softmax. -/
theorem probE_eq_prob (x : Board) (hx : ∀ r c k, IsReal (x r c k)) : probE x = prob x := by
  funext r c k
  -- the peak is one of the ten scores, hence a real
  obtain ⟨i, _, hi⟩ := fold_max_mem (Finset.univ : Finset (Fin 10)) Finset.univ_nonempty (fun k => x r c k)
  obtain ⟨p, hp⟩ : IsReal (peak x r c) := by
    unfold peak
    rw [hi]
    exact hx r c i
  choose a ha using hx r c
  -- the shifted scores are reals, their exponentials positive reals
  have hs : ∀ j, shifted x r c j = ((a j - p : ℝ) : EReal) := by
    intro j
    unfold shifted
    rw [ha j, hp, EReal.coe_sub]
  have he : ∀ j, Ideal.exp (shifted x r c j) = ((Real.exp (a j - p) : ℝ) : EReal) := by
    intro j
    rw [hs j, Ideal.exp_coe]
  -- the mass is a positive real
  have hm : mass x r c = ((∑ j : Fin 10, Real.exp (a j - p) : ℝ) : EReal) := by
    unfold mass
    rw [coe_sum]
    exact Finset.sum_congr rfl fun j _ => he j
  have hpos : 0 < ∑ j : Fin 10, Real.exp (a j - p) :=
    Finset.sum_pos (fun j _ => Real.exp_pos _) Finset.univ_nonempty
  -- both sides are the real exp (s) / m: exp (s - log m) = exp s / exp (log m)
  show Ideal.exp (logp x r c k) = Ideal.div (Ideal.exp (shifted x r c k)) (mass x r c)
  unfold logp
  rw [he k, hm, hs k, Ideal.log_coe, if_neg (not_le.mpr hpos), ← EReal.coe_sub, Ideal.exp_coe,
    Ideal.div_coe hpos.ne', ← EReal.coe_mul]
  congr 1
  rw [Real.exp_sub, Real.exp_log hpos, one_div, div_eq_mul_inv]

/-- With every label in 0 … 9 the one-hot sum picks the log-softmax at the label. -/
theorem ceAt_eq_ce (x : Board) (t : Words) (ht : ∀ r c, (t r c).toNat < 10) : ceAt x t = ce x t := by
  funext r c
  have hl : (label (t r c)).val = (t r c).toNat := Nat.mod_eq_of_lt (ht r c)
  unfold ceAt ce
  rw [Finset.sum_eq_single (label (t r c))]
  · have h1 : hit t r c (label (t r c)) = 1 := by
      unfold hit
      rw [if_pos]
      apply BitVec.eq_of_toNat_eq
      rw [BitVec.toNat_ofNat, hl]
      exact Nat.mod_eq_of_lt (t r c).isLt
    rw [h1, one_mul, zero_sub]
  · intro k _ hk
    have h0 : hit t r c k = 0 := by
      unfold hit
      rw [if_neg]
      intro h
      apply hk
      apply Fin.ext
      have h2 := congrArg BitVec.toNat h
      rw [BitVec.toNat_ofNat, Nat.mod_eq_of_lt (by have := k.isLt; omega)] at h2
      rw [hl]
      exact h2
    rw [h0, zero_mul]
  · intro h
    exact absurd (Finset.mem_univ _) h

/-- Dividing by the float nine is multiplying by one ninth, on every extended real. -/
theorem byNine_eq_ninthOf : byNine = ninthOf := by
  funext m
  unfold byNine ninthOf ninth
  rw [ofBits_nine, Ideal.div_coe (by norm_num)]

/-- A square is never negative. -/
theorem dev2_nonneg (tgt : EReal → EReal) (ds : Fin 9 → Fin 10 → EReal) (ms : Fin 9 → EReal) (g k : Fin 9) :
    0 ≤ dev2 tgt ds ms g k := by
  unfold dev2
  exact mul_self_nonneg_ereal _

/-- Averaging each group and adding the groups is dividing the grand total once, for nonnegative terms. -/
theorem meanOf_eq (D : Fin 65536 → Fin 9 → Fin 9 → EReal) (hD : ∀ n g k, 0 ≤ D n g k) :
    meanOf D = Ideal.div (∑ n : Fin 65536, ∑ g : Fin 9, ∑ k : Fin 9, D n g k) cCnt := by
  unfold meanOf
  rw [cCnt_eq]
  have h0 : (589824 : ℝ) ≠ 0 := by norm_num
  have hc : (0 : ℝ) ≤ 1 / 589824 := by norm_num
  simp only [Ideal.div_coe h0]
  rw [← sum_mul_coe_nonneg _ _ _ hc, Finset.sum_comm]

/-- The three results in the second spelling are the three results, when the scores are real and the labels in range. -/
theorem ceLossE_eq (X : Scores) (T P : WordsAll) (hT : ∀ i, (T i).toNat < 10) : ceLossE X T P = ceLoss X T P := by
  have h : totCeAt X T P = totCe X T P := by
    unfold totCeAt totCe
    exact Finset.sum_congr rfl fun n _ => by
      rw [ceAt_eq_ce (boardAt X n) (wordsAt T n) (fun r c => hT (ix3 n r c))]
  unfold ceLossE ceLoss
  rw [h]

theorem conLossE_eq (X : Scores) (P : WordsAll) (hX : ∀ i, IsReal (X i)) : conLossE X P = conLoss X P := by
  have hp : ∀ n, probE (boardAt X n) = prob (boardAt X n) :=
    fun n => probE_eq_prob _ (fun r c k => hX (ix4 n r c k))
  unfold conLossE conLoss rowLossE colLossE boxLossE totRow totCol totBox
  simp only [hp, byNine_eq_ninthOf]
  rw [meanOf_eq _ (fun n g k => dev2_nonneg _ _ _ g k), meanOf_eq _ (fun n g k => dev2_nonneg _ _ _ g k),
    meanOf_eq _ (fun n g k => dev2_nonneg _ _ _ g k)]
  rfl

theorem totalLossE_eq (X : Scores) (T P : WordsAll) (hX : ∀ i, IsReal (X i)) (hT : ∀ i, (T i).toNat < 10) :
    totalLossE X T P = totalLoss X T P := by
  rw [totalLossE, totalLoss, ceLossE_eq X T P hT, conLossE_eq X P hX]

/-- Puzzle `64 t + b`: puzzle `b` of block `t`. -/
def inBlock (t : Fin 1024) (b : Fin 64) : Fin 65536 := ⟨64 * t.val + b.val, by have := t.isLt; have := b.isLt; omega⟩

/-- A sum over all puzzles is the sum over the 1024 blocks of the sums over each block's 64 puzzles. -/
theorem sum_blocks (f : Fin 65536 → EReal) : ∑ n : Fin 65536, f n = ∑ t : Fin 1024, ∑ b : Fin 64, f (inBlock t b) := by
  have h : ∑ t : Fin 1024, ∑ b : Fin 64, f (inBlock t b) = ∑ p : Fin 1024 × Fin 64, f (inBlock p.1 p.2) :=
    (Fintype.sum_prod_type (fun p : Fin 1024 × Fin 64 => f (inBlock p.1 p.2))).symm
  rw [h]
  symm
  refine Fintype.sum_equiv (finProdFinEquiv (m := 1024) (n := 64)) _ _ ?_
  intro p
  congr 1
  apply Fin.ext
  simp [inBlock, finProdFinEquiv]
  omega

end Cert.Sudoku

end
-- ==== Proof.KValue.lean ====
import proofs.«410291_j73229192397510_2_alg».proof.Proof.KAcc
import proofs.«410291_j73229192397510_2_alg».proof.Proof.KCell
import proofs.«410291_j73229192397510_2_alg».proof.Proof.KRowCol
import proofs.«410291_j73229192397510_2_alg».proof.Proof.KBox
import proofs.«410291_j73229192397510_2_alg».proof.Proof.KLanes
import proofs.«410291_j73229192397510_2_alg».proof.Proof.Math

/-!
  The kernel's three results, over the extended reals.

  Lane by lane the accumulator after point `n` is the sum over the points `0 … n` of that point's
  five scalars; a point's block is 64 consecutive puzzles of the whole arrays, and each scalar is the
  sum over those puzzles of the per-puzzle quantity; so after the last point lanes 0 … 4 hold the five
  totals over all 65536 puzzles, and the lines after the region combine them into the three results.
-/

set_option maxRecDepth 16384

noncomputable section

open scoped BigOperators

namespace Cert.Sudoku.Kernel

open Idealize.ShloMosaic Idealize.ShloMosaic.TcCoe Idealize.SL.Sem Idealize.ShloMosaic.ValueIdx
open Cert.Sudoku Cert.Sudoku.Block Cert.KernelIdeal Cert.KernelIdeal.Gen Cert.KernelIdeal.Acc

variable (m : (ℓ : Loc nD τ sig) → Buf (Elt Ideal) ℓ) (ρ : Dev nD → PrngReg)

/-- The whole arrays on core `c`. -/
abbrev scores (c : Dev nD) : Scores := m ((c.tc : Thread nD τ).loc main_arg0)
abbrev labels (c : Dev nD) : WordsAll := m ((c.tc : Thread nD τ).loc main_arg1)
abbrev givens (c : Dev nD) : WordsAll := m ((c.tc : Thread nD τ).loc main_arg2)

/-- A grid point as a block number. -/
def blockNo (t : Fin cfg0.N) : Fin 1024 := ⟨t.val, lt_of_lt_of_eq t.isLt (show cfg0.N = 1024 from N_0)⟩

/-- The input windows' blocks move along the puzzle axis only, one block per point. -/
theorem idx0 : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)
theorem idx1 : ∀ t : Fin cfg0.N, win0_1.index t (0 : Fin 3) = t.val ∧ win0_1.index t (1 : Fin 3) = 0
    ∧ win0_1.index t (2 : Fin 3) = 0 :=
  (by decide +kernel : ∀ t : Fin grid0.N, _)
theorem idx2 : ∀ t : Fin cfg0.N, win0_2.index t (0 : Fin 3) = t.val ∧ win0_2.index t (1 : Fin 3) = 0
    ∧ win0_2.index t (2 : Fin 3) = 0 :=
  (by decide +kernel : ∀ t : Fin grid0.N, _)

/-- Puzzle `b` of the block at point `t` is puzzle `64 t + b` of the whole arrays. -/
theorem board_block (c : Dev nD) (t : Fin cfg0.N) (b : Fin 64) :
    boardOf (xblk m c t) b = boardAt (scores m c) (inBlock (blockNo t) b) := by
  funext r c' k
  show xblk m c t (ix4 b r c' k) = scores m c (ix4 (inBlock (blockNo t) b) r c' k)
  unfold xblk iblk
  rw [View.read_apply]
  show m (c.tc.loc main_arg0) _ = m (c.tc.loc main_arg0) _
  congr 1
  funext a
  apply Fin.ext
  match a with
  | ⟨0, _⟩ => show win0_0.index t 0 * 64 + 1 * b.val = 64 * t.val + b.val; rw [(idx0 t).1]; omega
  | ⟨1, _⟩ => show win0_0.index t 1 * 9 + 1 * r.val = r.val; rw [(idx0 t).2.1]; omega
  | ⟨2, _⟩ => show win0_0.index t 2 * 9 + 1 * c'.val = c'.val; rw [(idx0 t).2.2.1]; omega
  | ⟨3, _⟩ => show win0_0.index t 3 * 10 + 1 * k.val = k.val; rw [(idx0 t).2.2.2]; omega

theorem labels_block (c : Dev nD) (t : Fin cfg0.N) (b : Fin 64) :
    wordsOf (tblk m c t) b = wordsAt (labels m c) (inBlock (blockNo t) b) := by
  funext r c'
  show tblk m c t (ix3 b r c') = labels m c (ix3 (inBlock (blockNo t) b) r c')
  unfold tblk iblk
  rw [View.read_apply]
  show m (c.tc.loc main_arg1) _ = m (c.tc.loc main_arg1) _
  congr 1
  funext a
  apply Fin.ext
  match a with
  | ⟨0, _⟩ => show win0_1.index t 0 * 64 + 1 * b.val = 64 * t.val + b.val; rw [(idx1 t).1]; omega
  | ⟨1, _⟩ => show win0_1.index t 1 * 9 + 1 * r.val = r.val; rw [(idx1 t).2.1]; omega
  | ⟨2, _⟩ => show win0_1.index t 2 * 9 + 1 * c'.val = c'.val; rw [(idx1 t).2.2]; omega

theorem givens_block (c : Dev nD) (t : Fin cfg0.N) (b : Fin 64) :
    wordsOf (pblk m c t) b = wordsAt (givens m c) (inBlock (blockNo t) b) := by
  funext r c'
  show pblk m c t (ix3 b r c') = givens m c (ix3 (inBlock (blockNo t) b) r c')
  unfold pblk iblk
  rw [View.read_apply]
  show m (c.tc.loc main_arg2) _ = m (c.tc.loc main_arg2) _
  congr 1
  funext a
  apply Fin.ext
  match a with
  | ⟨0, _⟩ => show win0_2.index t 0 * 64 + 1 * b.val = 64 * t.val + b.val; rw [(idx2 t).1]; omega
  | ⟨1, _⟩ => show win0_2.index t 1 * 9 + 1 * r.val = r.val; rw [(idx2 t).2.1]; omega
  | ⟨2, _⟩ => show win0_2.index t 2 * 9 + 1 * c'.val = c'.val; rw [(idx2 t).2.2]; omega

/-! ## Lane by lane -/

/-- The five scalars of the block at point `t`. -/
abbrev s0 (c : Dev nD) (t : Fin cfg0.N) : FVec Ideal S1x1 .f32 := k0_pay8 (xblk m c t) (tblk m c t) (pblk m c t)
abbrev s1 (c : Dev nD) (t : Fin cfg0.N) : FVec Ideal S1x1 .f32 := k0_pay9 (k0_pay3 (pblk m c t))
abbrev s2 (c : Dev nD) (t : Fin cfg0.N) : FVec Ideal S1x1 .f32 := k0_pay13 (k0_pay3 (pblk m c t)) (k0_pay7 (xblk m c t))
abbrev s3 (c : Dev nD) (t : Fin cfg0.N) : FVec Ideal S64x9 .f32 := k0_pay14 (k0_pay3 (pblk m c t)) (k0_pay7 (xblk m c t))
abbrev s4 (c : Dev nD) (t : Fin cfg0.N) : FVec Ideal S1x1 .f32 :=
  k0_pay15 (k0_pay11 (k0_pay3 (pblk m c t)) (k0_pay7 (xblk m c t))) (k0_pay12 (k0_pay3 (pblk m c t)))

/-- What point `t` adds to lane `j` of the accumulator. -/
def added (c : Dev nD) (t : Fin cfg0.N) (j : Fin 128) : EReal :=
  k0_pay16 (F := Ideal) (s0 m c t) (s1 m c t) (s2 m c t) (s3 m c t) (ix2 (0 : Fin 1) j)
    + (if j.val = 4 then s4 m c t (ix2 0 0) else 0)

/-- The same for a point given by its number, zero past the grid. -/
def addedN (c : Dev nD) (j : Fin 128) (n : ℕ) : EReal := if h : n < cfg0.N then added m c ⟨n, h⟩ j else 0

/-- One step adds the point's lane to the accumulator's. -/
theorem step_lane (c : Dev nD) (t : Fin cfg0.N) (acc : Vec Ideal S1x128 .f32) (j : Fin 128) :
    step (xblk m c t) (tblk m c t) (pblk m c t) acc (ix2 (0 : Fin 1) j) = acc (ix2 0 j) + added m c t j := by
  unfold step added
  exact pay1_lane _ _ _ j

/-- Lane `j` after point `n` is the sum of what the points `0 … n` added. -/
theorem acc_lane (c : Dev nD) (j : Fin 128) : ∀ (n : ℕ) (h : n < cfg0.N),
    accAt m c n h (ix2 (0 : Fin 1) j) = ∑ t ∈ Finset.range (n + 1), addedN m c j t
  | 0, h => by
    show step (xblk m c ⟨0, h⟩) (tblk m c ⟨0, h⟩) (pblk m c ⟨0, h⟩) (k0_pay2 (F := Ideal)) (ix2 (0 : Fin 1) j) = _
    rw [step_lane, pay2_lane, zero_add, Finset.sum_range_one, addedN, dif_pos h]
  | n + 1, h => by
    show step (xblk m c ⟨n + 1, h⟩) (tblk m c ⟨n + 1, h⟩) (pblk m c ⟨n + 1, h⟩) (accAt m c n _) (ix2 (0 : Fin 1) j) = _
    rw [step_lane, acc_lane c j n, Finset.sum_range_succ _ (n + 1), addedN, dif_pos h]

/-- A block number as a grid point. -/
def pointOf (t : Fin 1024) : Fin cfg0.N := ⟨t.val, lt_of_lt_of_eq t.isLt (show cfg0.N = 1024 from N_0).symm⟩

theorem blockNo_pointOf (t : Fin 1024) : blockNo (pointOf t) = t := Fin.ext rfl

/-- The accumulator after the last point, at its literal vector type (the result array's contents). -/
def out (c : Dev nD) : Vec Ideal S1x128 .f32 := accAt m c 1023 lastLt

theorem result_eq_out (c : Dev nD) : result m c = out m c := rfl

/-- Lane `j` of the result array: the sum over all 1024 points. -/
theorem result_lane (c : Dev nD) (j : Fin 128) :
    out m c (ix2 (0 : Fin 1) j) = ∑ t : Fin 1024, added m c (pointOf t) j := by
  show accAt m c 1023 lastLt (ix2 (0 : Fin 1) j) = _
  rw [acc_lane, Finset.sum_range]
  refine Finset.sum_congr rfl fun t _ => ?_
  have ht : t.val < cfg0.N := lt_of_lt_of_eq t.isLt (show cfg0.N = 1024 from N_0).symm
  rw [addedN, dif_pos ht]
  rfl

/-! ## The five totals -/

theorem added0 (c : Dev nD) (t : Fin cfg0.N) : added m c t ⟨0, by decide⟩ = s0 m c t (ix2 0 0) := by
  unfold added; rw [pay16_lane]; simp
theorem added1 (c : Dev nD) (t : Fin cfg0.N) : added m c t ⟨1, by decide⟩ = s1 m c t (ix2 0 0) := by
  unfold added; rw [pay16_lane]; simp
theorem added2 (c : Dev nD) (t : Fin cfg0.N) : added m c t ⟨2, by decide⟩ = s2 m c t (ix2 0 0) := by
  unfold added; rw [pay16_lane]; simp
theorem added3 (c : Dev nD) (t : Fin cfg0.N) :
    added m c t ⟨3, by decide⟩ = ∑ b : Fin 64, ∑ g : Fin 9, s3 m c t (ix2 b g) := by
  unfold added; rw [pay16_lane]; simp
theorem added4 (c : Dev nD) (t : Fin cfg0.N) : added m c t ⟨4, by decide⟩ = s4 m c t (ix2 0 0) := by
  unfold added; rw [pay16_lane]; simp

theorem lane0 (c : Dev nD) : out m c (ix2 (0 : Fin 1) ⟨0, by decide⟩) = totCe (scores m c) (labels m c) (givens m c) := by
  rw [result_lane, totCe, sum_blocks]
  refine Finset.sum_congr rfl fun t _ => ?_
  rw [added0]
  show k0_pay8 (F := Ideal) _ _ _ (ix2 (0 : Fin 1) (0 : Fin 1)) = _
  rw [pay8_eq]
  refine Finset.sum_congr rfl fun b _ => ?_
  rw [board_block, labels_block, givens_block, blockNo_pointOf]

theorem lane1 (c : Dev nD) : out m c (ix2 (0 : Fin 1) ⟨1, by decide⟩) = totCount (givens m c) := by
  rw [result_lane, totCount, sum_blocks]
  refine Finset.sum_congr rfl fun t _ => ?_
  rw [added1]
  show k0_pay9 (F := Ideal) (k0_pay3 _) (ix2 (0 : Fin 1) (0 : Fin 1)) = _
  rw [pay9_eq]
  refine Finset.sum_congr rfl fun b _ => ?_
  rw [givens_block, blockNo_pointOf]

theorem lane2 (c : Dev nD) : out m c (ix2 (0 : Fin 1) ⟨2, by decide⟩) = totRow (scores m c) (givens m c) := by
  rw [result_lane, totRow, sum_blocks]
  refine Finset.sum_congr rfl fun t _ => ?_
  rw [added2]
  show k0_pay13 (F := Ideal) (k0_pay3 _) (k0_pay7 _) (ix2 (0 : Fin 1) (0 : Fin 1)) = _
  rw [pay13_eq]
  refine Finset.sum_congr rfl fun b _ => ?_
  rw [board_block, givens_block, blockNo_pointOf]

theorem lane3 (c : Dev nD) : out m c (ix2 (0 : Fin 1) ⟨3, by decide⟩) = totCol (scores m c) (givens m c) := by
  rw [result_lane, totCol, sum_blocks]
  refine Finset.sum_congr rfl fun t _ => ?_
  rw [added3]
  show (∑ b : Fin 64, ∑ g : Fin 9, k0_pay14 (F := Ideal) (k0_pay3 _) (k0_pay7 _) (ix2 b g)) = _
  rw [pay14_total]
  refine Finset.sum_congr rfl fun b _ => ?_
  rw [board_block, givens_block, blockNo_pointOf]

theorem lane4 (c : Dev nD) : out m c (ix2 (0 : Fin 1) ⟨4, by decide⟩) = totBox (scores m c) (givens m c) := by
  rw [result_lane, totBox, sum_blocks]
  refine Finset.sum_congr rfl fun t _ => ?_
  rw [added4]
  show k0_pay15 (F := Ideal) (k0_pay11 (k0_pay3 _) (k0_pay7 _)) (k0_pay12 (k0_pay3 _)) (ix2 (0 : Fin 1) (0 : Fin 1)) = _
  rw [pay15_eq]
  refine Finset.sum_congr rfl fun b _ => ?_
  rw [board_block, givens_block, blockNo_pointOf]

/-! ## The three results -/

/-- Lane `n` of a [1, 128] array, taken as the lines after the region take it. -/
theorem laneOf_apply (o : Vec Ideal S1x128 .f32) (n : Fin 128) (off : Fin 2 → ℕ) (hoff : off = ![0, n.val])
    (h : S1x128.Slices off S1x1) (i : S_.Idx) : laneOf (F := Ideal) o off h i = o (ix2 (0 : Fin 1) n) := by
  subst hoff
  unfold laneOf
  refine (shapeCast_apply (extractStridedSlice S1x1 ![0, n.val] o h) shapeCasts_S1x1_S_ i (ix2 (0 : Fin 1) (0 : Fin 1)) ?_).trans ?_
  · rw [eq_ix0 i]; decide
  · exact extractStridedSlice_apply ![0, n.val] o h (ix2 (0 : Fin 1) (0 : Fin 1)) (ix2 (0 : Fin 1) n) (fun a => by
      match a with
      | ⟨0, _⟩ => rfl
      | ⟨1, _⟩ => show n.val = n.val + 0; omega)

theorem tailCe_apply (o : Vec Ideal S1x128 .f32) (i : S_.Idx) :
    tailCe (F := Ideal) o i
      = Ideal.div (o (ix2 (0 : Fin 1) ⟨0, by decide⟩)) (o (ix2 (0 : Fin 1) ⟨1, by decide⟩) + cEps) := by
  have e0 := laneOf_apply o ⟨0, by decide⟩ ![0, 0] rfl slices_S1x128_S1x1_0_0 i
  have e1 := laneOf_apply o ⟨1, by decide⟩ ![0, 1] rfl slices_S1x128_S1x1_0_1 i
  show Ideal.div (laneOf (F := Ideal) o ![0, 0] slices_S1x128_S1x1_0_0 i)
    (laneOf (F := Ideal) o ![0, 1] slices_S1x128_S1x1_0_1 i + Ideal.ofBits .f32 0x322BCC77#32) = _
  rw [e0, e1]
  rfl

theorem tailCon_apply (o : Vec Ideal S1x128 .f32) (i : S_.Idx) :
    tailCon (F := Ideal) o i
      = Ideal.div (Ideal.div (o (ix2 (0 : Fin 1) ⟨2, by decide⟩)) cCnt + Ideal.div (o (ix2 (0 : Fin 1) ⟨3, by decide⟩)) cCnt
          + Ideal.div (o (ix2 (0 : Fin 1) ⟨4, by decide⟩)) cCnt) cGroups := by
  have e2 := laneOf_apply o ⟨2, by decide⟩ ![0, 2] rfl slices_S1x128_S1x1_0_2 i
  have e3 := laneOf_apply o ⟨3, by decide⟩ ![0, 3] rfl slices_S1x128_S1x1_0_3 i
  have e4 := laneOf_apply o ⟨4, by decide⟩ ![0, 4] rfl slices_S1x128_S1x1_0_4 i
  show Ideal.div (Ideal.div (laneOf (F := Ideal) o ![0, 2] slices_S1x128_S1x1_0_2 i) (Ideal.ofBits .f32 0x49100000#32)
      + Ideal.div (laneOf (F := Ideal) o ![0, 3] slices_S1x128_S1x1_0_3 i) (Ideal.ofBits .f32 0x49100000#32)
      + Ideal.div (laneOf (F := Ideal) o ![0, 4] slices_S1x128_S1x1_0_4 i) (Ideal.ofBits .f32 0x49100000#32))
    (Ideal.ofBits .f32 0x41D80000#32) = _
  rw [e2, e3, e4]
  rfl

theorem tailTotal_apply (o : Vec Ideal S1x128 .f32) (i : S_.Idx) :
    tailTotal (F := Ideal) o i = tailCe (F := Ideal) o i + cWeight * tailCon (F := Ideal) o i := rfl

theorem ce_eq (c : Dev nD) : tailCe (F := Ideal) (out m c) = fun _ => ceLoss (scores m c) (labels m c) (givens m c) := by
  funext i
  rw [tailCe_apply, lane0, lane1]
  rfl

theorem con_eq (c : Dev nD) : tailCon (F := Ideal) (out m c) = fun _ => conLoss (scores m c) (givens m c) := by
  funext i
  rw [tailCon_apply, lane2, lane3, lane4]
  rfl

theorem total_eq (c : Dev nD) :
    tailTotal (F := Ideal) (out m c) = fun _ => totalLoss (scores m c) (labels m c) (givens m c) := by
  funext i
  rw [tailTotal_apply, ce_eq, con_eq]
  rfl

/-- Every weakly fair execution of the kernel's program ends with the three results at the total loss, the cross-entropy
    loss and the constraint loss of its argument arrays, and the arguments unchanged. -/
theorem run : θ_run defs (onTc (τ := τ) (main (F := Ideal))) ⟨m, fun _ => 0, ρ⟩ fun r => ∀ c : Dev nD,
      r.2.mem ((c.tc : Thread nD τ).loc main_v20) = (fun _ => totalLoss (scores m c) (labels m c) (givens m c))
      ∧ r.2.mem ((c.tc : Thread nD τ).loc main_v12) = (fun _ => ceLoss (scores m c) (labels m c) (givens m c))
      ∧ r.2.mem ((c.tc : Thread nD τ).loc main_v18) = (fun _ => conLoss (scores m c) (givens m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ?_) (Cert.KernelIdeal.Acc.run (F := Ideal) m ρ)
  have h20 : tailTotal (F := Ideal) (result m c) = tailTotal (F := Ideal) (out m c) := rfl
  have h12 : tailCe (F := Ideal) (result m c) = tailCe (F := Ideal) (out m c) := rfl
  have h18 : tailCon (F := Ideal) (result m c) = tailCon (F := Ideal) (out m c) := rfl
  exact ⟨((h c).1.trans h20).trans (total_eq m c), ((h c).2.1.trans h12).trans (ce_eq m c),
    ((h c).2.2.1.trans h18).trans (con_eq m c), (h c).2.2.2⟩

end Cert.Sudoku.Kernel

end
-- ==== Proof.RCell.lean ====
import proofs.«410291_j73229192397510_2_alg».proof.Proof.Spec
import proofs.«410291_j73229192397510_2_alg».proof.Proof.RefStages
import Idealize.ShloMosaic.PureOps.Ideal.Laws
import Idealize.ShloMosaic.Lib.Pipeline.Value
import Idealize.ShloMosaic.Lib.ValueLayout
import Idealize.ShloMosaic.Lib.StableHlo.Predicate

noncomputable section

open scoped BigOperators

namespace Cert.Sudoku.Ref

open Idealize.ShloMosaic Idealize.ShloMosaic.ValueIdx Cert.Sudoku Cert.ReferenceIdeal Cert.ReferenceIdeal.Read
  Cert.ReferenceIdeal.Gen

/-! ## The blank indicator -/

/-- The blank indicator, cell by cell: the one-bit word "the givens word is zero", read unsigned, is 1 or 0. -/
theorem v2_apply (P : WordsAll) (n : Fin 65536) (r c : Fin 9) :
    val_main_v2 (F := Ideal) P (ix3 n r c) = blank (wordsAt P n) r c := by
  rw [val_main_v2_apply, val_main_v1_apply, val_main_v0_apply, val_main_c_apply]
  show (((IntOp.cmpi .eq (P (ix3 n r c)) 0#32).toNat : ℝ) : EReal) = _
  unfold blank wordsAt
  by_cases h : P (ix3 n r c) = 0#32
  · rw [if_pos h, h]; simp [IntOp.cmpi]
  · rw [if_neg h]; simp [IntOp.cmpi, h]

/-! ## The log-softmax -/

namespace Cell

/-- The f32 pattern of −∞ denotes the bottom of the extended reals. -/
theorem ofBits_negInf : Ideal.ofBits .f32 0xFF800000#32 = ⊥ := by simp [Ideal.ofBits, Ideal.ieee]

/-! The broadcasts and the class sum read their operands at these indices. -/

theorem idx_bc4 (n : Fin 65536) (r c : Fin 9) (k : Fin 10) :
    idx_main_call0_v4 (ix4 n r c k) = ix4 n r c (0 : Fin 1) :=
  funext fun a => Fin.ext (by match a with | ⟨0, _⟩ => rfl | ⟨1, _⟩ => rfl | ⟨2, _⟩ => rfl | ⟨3, _⟩ => rfl)

theorem idx_bc3 (n : Fin 65536) (r c : Fin 9) :
    idx_main_call0_v3 (ix4 n r c (0 : Fin 1)) = ix3 n r c :=
  funext fun a => Fin.ext (by match a with | ⟨0, _⟩ => rfl | ⟨1, _⟩ => rfl | ⟨2, _⟩ => rfl)

theorem idx_bc4' (n : Fin 65536) (r c : Fin 9) (k : Fin 10) :
    idx_main_call0_v10 (ix4 n r c k) = ix4 n r c (0 : Fin 1) :=
  funext fun a => Fin.ext (by match a with | ⟨0, _⟩ => rfl | ⟨1, _⟩ => rfl | ⟨2, _⟩ => rfl | ⟨3, _⟩ => rfl)

theorem idx_bc3' (n : Fin 65536) (r c : Fin 9) :
    idx_main_call0_v8 (ix4 n r c (0 : Fin 1)) = ix3 n r c :=
  funext fun a => Fin.ext (by match a with | ⟨0, _⟩ => rfl | ⟨1, _⟩ => rfl | ⟨2, _⟩ => rfl)

theorem idx_sum (n : Fin 65536) (r c : Fin 9) (k : Fin 10) :
    idx_main_call0_v7 (ix3 n r c) k = ix4 n r c k :=
  funext fun a => Fin.ext (by match a with | ⟨0, _⟩ => rfl | ⟨1, _⟩ => rfl | ⟨2, _⟩ => rfl | ⟨3, _⟩ => rfl)

/-- The maximum over the class axis is the fold of max from −∞ over the ten classes: max is commutative and
    associative, so the reduce over one axis is the fold over that axis's coordinates. -/
theorem max_apply (X : Scores) (n : Fin 65536) (r c : Fin 9) :
    val_main_call0_v0 (F := Ideal) X (ix3 n r c) = peak (boardAt X n) r c := by
  unfold val_main_call0_v0
  refine (Host.reduce_eq_fold_single _ X _ reducesTo_S65536x9x9x10_S65536x9x9_d3 (by decide) h_S_ (ix3 n r c)).trans ?_
  unfold peak boardAt
  show Finset.fold max (Ideal.ofBits .f32 0xFF800000#32) _ (Finset.univ : Finset (Fin 10)) = _
  rw [ofBits_negInf]
  refine congrArg (fun f => Finset.fold max ⊥ f (Finset.univ : Finset (Fin 10))) (funext fun k => congrArg X ?_)
  exact funext fun a => Fin.ext (by match a with | ⟨0, _⟩ => rfl | ⟨1, _⟩ => rfl | ⟨2, _⟩ => rfl | ⟨3, _⟩ => rfl)

/-- The maximum against a broadcast −∞ changes nothing (max ⊥ x = x); broadcast back over the classes it is the
    cell's peak at every class. -/
theorem peak_bc (X : Scores) (n : Fin 65536) (r c : Fin 9) (k : Fin 10) :
    val_main_call0_v4 (F := Ideal) X (ix4 n r c k) = peak (boardAt X n) r c := by
  rw [val_main_call0_v4_apply, idx_bc4, val_main_call0_v3_apply, idx_bc3, val_main_call0_v2_apply,
    val_main_call0_v1_apply, val_main_call0_cst_0_apply, max_apply]
  show max (Ideal.ofBits .f32 0xFF800000#32) _ = _
  rw [ofBits_negInf, max_bot_left]

/-- The scores less their peak. -/
theorem shifted_apply (X : Scores) (n : Fin 65536) (r c : Fin 9) (k : Fin 10) :
    val_main_call0_v5 (F := Ideal) X (ix4 n r c k) = shifted (boardAt X n) r c k := by
  rw [val_main_call0_v5_apply, peak_bc]; rfl

/-- The sum over the class axis of the exponentials, from the zero word (0 + s = s). -/
theorem mass_apply (X : Scores) (n : Fin 65536) (r c : Fin 9) :
    val_main_call0_v7 (F := Ideal) X (ix3 n r c) = mass (boardAt X n) r c := by
  rw [val_main_call0_v7_apply, val_main_call0_cst_1_apply]
  show Ideal.ofBits .f32 0x00000000#32 + _ = _
  rw [Ideal.ofBits_zero_f32, zero_add]
  unfold mass
  refine Finset.sum_congr rfl fun k _ => ?_
  rw [idx_sum, val_main_call0_v6_apply, shifted_apply]; rfl

end Cell

open Cell

/-- The log-softmax, entry by entry: the shifted score less the logarithm of the cell's mass. -/
theorem v3_apply (X : Scores) (n : Fin 65536) (r c : Fin 9) (k : Fin 10) :
    val_main_v3 (F := Ideal) X (ix4 n r c k) = logp (boardAt X n) r c k := by
  rw [val_main_v3_apply, shifted_apply, val_main_call0_v10_apply, idx_bc4', val_main_call0_v9_apply,
    val_main_call0_v8_apply, idx_bc3', mass_apply]
  rfl

namespace Cell

/-! ## Label words in 0 … 9

A word below ten has its sign bit clear, so the signed comparisons order it as its value. -/

open Idealize.ShloMosaic.StableHlo.Predicate in
/-- A word in 0 … 9 is not negative … -/
theorem slt_zero_of_lt {w : BitVec 32} (hw : w.toNat < 10) : IntOp.cmpi .slt w 0#32 = 0#1 :=
  eq_zero_of_ne_one fun h => absurd ((slt_iff_toNat (by omega) (by decide)).1 h) (by simp)

open Idealize.ShloMosaic.StableHlo.Predicate in
/-- … it is at least 0 … -/
theorem sge_zero_of_lt {w : BitVec 32} (hw : w.toNat < 10) : IntOp.cmpi .sge w 0#32 = 1#1 :=
  (sge_iff_toNat (by omega) (by decide)).2 (by simp)

open Idealize.ShloMosaic.StableHlo.Predicate in
/-- … and at most 9. -/
theorem sle_nine_of_lt {w : BitVec 32} (hw : w.toNat < 10) : IntOp.cmpi .sle w 9#32 = 1#1 :=
  (sle_iff_toNat (by omega) (by decide)).2 (by simp; omega)

open Idealize.ShloMosaic.StableHlo.Predicate in
/-- Read signed, it is its value. -/
theorem toInt_toNat_of_lt {w : BitVec 32} (hw : w.toNat < 10) : w.toInt.toNat = w.toNat := by
  rw [toInt_eq_toNat_of_lt (by omega)]; rfl

/-- On 0 … 9 the label is the word's value (w mod 10 = w). -/
theorem label_of_lt {w : BitVec 32} (hw : w.toNat < 10) : label w = ⟨w.toNat, hw⟩ :=
  Fin.ext (Nat.mod_eq_of_lt hw)

/-! ## The gather along the class axis -/

/-- The gather's dimension numbers: batching over (puzzle, row, column), the start index on the class axis. -/
abbrev gd : GatherDims S65536x9x9x10 S65536x9x9x1x1 S65536x9x9x1 :=
  gather_S65536x9x9x10_S65536x9x9x1x1_S65536x9x9x1_n_3_012_012_3_4_1111

/-! On a batching axis the operand index is the result's coordinate: the start is 0 there and so is the offset. -/

theorem gd_op0 {w : Nat} (j : S65536x9x9x1.Idx) (idx : IVec S65536x9x9x1x1 w) :
    gd.start j idx 0 + gd.batchCoord j 0 + gd.offCoord j 0 = (j 0).val := by
  rw [GatherDims.start_batching _ _ _ _ (by decide), GatherDims.offCoord_eq_zero _ _ _ (by decide)]
  rw [Nat.zero_add, Nat.add_zero]
  unfold GatherDims.batchCoord
  rw [dif_pos (by decide)]
  rfl

theorem gd_op1 {w : Nat} (j : S65536x9x9x1.Idx) (idx : IVec S65536x9x9x1x1 w) :
    gd.start j idx 1 + gd.batchCoord j 1 + gd.offCoord j 1 = (j 1).val := by
  rw [GatherDims.start_batching _ _ _ _ (by decide), GatherDims.offCoord_eq_zero _ _ _ (by decide)]
  rw [Nat.zero_add, Nat.add_zero]
  unfold GatherDims.batchCoord
  rw [dif_pos (by decide)]
  rfl

theorem gd_op2 {w : Nat} (j : S65536x9x9x1.Idx) (idx : IVec S65536x9x9x1x1 w) :
    gd.start j idx 2 + gd.batchCoord j 2 + gd.offCoord j 2 = (j 2).val := by
  rw [GatherDims.start_batching _ _ _ _ (by decide), GatherDims.offCoord_eq_zero _ _ _ (by decide)]
  rw [Nat.zero_add, Nat.add_zero]
  unfold GatherDims.batchCoord
  rw [dif_pos (by decide)]
  rfl

/-- On the class axis (collapsed, not batching) the operand index is the start index read at
    (puzzle, row, column, 0, 0), signed and clamped into 0 … 9. -/
theorem gd_op3 {w : Nat} (n : Fin 65536) (r c : Fin 9) (idx : IVec S65536x9x9x1x1 w) :
    gd.start (ix4 n r c (0 : Fin 1)) idx 3 + gd.batchCoord (ix4 n r c (0 : Fin 1)) 3 + gd.offCoord (ix4 n r c (0 : Fin 1)) 3
      = min (idx (ix5 n r c (0 : Fin 1) (0 : Fin 1))).toInt.toNat 9 := by
  rw [GatherDims.batchCoord_eq_zero _ _ _ (by decide), GatherDims.offCoord_eq_zero _ _ _ (by decide)]
  simp only [Nat.add_zero]
  unfold GatherDims.start
  rw [dif_pos (show (3 : Fin 4) ∈ gd.startIndexMap by decide)]
  have hsi : gd.siIdx (ix4 n r c (0 : Fin 1)) ⟨List.idxOf (3 : Fin 4) gd.startIndexMap,
      List.idxOf_lt_length_iff.2 (show (3 : Fin 4) ∈ gd.startIndexMap by decide)⟩ = ix5 n r c (0 : Fin 1) (0 : Fin 1) := by
    funext b; refine Fin.ext ?_
    match b with
    | ⟨0, _⟩ => rfl
    | ⟨1, _⟩ => rfl
    | ⟨2, _⟩ => rfl
    | ⟨3, _⟩ => rfl
    | ⟨4, _⟩ => rfl
  rw [hsi]
  rfl

/-- THE GATHER READ AT (puzzle, row, column, 0): the operand at the class the start index names, when that lies
    in 0 … 9 (read signed it is its value, and the clamp into 0 … 9 keeps it). -/
theorem gather_apply {α : Type} (x : S65536x9x9x10.Idx → α) (idx : IVec S65536x9x9x1x1 32) (n : Fin 65536) (r c : Fin 9)
    (hw : (idx (ix5 n r c (0 : Fin 1) (0 : Fin 1))).toNat < 10) :
    Host.gather gd x idx (ix4 n r c (0 : Fin 1)) = x (ix4 n r c ⟨(idx (ix5 n r c (0 : Fin 1) (0 : Fin 1))).toNat, hw⟩) := by
  unfold Host.gather
  refine congrArg x (funext fun a => Fin.ext ?_)
  show gd.start (ix4 n r c 0) idx a + gd.batchCoord (ix4 n r c 0) a + gd.offCoord (ix4 n r c 0) a = _
  match a with
  | ⟨0, _⟩ => exact gd_op0 _ _
  | ⟨1, _⟩ => exact gd_op1 _ _
  | ⟨2, _⟩ => exact gd_op2 _ _
  | ⟨3, _⟩ => exact (gd_op3 n r c idx).trans (by rw [toInt_toNat_of_lt hw]; exact Nat.min_eq_left (by omega))

/-! ## The index checks: all true on labels in 0 … 9 -/

/-- A left fold by `and` from 1 over words that are all 1 is 1. -/
theorem foldl_andi_ones {ι : Type} (f : ι → BitVec 1) (hf : ∀ i, f i = 1#1) :
    ∀ l : List ι, l.foldl (fun r n => IntOp.andi r (f n)) 1#1 = 1#1
  | [] => rfl
  | a :: l => by
    rw [List.foldl_cons, hf a, show IntOp.andi 1#1 1#1 = 1#1 by decide]
    exact foldl_andi_ones f hf l

/-- So a reduce by `and` from 1 of an array of ones is 1 at every result index. -/
theorem reduce_andi_ones {s t u : Shape} {axes : List (Fin s.rank)} (x : s.Idx → BitVec 1) (init : u.Idx → BitVec 1)
    (h : s.ReducesTo axes t) (hu : 0 < u.numel) (j : t.Idx) (hx : ∀ i, x i = 1#1) (hi : init (Shape.Idx.first hu) = 1#1) :
    Host.reduce IntOp.andi x init h hu j = 1#1 := by
  rw [Host.reduce_eq_foldl, hi]
  exact foldl_andi_ones x hx _

/-- A label in 0 … 9 is not negative, so the wrap-around select keeps it. -/
theorem wrap_apply (T : WordsAll) (hT : ∀ i, (T i).toNat < 10) (j : S65536x9x9x1.Idx) :
    val_main_call1_v4 (F := Ideal) T j = T (idx_main_v4 j) := by
  rw [val_main_call1_v4_apply, val_main_call1_v1_apply, val_main_v4_apply, val_main_call1_v0_apply,
    val_main_call1_c_apply, slt_zero_of_lt (hT _), select_zero]

/-- The start-index word at any index is one of the label words. -/
theorem idxw_apply (T : WordsAll) (hT : ∀ i, (T i).toNat < 10) (i : S65536x9x9x1x1.Idx) :
    val_main_call1_v5 (F := Ideal) T i = T (idx_main_v4 (idx_main_call1_v5 i)) := by
  rw [val_main_call1_v5_apply, wrap_apply T hT]

/-- Both range checks hold at every index. -/
theorem inrange_apply (T : WordsAll) (hT : ∀ i, (T i).toNat < 10) (i : S65536x9x9x1x1.Idx) :
    val_main_call1_v11 (F := Ideal) T i = 1#1 := by
  rw [val_main_call1_v11_apply, val_main_call1_v7_apply, val_main_call1_v10_apply, idxw_apply T hT,
    val_main_call1_v6_apply, val_main_call1_c_2_apply, val_main_call1_v9_apply, val_main_call1_v8_apply,
    val_main_call1_c_1_apply, sge_zero_of_lt (hT _), sle_nine_of_lt (hT _)]
  decide

/-- So their conjunction over the trailing unit axis is 1 everywhere. -/
theorem allin_apply (T : WordsAll) (hT : ∀ i, (T i).toNat < 10) (j : S65536x9x9x1.Idx) :
    val_main_call1_v12 (F := Ideal) T j = 1#1 := by
  unfold val_main_call1_v12
  exact reduce_andi_ones _ _ _ _ _ (inrange_apply T hT) rfl

/-! The reshapes read their operands at these indices (row-major positions agree). -/

theorem idx_v6 (n : Fin 65536) (r c : Fin 9) : idx_main_v6 (ix3 n r c) = ix4 n r c (0 : Fin 1) :=
  funext fun a => Fin.ext (by
    have hn := n.isLt; have hr := r.isLt; have hc := c.isLt
    match a with
    | ⟨0, _⟩ => show ((n.val * 9 + r.val) * 9 + c.val) / 81 = n.val; omega
    | ⟨1, _⟩ => show ((n.val * 9 + r.val) * 9 + c.val) / 9 % 9 = r.val; omega
    | ⟨2, _⟩ => show ((n.val * 9 + r.val) * 9 + c.val) / 1 % 9 = c.val; omega
    | ⟨3, _⟩ => rfl)

theorem idx_c5 (n : Fin 65536) (r c : Fin 9) :
    idx_main_call1_v5 (ix5 n r c (0 : Fin 1) (0 : Fin 1)) = ix4 n r c (0 : Fin 1) :=
  funext fun a => Fin.ext (by
    have hn := n.isLt; have hr := r.isLt; have hc := c.isLt
    match a with
    | ⟨0, _⟩ => show ((((n.val * 9 + r.val) * 9 + c.val) * 1 + 0) * 1 + 0) / 81 = n.val; omega
    | ⟨1, _⟩ => show ((((n.val * 9 + r.val) * 9 + c.val) * 1 + 0) * 1 + 0) / 9 % 9 = r.val; omega
    | ⟨2, _⟩ => show ((((n.val * 9 + r.val) * 9 + c.val) * 1 + 0) * 1 + 0) / 1 % 9 = c.val; omega
    | ⟨3, _⟩ => rfl)

theorem idx_v4 (n : Fin 65536) (r c : Fin 9) : idx_main_v4 (ix4 n r c (0 : Fin 1)) = ix3 n r c :=
  funext fun a => Fin.ext (by match a with | ⟨0, _⟩ => rfl | ⟨1, _⟩ => rfl | ⟨2, _⟩ => rfl)

/-- The start-index word of cell (puzzle, row, column) is the cell's label word. -/
theorem idxw_cell (T : WordsAll) (hT : ∀ i, (T i).toNat < 10) (n : Fin 65536) (r c : Fin 9) :
    val_main_call1_v5 (F := Ideal) T (ix5 n r c (0 : Fin 1) (0 : Fin 1)) = T (ix3 n r c) := by
  rw [idxw_apply T hT, idx_c5, idx_v4]

end Cell

/-- With every label in 0 … 9 the gathered, negated log-softmax is the cell's cross entropy read at the label. -/
theorem v7_apply (X : Scores) (T : WordsAll) (hT : ∀ i, (T i).toNat < 10) (n : Fin 65536) (r c : Fin 9) :
    val_main_v7 (F := Ideal) X T (ix3 n r c) = ceAt (boardAt X n) (wordsAt T n) r c := by
  have hv := idxw_cell T hT n r c
  have hw : (val_main_call1_v5 (F := Ideal) T (ix5 n r c (0 : Fin 1) (0 : Fin 1))).toNat < 10 := by
    rw [hv]; exact hT _
  have hl : (⟨_, hw⟩ : Fin 10) = label (T (ix3 n r c)) :=
    Fin.ext (by show (val_main_call1_v5 (F := Ideal) T (ix5 n r c (0 : Fin 1) (0 : Fin 1))).toNat = _
                rw [hv, label_of_lt (hT _)])
  rw [val_main_v7_apply, val_main_v6_apply, idx_v6, val_main_v5_apply, allin_apply T hT, select_one]
  unfold val_main_call1_v13
  refine (congrArg FloatOps.hostNegf (gather_apply _ _ n r c hw)).trans ?_
  rw [hl, v3_apply]
  rfl

namespace Cell

/-! ## Sums over all cells -/

/-- A rank-3 index set is the product of its three coordinate ranges … -/
def cellEquiv {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_cells {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (cellEquiv (n0 := n0) (n1 := n1) (n2 := n2)).symm f, Fintype.sum_prod_type]
  refine Finset.sum_congr rfl fun a _ => ?_
  rw [Fintype.sum_prod_type]
  rfl

end Cell

/-- The masked cross entropy summed over everything: the total sum from the zero word, re-indexed by
    (puzzle, row, column). -/
theorem v9_eq (X : Scores) (T P : WordsAll) (hT : ∀ i, (T i).toNat < 10) (i : S_.Idx) :
    val_main_v9 (F := Ideal) X T P i = totCeAt X T P := by
  rw [val_main_v9_apply, val_main_cst_apply]
  show Ideal.ofBits .f32 0x00000000#32 + _ = _
  rw [Ideal.ofBits_zero_f32, zero_add, sum_cells]
  unfold totCeAt ceSum
  refine Finset.sum_congr rfl fun n _ => Finset.sum_congr rfl fun r _ => Finset.sum_congr rfl fun c _ => ?_
  rw [val_main_v8_apply, v7_apply X T hT, v2_apply]
  rfl

/-- The number of blank cells. -/
theorem v10_eq (P : WordsAll) (i : S_.Idx) : val_main_v10 (F := Ideal) P i = totCount P := by
  rw [val_main_v10_apply, val_main_cst_0_apply]
  show Ideal.ofBits .f32 0x00000000#32 + _ = _
  rw [Ideal.ofBits_zero_f32, zero_add, sum_cells]
  unfold totCount count
  refine Finset.sum_congr rfl fun n _ => Finset.sum_congr rfl fun r _ => Finset.sum_congr rfl fun c _ => ?_
  rw [v2_apply]

/-- The cross-entropy loss: the quotient of the two totals, the count padded by the small constant. -/
theorem v12_eq (X : Scores) (T P : WordsAll) (hT : ∀ i, (T i).toNat < 10) (i : S_.Idx) :
    val_main_v12 (F := Ideal) X T P i = ceLossE X T P := by
  rw [val_main_v12_apply, v9_eq X T P hT, val_main_v11_apply, v10_eq, val_main_cst_1_apply]
  rfl

end Cert.Sudoku.Ref

end
-- ==== Proof.RRowCol.lean ====
import proofs.«410291_j73229192397510_2_alg».proof.Proof.RCell

noncomputable section

open scoped BigOperators

namespace Cert.Sudoku.Ref

open Idealize.ShloMosaic Idealize.ShloMosaic.ValueIdx Cert.Sudoku Cert.ReferenceIdeal Cert.ReferenceIdeal.Read

/-! ## Sums over an index set, by coordinates -/

/-- A rank-1 index set is its coordinate's range … -/
def idxEquiv1 {n0 : Nat} : (⟨1, ![n0]⟩ : Shape).Idx ≃ Fin n0 where
  toFun i := i 0
  invFun a := ix1 a
  left_inv i := (eq_ix1 i).symm
  right_inv _ := rfl

/-- … so a sum over it is the sum over the coordinate. -/
theorem sum_idx1 {M : Type*} [AddCommMonoid M] {n0 : Nat} (f : (⟨1, ![n0]⟩ : Shape).Idx → M) :
    ∑ i, f i = ∑ a : Fin n0, f (ix1 a) := by
  rw [← Equiv.sum_comp (idxEquiv1 (n0 := n0)).symm f]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The masked softmax -/

/-- The class-axis broadcast of the blank indicator reads the cell's own entry. -/
theorem idx_v14_v15 (n : Fin 65536) (r c : Fin 9) (k : Fin 10) :
    idx_main_v14 (idx_main_v15 (ix4 n r c k)) = ix3 n r c := by
  funext a
  refine Fin.ext ?_
  match a with
  | ⟨0, _⟩ => rfl
  | ⟨1, _⟩ => rfl
  | ⟨2, _⟩ => rfl

/-- The blank-masked softmax (as the exponential of the log-softmax), entry by entry. -/
theorem v16_apply (X : Scores) (P : WordsAll) (n : Fin 65536) (r c : Fin 9) (k : Fin 10) :
    val_main_v16 (F := Ideal) X P (ix4 n r c k) = masked (probE (boardAt X n)) (blank (wordsAt P n)) r c k := by
  rw [val_main_v16_apply, val_main_v13_apply, val_main_v15_apply, val_main_v14_apply, idx_v14_v15, v3_apply,
    v2_apply]
  rfl

/-! ## A sum over the puzzles and the classes, one group fixed -/

/-- The host's sum over axes 0 and 2 of a [65536, 9, 9] array, read at group `g`: the initial value plus the sum
    over the puzzles and over the last coordinate, the middle coordinate held at `g`. (The index set is re-indexed
    by its three coordinates; the indices that reduce to `g` are those whose middle coordinate is `g`.) -/
theorem hostReduceAdd_d0_2 (h : S65536x9x9.ReducesTo [0, 2] S9) (x : S65536x9x9.Idx → EReal) (init : EReal)
    (g : Fin 9) :
    Ideal.hostReduceAdd h x init (ix1 g) = init + ∑ n : Fin 65536, ∑ k : Fin 9, x (ix3 n g k) := by
  unfold Ideal.hostReduceAdd
  have hd : ∀ (n : Fin 65536) (b c : Fin 9), (h.drop (ix3 n b c) = ix1 g) ↔ b = g := by
    intro n b c
    constructor
    · intro e
      have e0 : (h.drop (ix3 n b c) 0 : Nat) = ((ix1 g : S9.Idx) 0 : Nat) := by rw [e]
      rw [Shape.ReducesTo.drop_apply_val_of_eq h _ 0 1] at e0
      exact Fin.ext e0
    · rintro rfl
      funext a
      refine Fin.ext ?_
      match a with
      | ⟨0, _⟩ => exact Shape.ReducesTo.drop_apply_val_of_eq h _ 0 1
  refine congrArg (init + ·) ?_
  rw [Finset.sum_filter, sum_idx3]
  refine Finset.sum_congr rfl fun n _ => ?_
  simp only [hd]
  rw [Finset.sum_eq_single g]
  · exact Finset.sum_congr rfl fun k _ => if_pos rfl
  · intro b _ hb
    exact Finset.sum_eq_zero fun k _ => if_neg hb
  · intro hg
    exact absurd (Finset.mem_univ g) hg

/-! ## The row chain -/

theorem idx_v17 (n : Fin 65536) (g : Fin 9) (k : Fin 10) (c : Fin 9) :
    idx_main_v17 (ix3 n g k) c = ix4 n g c k := by
  funext a
  refine Fin.ext ?_
  match a with
  | ⟨0, _⟩ => rfl
  | ⟨1, _⟩ => rfl
  | ⟨2, _⟩ => rfl
  | ⟨3, _⟩ => rfl

/-- The masked softmax summed over a row's columns. -/
theorem v17_apply (X : Scores) (P : WordsAll) (n : Fin 65536) (g : Fin 9) (k : Fin 10) :
    val_main_v17 (F := Ideal) X P (ix3 n g k) = rowDs (masked (probE (boardAt X n)) (blank (wordsAt P n))) g k := by
  rw [val_main_v17_apply, val_main_cst_2_apply, Ideal.ofBits_def, Ideal.ofBits_zero_f32, zero_add]
  unfold rowDs
  refine Finset.sum_congr rfl fun c _ => ?_
  rw [idx_v17, v16_apply]

theorem idx_v18 (n : Fin 65536) (g c : Fin 9) : idx_main_v18 (ix2 n g) c = ix3 n g c := by
  funext a
  refine Fin.ext ?_
  match a with
  | ⟨0, _⟩ => rfl
  | ⟨1, _⟩ => rfl
  | ⟨2, _⟩ => rfl

/-- The blank count of a row. -/
theorem v18_apply (P : WordsAll) (n : Fin 65536) (g : Fin 9) :
    val_main_v18 (F := Ideal) P (ix2 n g) = rowMs (blank (wordsAt P n)) g := by
  rw [val_main_v18_apply, val_main_cst_3_apply, Ideal.ofBits_def, Ideal.ofBits_zero_f32, zero_add]
  unfold rowMs
  refine Finset.sum_congr rfl fun c _ => ?_
  rw [idx_v18, v2_apply]

theorem idx_v19_v23 (n : Fin 65536) (g k : Fin 9) : idx_main_v19 (idx_main_v23 (ix3 n g k)) = ix2 n g := by
  funext a
  refine Fin.ext ?_
  match a with
  | ⟨0, _⟩ => rfl
  | ⟨1, _⟩ => rfl

/-- The row's target: its blank count divided by the float nine, the same for every class. -/
theorem v23_apply (P : WordsAll) (n : Fin 65536) (g k : Fin 9) :
    val_main_v23 (F := Ideal) P (ix3 n g k) = byNine (rowMs (blank (wordsAt P n)) g) := by
  rw [val_main_v23_apply, val_main_v21_apply, val_main_v19_apply, val_main_v20_apply, val_main_cst_4_apply,
    idx_v19_v23, v18_apply]
  rfl

/-- The slice [.., 1:10] reads class `k + 1`. -/
theorem idx_v22 (n : Fin 65536) (g k : Fin 9) : idx_main_v22 (ix3 n g k) = ix3 n g k.succ := by
  funext a
  refine Fin.ext ?_
  match a with
  | ⟨0, _⟩ => rfl
  | ⟨1, _⟩ => rfl
  | ⟨2, _⟩ => exact (Nat.add_comm 1 k.val).trans (Fin.val_succ k).symm

/-- The squared deviation of class `k + 1`'s mass in row `g` of puzzle `n`. -/
theorem v25_apply (X : Scores) (P : WordsAll) (n : Fin 65536) (g k : Fin 9) :
    val_main_v25 (F := Ideal) X P (ix3 n g k) = dev2 byNine (rowDs (masked (probE (boardAt X n)) (blank (wordsAt P n)))) (rowMs (blank (wordsAt P n))) g k := by
  rw [val_main_v25_apply, val_main_v24_apply, val_main_v22_apply, idx_v22, v17_apply, v23_apply]
  rfl

/-- Row `g`'s squared deviations summed over the puzzles and the classes. -/
theorem v26_apply (X : Scores) (P : WordsAll) (g : Fin 9) :
    val_main_v26 (F := Ideal) X P (ix1 g)
      = ∑ n : Fin 65536, ∑ k : Fin 9, dev2 byNine (rowDs (masked (probE (boardAt X n)) (blank (wordsAt P n)))) (rowMs (blank (wordsAt P n))) g k := by
  unfold val_main_v26
  generalize hy : val_main_v25 (F := Ideal) X P = y
  simp only [Host.reduceAdd, Ideal.hostReduceAdd_def]
  rw [hostReduceAdd_d0_2, val_main_cst_5_apply, Ideal.ofBits_def, Ideal.ofBits_zero_f32, zero_add]
  subst hy
  exact Finset.sum_congr rfl fun n _ => Finset.sum_congr rfl fun k _ => v25_apply X P n g k

/-- Row `g`'s mean squared deviation. -/
theorem v28_apply (X : Scores) (P : WordsAll) (g : Fin 9) :
    val_main_v28 (F := Ideal) X P (ix1 g)
      = Ideal.div (∑ n : Fin 65536, ∑ k : Fin 9, dev2 byNine (rowDs (masked (probE (boardAt X n)) (blank (wordsAt P n)))) (rowMs (blank (wordsAt P n))) g k) cCnt := by
  rw [val_main_v28_apply, val_main_v27_apply, val_main_cst_6_apply, v26_apply]
  rfl

/-- The row loss: per row the mean over puzzles and classes, the rows added. -/
theorem v29_eq (X : Scores) (P : WordsAll) (i : S_.Idx) : val_main_v29 (F := Ideal) X P i = rowLossE X P := by
  rw [val_main_v29_apply, val_main_cst_7_apply, Ideal.ofBits_def, Ideal.ofBits_zero_f32, zero_add, sum_idx1]
  unfold rowLossE meanOf
  exact Finset.sum_congr rfl fun g _ => v28_apply X P g

/-! ## The column chain -/

theorem idx_v30 (n : Fin 65536) (g : Fin 9) (k : Fin 10) (r : Fin 9) :
    idx_main_v30 (ix3 n g k) r = ix4 n r g k := by
  funext a
  refine Fin.ext ?_
  match a with
  | ⟨0, _⟩ => rfl
  | ⟨1, _⟩ => rfl
  | ⟨2, _⟩ => rfl
  | ⟨3, _⟩ => rfl

/-- The masked softmax summed over a column's rows. -/
theorem v30_apply (X : Scores) (P : WordsAll) (n : Fin 65536) (g : Fin 9) (k : Fin 10) :
    val_main_v30 (F := Ideal) X P (ix3 n g k) = colDs (masked (probE (boardAt X n)) (blank (wordsAt P n))) g k := by
  rw [val_main_v30_apply, val_main_cst_8_apply, Ideal.ofBits_def, Ideal.ofBits_zero_f32, zero_add]
  unfold colDs
  refine Finset.sum_congr rfl fun r _ => ?_
  rw [idx_v30, v16_apply]

theorem idx_v31 (n : Fin 65536) (g r : Fin 9) : idx_main_v31 (ix2 n g) r = ix3 n r g := by
  funext a
  refine Fin.ext ?_
  match a with
  | ⟨0, _⟩ => rfl
  | ⟨1, _⟩ => rfl
  | ⟨2, _⟩ => rfl

/-- The blank count of a column. -/
theorem v31_apply (P : WordsAll) (n : Fin 65536) (g : Fin 9) :
    val_main_v31 (F := Ideal) P (ix2 n g) = colMs (blank (wordsAt P n)) g := by
  rw [val_main_v31_apply, val_main_cst_9_apply, Ideal.ofBits_def, Ideal.ofBits_zero_f32, zero_add]
  unfold colMs
  refine Finset.sum_congr rfl fun r _ => ?_
  rw [idx_v31, v2_apply]

theorem idx_v32_v36 (n : Fin 65536) (g k : Fin 9) : idx_main_v32 (idx_main_v36 (ix3 n g k)) = ix2 n g := by
  funext a
  refine Fin.ext ?_
  match a with
  | ⟨0, _⟩ => rfl
  | ⟨1, _⟩ => rfl

/-- The column's target: its blank count divided by the float nine, the same for every class. -/
theorem v36_apply (P : WordsAll) (n : Fin 65536) (g k : Fin 9) :
    val_main_v36 (F := Ideal) P (ix3 n g k) = byNine (colMs (blank (wordsAt P n)) g) := by
  rw [val_main_v36_apply, val_main_v34_apply, val_main_v32_apply, val_main_v33_apply, val_main_cst_10_apply,
    idx_v32_v36, v31_apply]
  rfl

/-- The slice [.., 1:10] reads class `k + 1`. -/
theorem idx_v35 (n : Fin 65536) (g k : Fin 9) : idx_main_v35 (ix3 n g k) = ix3 n g k.succ := by
  funext a
  refine Fin.ext ?_
  match a with
  | ⟨0, _⟩ => rfl
  | ⟨1, _⟩ => rfl
  | ⟨2, _⟩ => exact (Nat.add_comm 1 k.val).trans (Fin.val_succ k).symm

/-- The squared deviation of class `k + 1`'s mass in column `g` of puzzle `n`. -/
theorem v38_apply (X : Scores) (P : WordsAll) (n : Fin 65536) (g k : Fin 9) :
    val_main_v38 (F := Ideal) X P (ix3 n g k) = dev2 byNine (colDs (masked (probE (boardAt X n)) (blank (wordsAt P n)))) (colMs (blank (wordsAt P n))) g k := by
  rw [val_main_v38_apply, val_main_v37_apply, val_main_v35_apply, idx_v35, v30_apply, v36_apply]
  rfl

/-- Column `g`'s squared deviations summed over the puzzles and the classes. -/
theorem v39_apply (X : Scores) (P : WordsAll) (g : Fin 9) :
    val_main_v39 (F := Ideal) X P (ix1 g)
      = ∑ n : Fin 65536, ∑ k : Fin 9, dev2 byNine (colDs (masked (probE (boardAt X n)) (blank (wordsAt P n)))) (colMs (blank (wordsAt P n))) g k := by
  unfold val_main_v39
  generalize hy : val_main_v38 (F := Ideal) X P = y
  simp only [Host.reduceAdd, Ideal.hostReduceAdd_def]
  rw [hostReduceAdd_d0_2, val_main_cst_11_apply, Ideal.ofBits_def, Ideal.ofBits_zero_f32, zero_add]
  subst hy
  exact Finset.sum_congr rfl fun n _ => Finset.sum_congr rfl fun k _ => v38_apply X P n g k

/-- Column `g`'s mean squared deviation. -/
theorem v41_apply (X : Scores) (P : WordsAll) (g : Fin 9) :
    val_main_v41 (F := Ideal) X P (ix1 g)
      = Ideal.div (∑ n : Fin 65536, ∑ k : Fin 9, dev2 byNine (colDs (masked (probE (boardAt X n)) (blank (wordsAt P n)))) (colMs (blank (wordsAt P n))) g k) cCnt := by
  rw [val_main_v41_apply, val_main_v40_apply, val_main_cst_12_apply, v39_apply]
  rfl

/-- The column loss. -/
theorem v42_eq (X : Scores) (P : WordsAll) (i : S_.Idx) : val_main_v42 (F := Ideal) X P i = colLossE X P := by
  rw [val_main_v42_apply, val_main_cst_13_apply, Ideal.ofBits_def, Ideal.ofBits_zero_f32, zero_add, sum_idx1]
  unfold colLossE meanOf
  exact Finset.sum_congr rfl fun g _ => v41_apply X P g

end Cert.Sudoku.Ref

end
-- ==== Proof.RBox.lean ====
import proofs.«410291_j73229192397510_2_alg».proof.Proof.RRowCol
import Idealize.ShloMosaic.Lib.ValueIdxRank1
import Idealize.ShloMosaic.Lib.ValueIdxRank6
import Idealize.ShloMosaic.Lib.ValueIdxCoords
import Idealize.ShloMosaic.Lib.IdealHost

noncomputable section

open scoped BigOperators

namespace Cert.Sudoku.Ref

open Idealize.ShloMosaic Idealize.ShloMosaic.ValueIdx Cert.Sudoku Cert.ReferenceIdeal Cert.ReferenceIdeal.Read
open Cert.ReferenceIdeal.Gen

/-! ## Sums over the indices that drop to one result index -/

/-- A sum over the indices that a map sends to `j` is the sum over a parametrisation of that fibre. -/
theorem sum_fibre {ι β κ M : Type*} [Fintype ι] [Fintype κ] [AddCommMonoid M] (d : ι → β) (j : β)
    [DecidablePred fun i => d i = j] (e : κ → ι) (he : ∀ p, d (e p) = j) (hinj : Function.Injective e)
    (hsurj : ∀ i, d i = j → ∃ p, e p = i) (x : ι → M) :
    ∑ i ∈ Finset.univ.filter (fun i => d i = j), x i = ∑ p : κ, x (e p) := by
  symm
  refine Finset.sum_bij (fun p _ => e p) (fun p _ => ?_) (fun p _ q _ h => hinj h) (fun i hi => ?_) (fun _ _ => rfl)
  · exact Finset.mem_filter.2 ⟨Finset.mem_univ _, he p⟩
  · obtain ⟨p, hp⟩ := hsurj i (Finset.mem_filter.1 hi).2
    exact ⟨p, Finset.mem_univ _, hp⟩

/-! ## The masked softmax regrouped by boxes -/

/-- The board cut into bands: entry (n, a, i, b, j, k) of the rank-6 array is the masked softmax at row `3a + i`,
    column `3b + j`. -/
theorem v43_apply (X : Scores) (P : WordsAll) (n : Fin 65536) (a i b j : Fin 3) (k : Fin 10) :
    val_main_v43 (F := Ideal) X P (ix6 n a i b j k) = val_main_v16 (F := Ideal) X P (ix4 n (line a i) (line b j) k) := by
  unfold val_main_v43
  generalize val_main_v16 (F := Ideal) X P = y
  refine shapeCast_apply y shapeCasts_S65536x9x9x10_S65536x3x3x3x3x10 (ix6 n a i b j k) (ix4 n (line a i) (line b j) k) ?_
  rewrite [Shape.rowMajor_val_four, Shape.rowMajor_val_six]
  have hn := n.isLt; have ha := a.isLt; have hi := i.isLt; have hb := b.isLt; have hj := j.isLt; have hk := k.isLt
  show ((n.val * 9 + (3 * a.val + i.val)) * 9 + (3 * b.val + j.val)) * 10 + k.val
    = ((((n.val * 3 + a.val) * 3 + i.val) * 3 + b.val) * 3 + j.val) * 10 + k.val
  omega

/-- The index a sum over axes 2 and 4 of the rank-6 array drops to. -/
theorem drop44 (n : Fin 65536) (a i b j : Fin 3) (k : Fin 10) :
    reducesTo_S65536x3x3x3x3x10_S65536x3x3x10_d2_4.drop (ix6 n a i b j k) = ix4 n a b k := by
  funext c
  match c with
  | ⟨0, _⟩ => rfl
  | ⟨1, _⟩ => rfl
  | ⟨2, _⟩ => rfl
  | ⟨3, _⟩ => rfl

/-- A sum over axes 2 and 4 of a rank-6 array from zero, entry by entry: the double sum over the two in-band
    coordinates (the fibre of the dropped index is parametrised by them). -/
theorem sum24_six (y : S65536x3x3x3x3x10.Idx → EReal) (n : Fin 65536) (a b : Fin 3) (k : Fin 10) :
    Ideal.hostReduceAdd reducesTo_S65536x3x3x3x3x10_S65536x3x3x10_d2_4 y 0 (ix4 n a b k)
      = ∑ j : Fin 3, ∑ i : Fin 3, y (ix6 n a i b j k) := by
  unfold Ideal.hostReduceAdd
  rw [zero_add, sum_fibre reducesTo_S65536x3x3x3x3x10_S65536x3x3x10_d2_4.drop (ix4 n a b k)
    (fun p : Fin 3 × Fin 3 => ix6 n a p.2 b p.1 k) (fun p => drop44 n a p.2 b p.1 k)
    (fun p q h => Prod.ext (congrFun h 4) (congrFun h 2)) ?_ y, Fintype.sum_prod_type]
  intro i hi
  obtain ⟨n', a', i', b', j', k', rfl⟩ : ∃ (n' : Fin 65536) (a' i' b' j' : Fin 3) (k' : Fin 10), i = ix6 n' a' i' b' j' k' :=
    ⟨i 0, i 1, i 2, i 3, i 4, i 5, eq_ix6 i⟩
  rw [drop44] at hi
  have h0 : n' = n := congrFun hi 0
  have h1 : a' = a := congrFun hi 1
  have h2 : b' = b := congrFun hi 2
  have h3 : k' = k := congrFun hi 3
  subst h0 h1 h2 h3
  exact ⟨(j', i'), rfl⟩

/-- Per puzzle, box band pair and class: the masked softmax summed over the box's nine cells. -/
theorem v44_apply (X : Scores) (P : WordsAll) (n : Fin 65536) (a b : Fin 3) (k : Fin 10) :
    val_main_v44 (F := Ideal) X P (ix4 n a b k)
      = ∑ j : Fin 3, ∑ i : Fin 3, val_main_v16 (F := Ideal) X P (ix4 n (line a i) (line b j) k) := by
  unfold val_main_v44
  rw [hostReduceAdd_apply, val_main_cst_14_apply, Ideal.ofBits_def, Ideal.ofBits_zero_f32, sum24_six]
  simp only [v43_apply]

/-- Box `g` of the flat box axis sits at band pair (`g / 3`, `g % 3`). -/
theorem idx45 (n : Fin 65536) (g : Fin 9) (k : Fin 10) :
    idx_main_v45 (ix3 n g k) = ix4 n (bandR g) (bandC g) k := by
  funext a
  have hn := n.isLt; have hg := g.isLt; have hk := k.isLt
  match a with
  | ⟨0, _⟩ => exact Fin.ext (by show ((n.val * 9 + g.val) * 10 + k.val) / 90 = n.val; omega)
  | ⟨1, _⟩ => exact Fin.ext (by show ((n.val * 9 + g.val) * 10 + k.val) / 30 % 3 = g.val / 3; omega)
  | ⟨2, _⟩ => exact Fin.ext (by show ((n.val * 9 + g.val) * 10 + k.val) / 10 % 3 = g.val % 3; omega)
  | ⟨3, _⟩ => exact Fin.ext (by show ((n.val * 9 + g.val) * 10 + k.val) % 10 = k.val; omega)

/-- Per puzzle, box and class: the box's blank-weighted probability mass. -/
theorem v45_apply (X : Scores) (P : WordsAll) (n : Fin 65536) (g : Fin 9) (k : Fin 10) :
    val_main_v45 (F := Ideal) X P (ix3 n g k)
      = boxDs (masked (probE (boardAt X n)) (blank (wordsAt P n))) g k := by
  rw [val_main_v45_apply, idx45, v44_apply]
  simp only [v16_apply]
  rfl

/-! ## The blank indicator regrouped by boxes -/

/-- The blank indicator cut into bands: entry (n, a, i, b, j) is the indicator at row `3a + i`, column `3b + j`. -/
theorem idx46 (n : Fin 65536) (a i b j : Fin 3) :
    idx_main_v46 (ix5 n a i b j) = ix3 n (line a i) (line b j) := by
  funext c
  have hn := n.isLt; have ha := a.isLt; have hi := i.isLt; have hb := b.isLt; have hj := j.isLt
  match c with
  | ⟨0, _⟩ => exact Fin.ext (by
      show ((((n.val * 3 + a.val) * 3 + i.val) * 3 + b.val) * 3 + j.val) / 81 = n.val; omega)
  | ⟨1, _⟩ => exact Fin.ext (by
      show ((((n.val * 3 + a.val) * 3 + i.val) * 3 + b.val) * 3 + j.val) / 9 % 9 = 3 * a.val + i.val; omega)
  | ⟨2, _⟩ => exact Fin.ext (by
      show ((((n.val * 3 + a.val) * 3 + i.val) * 3 + b.val) * 3 + j.val) % 9 = 3 * b.val + j.val; omega)

/-- The index a sum over axes 2 and 4 of the rank-5 array drops to. -/
theorem drop47 (n : Fin 65536) (a i b j : Fin 3) :
    reducesTo_S65536x3x3x3x3_S65536x3x3_d2_4.drop (ix5 n a i b j) = ix3 n a b := by
  funext c
  match c with
  | ⟨0, _⟩ => rfl
  | ⟨1, _⟩ => rfl
  | ⟨2, _⟩ => rfl

/-- A sum over axes 2 and 4 of a rank-5 array from zero, entry by entry. -/
theorem sum24_five (y : S65536x3x3x3x3.Idx → EReal) (n : Fin 65536) (a b : Fin 3) :
    Ideal.hostReduceAdd reducesTo_S65536x3x3x3x3_S65536x3x3_d2_4 y 0 (ix3 n a b)
      = ∑ j : Fin 3, ∑ i : Fin 3, y (ix5 n a i b j) := by
  unfold Ideal.hostReduceAdd
  rw [zero_add, sum_fibre reducesTo_S65536x3x3x3x3_S65536x3x3_d2_4.drop (ix3 n a b)
    (fun p : Fin 3 × Fin 3 => ix5 n a p.2 b p.1) (fun p => drop47 n a p.2 b p.1)
    (fun p q h => Prod.ext (congrFun h 4) (congrFun h 2)) ?_ y, Fintype.sum_prod_type]
  intro i hi
  obtain ⟨n', a', i', b', j', rfl⟩ : ∃ (n' : Fin 65536) (a' i' b' j' : Fin 3), i = ix5 n' a' i' b' j' :=
    ⟨i 0, i 1, i 2, i 3, i 4, eq_ix5 i⟩
  rw [drop47] at hi
  have h0 : n' = n := congrFun hi 0
  have h1 : a' = a := congrFun hi 1
  have h2 : b' = b := congrFun hi 2
  subst h0 h1 h2
  exact ⟨(j', i'), rfl⟩

/-- Per puzzle and band pair: the number of blank cells of the box. -/
theorem v47_apply (P : WordsAll) (n : Fin 65536) (a b : Fin 3) :
    val_main_v47 (F := Ideal) P (ix3 n a b)
      = ∑ j : Fin 3, ∑ i : Fin 3, val_main_v2 (F := Ideal) P (ix3 n (line a i) (line b j)) := by
  unfold val_main_v47
  rw [hostReduceAdd_apply, val_main_cst_15_apply, Ideal.ofBits_def, Ideal.ofBits_zero_f32, sum24_five]
  simp only [val_main_v46_apply, idx46]

/-- Box `g` of the flat box axis sits at band pair (`g / 3`, `g % 3`). -/
theorem idx48 (n : Fin 65536) (g : Fin 9) : idx_main_v48 (ix2 n g) = ix3 n (bandR g) (bandC g) := by
  funext a
  have hn := n.isLt; have hg := g.isLt
  match a with
  | ⟨0, _⟩ => exact Fin.ext (by show (n.val * 9 + g.val) / 9 = n.val; omega)
  | ⟨1, _⟩ => exact Fin.ext (by show (n.val * 9 + g.val) / 3 % 3 = g.val / 3; omega)
  | ⟨2, _⟩ => exact Fin.ext (by show (n.val * 9 + g.val) % 3 = g.val % 3; omega)

/-- Per puzzle and box: the box's blank count. -/
theorem v48_apply (P : WordsAll) (n : Fin 65536) (g : Fin 9) :
    val_main_v48 (F := Ideal) P (ix2 n g) = boxMs (blank (wordsAt P n)) g := by
  rw [val_main_v48_apply, idx48, v47_apply]
  simp only [v2_apply]
  rfl

/-! ## The squared deviation from a ninth of the blank count -/

/-- The classes 1 … 9 are read: class `k + 1` at slice position `k`. -/
theorem idx52 (n : Fin 65536) (g k : Fin 9) : idx_main_v52 (ix3 n g k) = ix3 n g k.succ := by
  funext a
  match a with
  | ⟨0, _⟩ => rfl
  | ⟨1, _⟩ => rfl
  | ⟨2, _⟩ => exact Fin.ext (by show 1 + k.val = k.val + 1; omega)

/-- The target is one value per puzzle and box, copied along the class axis. -/
theorem idx53 (n : Fin 65536) (g k : Fin 9) : idx_main_v53 (ix3 n g k) = ix3 n g (⟨0, Nat.one_pos⟩ : Fin 1) := by
  funext a
  match a with
  | ⟨0, _⟩ => rfl
  | ⟨1, _⟩ => rfl
  | ⟨2, _⟩ => rfl

theorem idx49 (n : Fin 65536) (g : Fin 9) (z : Fin 1) : idx_main_v49 (ix3 n g z) = ix2 n g := by
  funext a
  match a with
  | ⟨0, _⟩ => rfl
  | ⟨1, _⟩ => rfl

/-- The box's target: its blank count divided by the float nine. -/
theorem v53_apply (P : WordsAll) (n : Fin 65536) (g k : Fin 9) :
    val_main_v53 (F := Ideal) P (ix3 n g k) = byNine (boxMs (blank (wordsAt P n)) g) := by
  rw [val_main_v53_apply, idx53, val_main_v51_apply, val_main_v49_apply, idx49, v48_apply, val_main_v50_apply,
    val_main_cst_16_apply, Ideal.hostDivf_def, Ideal.ofBits_def]
  rfl

/-- Per puzzle, box and class 1 … 9: the squared deviation of the box's mass from its target. -/
theorem v55_apply (X : Scores) (P : WordsAll) (n : Fin 65536) (g k : Fin 9) :
    val_main_v55 (F := Ideal) X P (ix3 n g k)
      = dev2 byNine (boxDs (masked (probE (boardAt X n)) (blank (wordsAt P n)))) (boxMs (blank (wordsAt P n))) g k := by
  rw [val_main_v55_apply, val_main_v54_apply, val_main_v52_apply, idx52, v45_apply, v53_apply, Ideal.mulf_def,
    Ideal.subf_def]
  rfl

/-! ## The mean per box, and the boxes added -/

/-- The index a sum over axes 0 and 2 of a rank-3 array drops to. -/
theorem drop56 (n : Fin 65536) (g k : Fin 9) : reducesTo_S65536x9x9_S9_d0_2.drop (ix3 n g k) = ix1 g := by
  funext c
  match c with
  | ⟨0, _⟩ => rfl

/-- A sum over axes 0 and 2 of a rank-3 array from zero, entry by entry: the double sum over puzzles and classes. -/
theorem sum02_three (y : S65536x9x9.Idx → EReal) (g : Fin 9) :
    Ideal.hostReduceAdd reducesTo_S65536x9x9_S9_d0_2 y 0 (ix1 g) = ∑ n : Fin 65536, ∑ k : Fin 9, y (ix3 n g k) := by
  unfold Ideal.hostReduceAdd
  rw [zero_add, sum_fibre reducesTo_S65536x9x9_S9_d0_2.drop (ix1 g)
    (fun p : Fin 65536 × Fin 9 => ix3 p.1 g p.2) (fun p => drop56 p.1 g p.2)
    (fun p q h => Prod.ext (congrFun h 0) (congrFun h 2)) ?_ y, Fintype.sum_prod_type]
  intro i hi
  obtain ⟨n', g', k', rfl⟩ : ∃ (n' : Fin 65536) (g' k' : Fin 9), i = ix3 n' g' k' := ⟨i 0, i 1, i 2, eq_ix3 i⟩
  rw [drop56] at hi
  have h0 : g' = g := congrFun hi 0
  subst h0
  exact ⟨(n', k'), rfl⟩

/-- Per box: the squared deviations summed over puzzles and classes. -/
theorem v56_apply (X : Scores) (P : WordsAll) (g : Fin 9) :
    val_main_v56 (F := Ideal) X P (ix1 g)
      = ∑ n : Fin 65536, ∑ k : Fin 9,
          dev2 byNine (boxDs (masked (probE (boardAt X n)) (blank (wordsAt P n)))) (boxMs (blank (wordsAt P n))) g k := by
  unfold val_main_v56
  rw [hostReduceAdd_apply, val_main_cst_17_apply, Ideal.ofBits_def, Ideal.ofBits_zero_f32, sum02_three]
  simp only [v55_apply]

/-- Per box: the mean over puzzles and classes. -/
theorem v58_apply (X : Scores) (P : WordsAll) (g : Fin 9) :
    val_main_v58 (F := Ideal) X P (ix1 g)
      = Ideal.div (∑ n : Fin 65536, ∑ k : Fin 9,
          dev2 byNine (boxDs (masked (probE (boardAt X n)) (blank (wordsAt P n)))) (boxMs (blank (wordsAt P n))) g k) cCnt := by
  rw [val_main_v58_apply, val_main_v57_apply, val_main_cst_18_apply, v56_apply, Ideal.hostDivf_def, Ideal.ofBits_def]
  rfl

/-- The box loss. -/
theorem v59_eq (X : Scores) (P : WordsAll) (i : S_.Idx) : val_main_v59 (F := Ideal) X P i = boxLossE X P := by
  rw [val_main_v59_apply, val_main_cst_19_apply, Ideal.ofBits_def, Ideal.ofBits_zero_f32, zero_add]
  refine ((Equiv.sum_comp (Idealize.ShloMosaic.ValueIdx.idxEquiv1 (n := 9)).symm _).symm.trans ?_)
  unfold boxLossE meanOf
  refine Finset.sum_congr rfl fun g _ => ?_
  exact v58_apply X P g

end Cert.Sudoku.Ref

end
-- ==== Proof.RValue.lean ====
import proofs.«410291_j73229192397510_2_alg».proof.Proof.RBox
import proofs.«410291_j73229192397510_2_alg».proof.Proof.Math

noncomputable section

open scoped BigOperators

namespace Cert.Sudoku.Ref

open Idealize.ShloMosaic Idealize.ShloMosaic.ValueIdx Cert.Sudoku Cert.LibReal Cert.ReferenceIdeal Cert.ReferenceIdeal.Read

/-- The constraint loss: the three group losses added, over the float 27. -/
theorem v62_eq (X : Scores) (P : WordsAll) (i : S_.Idx) : val_main_v62 (F := Ideal) X P i = conLossE X P := by
  rw [val_main_v62_apply, val_main_v61_apply, val_main_v60_apply, v29_eq, v42_eq, v59_eq, val_main_cst_20_apply]
  rfl

/-- The total: the cross-entropy loss plus the weighted constraint loss. -/
theorem v64_eq (X : Scores) (T P : WordsAll) (hT : ∀ i, (T i).toNat < 10) (i : S_.Idx) :
    val_main_v64 (F := Ideal) X T P i = totalLossE X T P := by
  rw [val_main_v64_apply, v12_eq X T P hT, val_main_v63_apply, v62_eq, val_main_cst_21_apply]
  rfl

/-- With real scores and labels in 0 … 9, the reference's three results are the three results of the product form. -/
theorem results (X : Scores) (T P : WordsAll) (hX : ∀ i, IsReal (X i)) (hT : ∀ i, (T i).toNat < 10) :
    val_main_v64 (F := Ideal) X T P = (fun _ => totalLoss X T P)
      ∧ val_main_v12 (F := Ideal) X T P = (fun _ => ceLoss X T P)
      ∧ val_main_v62 (F := Ideal) X P = (fun _ => conLoss X P) :=
  ⟨funext fun i => (v64_eq X T P hT i).trans (totalLossE_eq X T P hX hT),
   funext fun i => (v12_eq X T P hT i).trans (ceLossE_eq X T P hT),
   funext fun i => (v62_eq X P i).trans (conLossE_eq X P hX)⟩

end Cert.Sudoku.Ref

end
-- ==== Proof.RefRunHand.lean ====
import proofs.«410291_j73229192397510_2_alg».proof.Proof.RefStages
import proofs.«410291_j73229192397510_2_alg».proof.Proof.Gen.ReferenceIdeal
import Idealize.ShloMosaic.Lib.StableHlo.Run

/-!
  The reference's run, read at the stages.

  @main is a straight line of 124 host operations (two called functions' operations stand in their calls' places).
  What a buffer holds after the line is the fold of the operations' results over the launch contents. The line is cut
  into seven stretches; after each stretch the few buffers that are read later hold their stage of the three arguments
  (the stages are the compositions, one operation at a time, that the specification is compared with), and the
  arguments are unchanged. The folds compose over the concatenation, so the three results end at their stages.
-/

noncomputable section

namespace Cert.ReferenceIdeal.HandRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Operations 1 … 19 as printed: the inlined callee's operations over typed references. -/
abbrev tA : List (HloOp τ sig (Elt F)) :=
  [ nullary main_c (constantI S_ 32 0#32),
    unary main_c main_v0 (broadcastInDim S65536x9x9 ![] bcast_S_S65536x9x9 : (⟨S_, .i32⟩ : BufTy).Contents (Elt F) → (⟨S65536x9x9, .i32⟩ : BufTy).Contents (Elt F)),
    binary main_arg2 main_v0 main_v1 (cmpi .eq : (⟨S65536x9x9, .i32⟩ : BufTy).Contents (Elt F) → (⟨S65536x9x9, .i32⟩ : BufTy).Contents (Elt F) → (⟨S65536x9x9, .i1⟩ : BufTy).Contents (Elt F)),
    unary main_v1 main_v2 (uitofp .f32 : (⟨S65536x9x9, .i1⟩ : BufTy).Contents (Elt F) → (⟨S65536x9x9, .f32⟩ : BufTy).Contents (Elt F)),
    TRef.nullary (TRef.of (T := ⟨S_, .f32⟩) main_call0_cst) (constant S_ .f32 0xFF800000#32),
    TRef.binary (TRef.of (T := ⟨S65536x9x9x10, .f32⟩) main_arg0) (TRef.of (T := ⟨S_, .f32⟩) main_call0_cst) (TRef.of (T := ⟨S65536x9x9, .f32⟩) main_call0_v0) (fun x v => Host.reduce FloatOps.maximumf x v reducesTo_S65536x9x9x10_S65536x9x9_d3 h_S_),
    TRef.nullary (TRef.of (T := ⟨S_, .f32⟩) main_call0_cst_0) (constant S_ .f32 0xFF800000#32),
    TRef.unary (TRef.of (T := ⟨S_, .f32⟩) main_call0_cst_0) (TRef.of (T := ⟨S65536x9x9, .f32⟩) main_call0_v1) (broadcastInDim S65536x9x9 ![] bcast_S_S65536x9x9),
    TRef.binary (TRef.of (T := ⟨S65536x9x9, .f32⟩) main_call0_v1) (TRef.of (T := ⟨S65536x9x9, .f32⟩) main_call0_v0) (TRef.of (T := ⟨S65536x9x9, .f32⟩) main_call0_v2) maximumf,
    TRef.unary (TRef.of (T := ⟨S65536x9x9, .f32⟩) main_call0_v2) (TRef.of (T := ⟨S65536x9x9x1, .f32⟩) main_call0_v3) (broadcastInDim S65536x9x9x1 ![0, 1, 2] bcast_S65536x9x9_S65536x9x9x1_0_1_2),
    TRef.unary (TRef.of (T := ⟨S65536x9x9x1, .f32⟩) main_call0_v3) (TRef.of (T := ⟨S65536x9x9x10, .f32⟩) main_call0_v4) (broadcastInDim S65536x9x9x10 ![0, 1, 2, 3] bcast_S65536x9x9x1_S65536x9x9x10_0_1_2_3),
    TRef.binary (TRef.of (T := ⟨S65536x9x9x10, .f32⟩) main_arg0) (TRef.of (T := ⟨S65536x9x9x10, .f32⟩) main_call0_v4) (TRef.of (T := ⟨S65536x9x9x10, .f32⟩) main_call0_v5) subf,
    TRef.unary (TRef.of (T := ⟨S65536x9x9x10, .f32⟩) main_call0_v5) (TRef.of (T := ⟨S65536x9x9x10, .f32⟩) main_call0_v6) Host.exp,
    TRef.nullary (TRef.of (T := ⟨S_, .f32⟩) main_call0_cst_1) (constant S_ .f32 0x00000000#32),
    TRef.binary (TRef.of (T := ⟨S65536x9x9x10, .f32⟩) main_call0_v6) (TRef.of (T := ⟨S_, .f32⟩) main_call0_cst_1) (TRef.of (T := ⟨S65536x9x9, .f32⟩) main_call0_v7) (fun x v => Host.reduceAdd x v reducesTo_S65536x9x9x10_S65536x9x9_d3 h_S_),
    TRef.unary (TRef.of (T := ⟨S65536x9x9, .f32⟩) main_call0_v7) (TRef.of (T := ⟨S65536x9x9x1, .f32⟩) main_call0_v8) (broadcastInDim S65536x9x9x1 ![0, 1, 2] bcast_S65536x9x9_S65536x9x9x1_0_1_2),
    TRef.unary (TRef.of (T := ⟨S65536x9x9x1, .f32⟩) main_call0_v8) (TRef.of (T := ⟨S65536x9x9x1, .f32⟩) main_call0_v9) Host.log,
    TRef.unary (TRef.of (T := ⟨S65536x9x9x1, .f32⟩) main_call0_v9) (TRef.of (T := ⟨S65536x9x9x10, .f32⟩) main_call0_v10) (broadcastInDim S65536x9x9x10 ![0, 1, 2, 3] bcast_S65536x9x9x1_S65536x9x9x10_0_1_2_3),
    TRef.binary (TRef.of (T := ⟨S65536x9x9x10, .f32⟩) main_call0_v5) (TRef.of (T := ⟨S65536x9x9x10, .f32⟩) main_call0_v10) (TRef.of (T := ⟨S65536x9x9x10, .f32⟩) main_v3) subf ]

/-- Operations 20 … 52 as printed: the inlined callee's operations over typed references. -/
abbrev tB : List (HloOp τ sig (Elt F)) :=
  [ unary main_arg1 main_v4 (broadcastInDim S65536x9x9x1 ![0, 1, 2] bcast_S65536x9x9_S65536x9x9x1_0_1_2 : (⟨S65536x9x9, .i32⟩ : BufTy).Contents (Elt F) → (⟨S65536x9x9x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S65536x9x9x1, .i32⟩) main_call1_v0) (broadcastInDim S65536x9x9x1 ![] bcast_S_S65536x9x9x1),
    TRef.binary (TRef.of (T := ⟨S65536x9x9x1, .i32⟩) main_v4) (TRef.of (T := ⟨S65536x9x9x1, .i32⟩) main_call1_v0) (TRef.of (T := ⟨S65536x9x9x1, .i1⟩) main_call1_v1) (cmpi .slt),
    TRef.nullary (TRef.of (T := ⟨S_, .i32⟩) main_call1_c_0) (constantI S_ 32 10#32),
    TRef.unary (TRef.of (T := ⟨S_, .i32⟩) main_call1_c_0) (TRef.of (T := ⟨S65536x9x9x1, .i32⟩) main_call1_v2) (broadcastInDim S65536x9x9x1 ![] bcast_S_S65536x9x9x1),
    TRef.binary (TRef.of (T := ⟨S65536x9x9x1, .i32⟩) main_v4) (TRef.of (T := ⟨S65536x9x9x1, .i32⟩) main_call1_v2) (TRef.of (T := ⟨S65536x9x9x1, .i32⟩) main_call1_v3) addi,
    TRef.ternary (TRef.of (T := ⟨S65536x9x9x1, .i1⟩) main_call1_v1) (TRef.of (T := ⟨S65536x9x9x1, .i32⟩) main_call1_v3) (TRef.of (T := ⟨S65536x9x9x1, .i32⟩) main_v4) (TRef.of (T := ⟨S65536x9x9x1, .i32⟩) main_call1_v4) select,
    TRef.reshape (TRef.of (T := ⟨S65536x9x9x1, .i32⟩) main_call1_v4) (TRef.of (T := ⟨S65536x9x9x1x1, .i32⟩) main_call1_v5) rfl shapeCasts_S65536x9x9x1_S65536x9x9x1x1,
    TRef.nullary (TRef.of (T := ⟨S1, .i32⟩) main_call1_c_1) (constantI S1 32 9#32),
    TRef.nullary (TRef.of (T := ⟨S_, .i32⟩) main_call1_c_2) (constantI S_ 32 0#32),
    TRef.unary (TRef.of (T := ⟨S_, .i32⟩) main_call1_c_2) (TRef.of (T := ⟨S65536x9x9x1x1, .i32⟩) main_call1_v6) (broadcastInDim S65536x9x9x1x1 ![] bcast_S_S65536x9x9x1x1),
    TRef.binary (TRef.of (T := ⟨S65536x9x9x1x1, .i32⟩) main_call1_v5) (TRef.of (T := ⟨S65536x9x9x1x1, .i32⟩) main_call1_v6) (TRef.of (T := ⟨S65536x9x9x1x1, .i1⟩) main_call1_v7) (cmpi .sge),
    TRef.unary (TRef.of (T := ⟨S1, .i32⟩) main_call1_c_1) (TRef.of (T := ⟨S1x1x1x1x1, .i32⟩) main_call1_v8) (broadcastInDim S1x1x1x1x1 ![4] bcast_S1_S1x1x1x1x1_4),
    TRef.unary (TRef.of (T := ⟨S1x1x1x1x1, .i32⟩) main_call1_v8) (TRef.of (T := ⟨S65536x9x9x1x1, .i32⟩) main_call1_v9) (broadcastInDim S65536x9x9x1x1 ![0, 1, 2, 3, 4] bcast_S1x1x1x1x1_S65536x9x9x1x1_0_1_2_3_4),
    TRef.binary (TRef.of (T := ⟨S65536x9x9x1x1, .i32⟩) main_call1_v5) (TRef.of (T := ⟨S65536x9x9x1x1, .i32⟩) main_call1_v9) (TRef.of (T := ⟨S65536x9x9x1x1, .i1⟩) main_call1_v10) (cmpi .sle),
    TRef.binary (TRef.of (T := ⟨S65536x9x9x1x1, .i1⟩) main_call1_v7) (TRef.of (T := ⟨S65536x9x9x1x1, .i1⟩) main_call1_v10) (TRef.of (T := ⟨S65536x9x9x1x1, .i1⟩) main_call1_v11) andi,
    TRef.nullary (TRef.of (T := ⟨S_, .i1⟩) main_call1_c_3) (constantI S_ 1 1#1),
    TRef.binary (TRef.of (T := ⟨S65536x9x9x1x1, .i1⟩) main_call1_v11) (TRef.of (T := ⟨S_, .i1⟩) main_call1_c_3) (TRef.of (T := ⟨S65536x9x9x1, .i1⟩) main_call1_v12) (fun x v => Host.reduce IntOp.andi x v reducesTo_S65536x9x9x1x1_S65536x9x9x1_d4 h_S_),
    TRef.binary (TRef.of (T := ⟨S65536x9x9x10, .f32⟩) main_v3) (TRef.of (T := ⟨S65536x9x9x1x1, .i32⟩) main_call1_v5) (TRef.of (T := ⟨S65536x9x9x1, .f32⟩) main_call1_v13) (fun x i => Host.gather gather_S65536x9x9x10_S65536x9x9x1x1_S65536x9x9x1_n_3_012_012_3_4_1111 x i),
    TRef.nullary (TRef.of (T := ⟨S_, .f32⟩) main_call1_cst) (constant S_ .f32 0x7FC00000#32),
    TRef.unary (TRef.of (T := ⟨S_, .f32⟩) main_call1_cst) (TRef.of (T := ⟨S65536x9x9x1, .f32⟩) main_call1_v14) (broadcastInDim S65536x9x9x1 ![] bcast_S_S65536x9x9x1),
    TRef.ternary (TRef.of (T := ⟨S65536x9x9x1, .i1⟩) main_call1_v12) (TRef.of (T := ⟨S65536x9x9x1, .f32⟩) main_call1_v13) (TRef.of (T := ⟨S65536x9x9x1, .f32⟩) main_call1_v14) (TRef.of (T := ⟨S65536x9x9x1, .f32⟩) main_v5) select,
    reshape main_v5 main_v6 rfl shapeCasts_S65536x9x9x1_S65536x9x9,
    unary main_v6 main_v7 (Host.negf : (⟨S65536x9x9, .f32⟩ : BufTy).Contents (Elt F) → (⟨S65536x9x9, .f32⟩ : BufTy).Contents (Elt F)),
    binary main_v7 main_v2 main_v8 (mulf : (⟨S65536x9x9, .f32⟩ : BufTy).Contents (Elt F) → (⟨S65536x9x9, .f32⟩ : BufTy).Contents (Elt F) → (⟨S65536x9x9, .f32⟩ : BufTy).Contents (Elt F)),
    nullary main_cst (constant S_ .f32 0x00000000#32),
    binary main_v8 main_cst main_v9 ((fun x v => Host.reduceAdd x v reducesTo_S65536x9x9_S_d0_1_2 h_S_) : (⟨S65536x9x9, .f32⟩ : BufTy).Contents (Elt F) → (⟨S_, .f32⟩ : BufTy).Contents (Elt F) → (⟨S_, .f32⟩ : BufTy).Contents (Elt F)),
    nullary main_cst_0 (constant S_ .f32 0x00000000#32),
    binary main_v2 main_cst_0 main_v10 ((fun x v => Host.reduceAdd x v reducesTo_S65536x9x9_S_d0_1_2 h_S_) : (⟨S65536x9x9, .f32⟩ : BufTy).Contents (Elt F) → (⟨S_, .f32⟩ : BufTy).Contents (Elt F) → (⟨S_, .f32⟩ : BufTy).Contents (Elt F)),
    nullary main_cst_1 (constant S_ .f32 0x322BCC77#32),
    binary main_v10 main_cst_1 main_v11 (addf : (⟨S_, .f32⟩ : BufTy).Contents (Elt F) → (⟨S_, .f32⟩ : BufTy).Contents (Elt F) → (⟨S_, .f32⟩ : BufTy).Contents (Elt F)),
    binary main_v9 main_v11 main_v12 (Host.divf : (⟨S_, .f32⟩ : BufTy).Contents (Elt F) → (⟨S_, .f32⟩ : BufTy).Contents (Elt F) → (⟨S_, .f32⟩ : BufTy).Contents (Elt F)) ]

/-- Operations 1 … 19: the blank indicator and the log-softmax. -/
abbrev opsA : List (HloOp τ sig (Elt F)) :=
  [ nullary main_c (constantI S_ 32 0#32),
    unary main_c main_v0 (broadcastInDim S65536x9x9 ![] bcast_S_S65536x9x9 : (⟨S_, .i32⟩ : BufTy).Contents (Elt F) → (⟨S65536x9x9, .i32⟩ : BufTy).Contents (Elt F)),
    binary main_arg2 main_v0 main_v1 (cmpi .eq : (⟨S65536x9x9, .i32⟩ : BufTy).Contents (Elt F) → (⟨S65536x9x9, .i32⟩ : BufTy).Contents (Elt F) → (⟨S65536x9x9, .i1⟩ : BufTy).Contents (Elt F)),
    unary main_v1 main_v2 (uitofp .f32 : (⟨S65536x9x9, .i1⟩ : BufTy).Contents (Elt F) → (⟨S65536x9x9, .f32⟩ : BufTy).Contents (Elt F)),
    nullary main_call0_cst (constant S_ .f32 0xFF800000#32),
    binary main_arg0 main_call0_cst main_call0_v0 ((fun x v => Host.reduce FloatOps.maximumf x v reducesTo_S65536x9x9x10_S65536x9x9_d3 h_S_) : (⟨S65536x9x9x10, .f32⟩ : BufTy).Contents (Elt F) → (⟨S_, .f32⟩ : BufTy).Contents (Elt F) → (⟨S65536x9x9, .f32⟩ : BufTy).Contents (Elt F)),
    nullary main_call0_cst_0 (constant S_ .f32 0xFF800000#32),
    unary main_call0_cst_0 main_call0_v1 ((broadcastInDim S65536x9x9 ![] bcast_S_S65536x9x9) : (⟨S_, .f32⟩ : BufTy).Contents (Elt F) → (⟨S65536x9x9, .f32⟩ : BufTy).Contents (Elt F)),
    binary main_call0_v1 main_call0_v0 main_call0_v2 (maximumf : (⟨S65536x9x9, .f32⟩ : BufTy).Contents (Elt F) → (⟨S65536x9x9, .f32⟩ : BufTy).Contents (Elt F) → (⟨S65536x9x9, .f32⟩ : BufTy).Contents (Elt F)),
    unary main_call0_v2 main_call0_v3 ((broadcastInDim S65536x9x9x1 ![0, 1, 2] bcast_S65536x9x9_S65536x9x9x1_0_1_2) : (⟨S65536x9x9, .f32⟩ : BufTy).Contents (Elt F) → (⟨S65536x9x9x1, .f32⟩ : BufTy).Contents (Elt F)),
    unary main_call0_v3 main_call0_v4 ((broadcastInDim S65536x9x9x10 ![0, 1, 2, 3] bcast_S65536x9x9x1_S65536x9x9x10_0_1_2_3) : (⟨S65536x9x9x1, .f32⟩ : BufTy).Contents (Elt F) → (⟨S65536x9x9x10, .f32⟩ : BufTy).Contents (Elt F)),
    binary main_arg0 main_call0_v4 main_call0_v5 (subf : (⟨S65536x9x9x10, .f32⟩ : BufTy).Contents (Elt F) → (⟨S65536x9x9x10, .f32⟩ : BufTy).Contents (Elt F) → (⟨S65536x9x9x10, .f32⟩ : BufTy).Contents (Elt F)),
    unary main_call0_v5 main_call0_v6 (Host.exp : (⟨S65536x9x9x10, .f32⟩ : BufTy).Contents (Elt F) → (⟨S65536x9x9x10, .f32⟩ : BufTy).Contents (Elt F)),
    nullary main_call0_cst_1 (constant S_ .f32 0x00000000#32),
    binary main_call0_v6 main_call0_cst_1 main_call0_v7 ((fun x v => Host.reduceAdd x v reducesTo_S65536x9x9x10_S65536x9x9_d3 h_S_) : (⟨S65536x9x9x10, .f32⟩ : BufTy).Contents (Elt F) → (⟨S_, .f32⟩ : BufTy).Contents (Elt F) → (⟨S65536x9x9, .f32⟩ : BufTy).Contents (Elt F)),
    unary main_call0_v7 main_call0_v8 ((broadcastInDim S65536x9x9x1 ![0, 1, 2] bcast_S65536x9x9_S65536x9x9x1_0_1_2) : (⟨S65536x9x9, .f32⟩ : BufTy).Contents (Elt F) → (⟨S65536x9x9x1, .f32⟩ : BufTy).Contents (Elt F)),
    unary main_call0_v8 main_call0_v9 (Host.log : (⟨S65536x9x9x1, .f32⟩ : BufTy).Contents (Elt F) → (⟨S65536x9x9x1, .f32⟩ : BufTy).Contents (Elt F)),
    unary main_call0_v9 main_call0_v10 ((broadcastInDim S65536x9x9x10 ![0, 1, 2, 3] bcast_S65536x9x9x1_S65536x9x9x10_0_1_2_3) : (⟨S65536x9x9x1, .f32⟩ : BufTy).Contents (Elt F) → (⟨S65536x9x9x10, .f32⟩ : BufTy).Contents (Elt F)),
    binary main_call0_v5 main_call0_v10 main_v3 (subf : (⟨S65536x9x9x10, .f32⟩ : BufTy).Contents (Elt F) → (⟨S65536x9x9x10, .f32⟩ : BufTy).Contents (Elt F) → (⟨S65536x9x9x10, .f32⟩ : BufTy).Contents (Elt F)) ]

/-- Operations 20 … 52: the label's log-probability gathered, and the cross-entropy loss. -/
abbrev opsB : List (HloOp τ sig (Elt F)) :=
  [ unary main_arg1 main_v4 (broadcastInDim S65536x9x9x1 ![0, 1, 2] bcast_S65536x9x9_S65536x9x9x1_0_1_2 : (⟨S65536x9x9, .i32⟩ : BufTy).Contents (Elt F) → (⟨S65536x9x9x1, .i32⟩ : BufTy).Contents (Elt F)),
    nullary main_call1_c (constantI S_ 32 0#32),
    unary main_call1_c main_call1_v0 ((broadcastInDim S65536x9x9x1 ![] bcast_S_S65536x9x9x1) : (⟨S_, .i32⟩ : BufTy).Contents (Elt F) → (⟨S65536x9x9x1, .i32⟩ : BufTy).Contents (Elt F)),
    binary main_v4 main_call1_v0 main_call1_v1 ((cmpi .slt) : (⟨S65536x9x9x1, .i32⟩ : BufTy).Contents (Elt F) → (⟨S65536x9x9x1, .i32⟩ : BufTy).Contents (Elt F) → (⟨S65536x9x9x1, .i1⟩ : BufTy).Contents (Elt F)),
    nullary main_call1_c_0 (constantI S_ 32 10#32),
    unary main_call1_c_0 main_call1_v2 ((broadcastInDim S65536x9x9x1 ![] bcast_S_S65536x9x9x1) : (⟨S_, .i32⟩ : BufTy).Contents (Elt F) → (⟨S65536x9x9x1, .i32⟩ : BufTy).Contents (Elt F)),
    binary main_v4 main_call1_v2 main_call1_v3 (addi : (⟨S65536x9x9x1, .i32⟩ : BufTy).Contents (Elt F) → (⟨S65536x9x9x1, .i32⟩ : BufTy).Contents (Elt F) → (⟨S65536x9x9x1, .i32⟩ : BufTy).Contents (Elt F)),
    ternary main_call1_v1 main_call1_v3 main_v4 main_call1_v4 (select : (⟨S65536x9x9x1, .i1⟩ : BufTy).Contents (Elt F) → (⟨S65536x9x9x1, .i32⟩ : BufTy).Contents (Elt F) → (⟨S65536x9x9x1, .i32⟩ : BufTy).Contents (Elt F) → (⟨S65536x9x9x1, .i32⟩ : BufTy).Contents (Elt F)),
    reshape main_call1_v4 main_call1_v5 rfl shapeCasts_S65536x9x9x1_S65536x9x9x1x1,
    nullary main_call1_c_1 (constantI S1 32 9#32),
    nullary main_call1_c_2 (constantI S_ 32 0#32),
    unary main_call1_c_2 main_call1_v6 ((broadcastInDim S65536x9x9x1x1 ![] bcast_S_S65536x9x9x1x1) : (⟨S_, .i32⟩ : BufTy).Contents (Elt F) → (⟨S65536x9x9x1x1, .i32⟩ : BufTy).Contents (Elt F)),
    binary main_call1_v5 main_call1_v6 main_call1_v7 ((cmpi .sge) : (⟨S65536x9x9x1x1, .i32⟩ : BufTy).Contents (Elt F) → (⟨S65536x9x9x1x1, .i32⟩ : BufTy).Contents (Elt F) → (⟨S65536x9x9x1x1, .i1⟩ : BufTy).Contents (Elt F)),
    unary main_call1_c_1 main_call1_v8 ((broadcastInDim S1x1x1x1x1 ![4] bcast_S1_S1x1x1x1x1_4) : (⟨S1, .i32⟩ : BufTy).Contents (Elt F) → (⟨S1x1x1x1x1, .i32⟩ : BufTy).Contents (Elt F)),
    unary main_call1_v8 main_call1_v9 ((broadcastInDim S65536x9x9x1x1 ![0, 1, 2, 3, 4] bcast_S1x1x1x1x1_S65536x9x9x1x1_0_1_2_3_4) : (⟨S1x1x1x1x1, .i32⟩ : BufTy).Contents (Elt F) → (⟨S65536x9x9x1x1, .i32⟩ : BufTy).Contents (Elt F)),
    binary main_call1_v5 main_call1_v9 main_call1_v10 ((cmpi .sle) : (⟨S65536x9x9x1x1, .i32⟩ : BufTy).Contents (Elt F) → (⟨S65536x9x9x1x1, .i32⟩ : BufTy).Contents (Elt F) → (⟨S65536x9x9x1x1, .i1⟩ : BufTy).Contents (Elt F)),
    binary main_call1_v7 main_call1_v10 main_call1_v11 (andi : (⟨S65536x9x9x1x1, .i1⟩ : BufTy).Contents (Elt F) → (⟨S65536x9x9x1x1, .i1⟩ : BufTy).Contents (Elt F) → (⟨S65536x9x9x1x1, .i1⟩ : BufTy).Contents (Elt F)),
    nullary main_call1_c_3 (constantI S_ 1 1#1),
    binary main_call1_v11 main_call1_c_3 main_call1_v12 ((fun x v => Host.reduce IntOp.andi x v reducesTo_S65536x9x9x1x1_S65536x9x9x1_d4 h_S_) : (⟨S65536x9x9x1x1, .i1⟩ : BufTy).Contents (Elt F) → (⟨S_, .i1⟩ : BufTy).Contents (Elt F) → (⟨S65536x9x9x1, .i1⟩ : BufTy).Contents (Elt F)),
    binary main_v3 main_call1_v5 main_call1_v13 ((fun x i => Host.gather gather_S65536x9x9x10_S65536x9x9x1x1_S65536x9x9x1_n_3_012_012_3_4_1111 x i) : (⟨S65536x9x9x10, .f32⟩ : BufTy).Contents (Elt F) → (⟨S65536x9x9x1x1, .i32⟩ : BufTy).Contents (Elt F) → (⟨S65536x9x9x1, .f32⟩ : BufTy).Contents (Elt F)),
    nullary main_call1_cst (constant S_ .f32 0x7FC00000#32),
    unary main_call1_cst main_call1_v14 ((broadcastInDim S65536x9x9x1 ![] bcast_S_S65536x9x9x1) : (⟨S_, .f32⟩ : BufTy).Contents (Elt F) → (⟨S65536x9x9x1, .f32⟩ : BufTy).Contents (Elt F)),
    ternary main_call1_v12 main_call1_v13 main_call1_v14 main_v5 (select : (⟨S65536x9x9x1, .i1⟩ : BufTy).Contents (Elt F) → (⟨S65536x9x9x1, .f32⟩ : BufTy).Contents (Elt F) → (⟨S65536x9x9x1, .f32⟩ : BufTy).Contents (Elt F) → (⟨S65536x9x9x1, .f32⟩ : BufTy).Contents (Elt F)),
    reshape main_v5 main_v6 rfl shapeCasts_S65536x9x9x1_S65536x9x9,
    unary main_v6 main_v7 (Host.negf : (⟨S65536x9x9, .f32⟩ : BufTy).Contents (Elt F) → (⟨S65536x9x9, .f32⟩ : BufTy).Contents (Elt F)),
    binary main_v7 main_v2 main_v8 (mulf : (⟨S65536x9x9, .f32⟩ : BufTy).Contents (Elt F) → (⟨S65536x9x9, .f32⟩ : BufTy).Contents (Elt F) → (⟨S65536x9x9, .f32⟩ : BufTy).Contents (Elt F)),
    nullary main_cst (constant S_ .f32 0x00000000#32),
    binary main_v8 main_cst main_v9 ((fun x v => Host.reduceAdd x v reducesTo_S65536x9x9_S_d0_1_2 h_S_) : (⟨S65536x9x9, .f32⟩ : BufTy).Contents (Elt F) → (⟨S_, .f32⟩ : BufTy).Contents (Elt F) → (⟨S_, .f32⟩ : BufTy).Contents (Elt F)),
    nullary main_cst_0 (constant S_ .f32 0x00000000#32),
    binary main_v2 main_cst_0 main_v10 ((fun x v => Host.reduceAdd x v reducesTo_S65536x9x9_S_d0_1_2 h_S_) : (⟨S65536x9x9, .f32⟩ : BufTy).Contents (Elt F) → (⟨S_, .f32⟩ : BufTy).Contents (Elt F) → (⟨S_, .f32⟩ : BufTy).Contents (Elt F)),
    nullary main_cst_1 (constant S_ .f32 0x322BCC77#32),
    binary main_v10 main_cst_1 main_v11 (addf : (⟨S_, .f32⟩ : BufTy).Contents (Elt F) → (⟨S_, .f32⟩ : BufTy).Contents (Elt F) → (⟨S_, .f32⟩ : BufTy).Contents (Elt F)),
    binary main_v9 main_v11 main_v12 (Host.divf : (⟨S_, .f32⟩ : BufTy).Contents (Elt F) → (⟨S_, .f32⟩ : BufTy).Contents (Elt F) → (⟨S_, .f32⟩ : BufTy).Contents (Elt F)) ]

/-- Operations 53 … 56: the blank-masked softmax. -/
abbrev opsC : List (HloOp τ sig (Elt F)) :=
  [ unary main_v3 main_v13 (Host.exp : (⟨S65536x9x9x10, .f32⟩ : BufTy).Contents (Elt F) → (⟨S65536x9x9x10, .f32⟩ : BufTy).Contents (Elt F)),
    unary main_v2 main_v14 (broadcastInDim S65536x9x9x1 ![0, 1, 2] bcast_S65536x9x9_S65536x9x9x1_0_1_2 : (⟨S65536x9x9, .f32⟩ : BufTy).Contents (Elt F) → (⟨S65536x9x9x1, .f32⟩ : BufTy).Contents (Elt F)),
    unary main_v14 main_v15 (broadcastInDim S65536x9x9x10 ![0, 1, 2, 3] bcast_S65536x9x9x1_S65536x9x9x10_0_1_2_3 : (⟨S65536x9x9x1, .f32⟩ : BufTy).Contents (Elt F) → (⟨S65536x9x9x10, .f32⟩ : BufTy).Contents (Elt F)),
    binary main_v13 main_v15 main_v16 (mulf : (⟨S65536x9x9x10, .f32⟩ : BufTy).Contents (Elt F) → (⟨S65536x9x9x10, .f32⟩ : BufTy).Contents (Elt F) → (⟨S65536x9x9x10, .f32⟩ : BufTy).Contents (Elt F)) ]

/-- Operations 57 … 75: the row loss. -/
abbrev opsD : List (HloOp τ sig (Elt F)) :=
  [ nullary main_cst_2 (constant S_ .f32 0x00000000#32),
    binary main_v16 main_cst_2 main_v17 ((fun x v => Host.reduceAdd x v reducesTo_S65536x9x9x10_S65536x9x10_d2 h_S_) : (⟨S65536x9x9x10, .f32⟩ : BufTy).Contents (Elt F) → (⟨S_, .f32⟩ : BufTy).Contents (Elt F) → (⟨S65536x9x10, .f32⟩ : BufTy).Contents (Elt F)),
    nullary main_cst_3 (constant S_ .f32 0x00000000#32),
    binary main_v2 main_cst_3 main_v18 ((fun x v => Host.reduceAdd x v reducesTo_S65536x9x9_S65536x9_d2 h_S_) : (⟨S65536x9x9, .f32⟩ : BufTy).Contents (Elt F) → (⟨S_, .f32⟩ : BufTy).Contents (Elt F) → (⟨S65536x9, .f32⟩ : BufTy).Contents (Elt F)),
    unary main_v18 main_v19 (broadcastInDim S65536x9x1 ![0, 1] bcast_S65536x9_S65536x9x1_0_1 : (⟨S65536x9, .f32⟩ : BufTy).Contents (Elt F) → (⟨S65536x9x1, .f32⟩ : BufTy).Contents (Elt F)),
    nullary main_cst_4 (constant S_ .f32 0x41100000#32),
    unary main_cst_4 main_v20 (broadcastInDim S65536x9x1 ![] bcast_S_S65536x9x1 : (⟨S_, .f32⟩ : BufTy).Contents (Elt F) → (⟨S65536x9x1, .f32⟩ : BufTy).Contents (Elt F)),
    binary main_v19 main_v20 main_v21 (Host.divf : (⟨S65536x9x1, .f32⟩ : BufTy).Contents (Elt F) → (⟨S65536x9x1, .f32⟩ : BufTy).Contents (Elt F) → (⟨S65536x9x1, .f32⟩ : BufTy).Contents (Elt F)),
    unary main_v17 main_v22 ((extractStridedSlice S65536x9x9 ![0, 0, 1] · slices_S65536x9x10_S65536x9x9_0_0_1) : (⟨S65536x9x10, .f32⟩ : BufTy).Contents (Elt F) → (⟨S65536x9x9, .f32⟩ : BufTy).Contents (Elt F)),
    unary main_v21 main_v23 (broadcastInDim S65536x9x9 ![0, 1, 2] bcast_S65536x9x1_S65536x9x9_0_1_2 : (⟨S65536x9x1, .f32⟩ : BufTy).Contents (Elt F) → (⟨S65536x9x9, .f32⟩ : BufTy).Contents (Elt F)),
    binary main_v22 main_v23 main_v24 (subf : (⟨S65536x9x9, .f32⟩ : BufTy).Contents (Elt F) → (⟨S65536x9x9, .f32⟩ : BufTy).Contents (Elt F) → (⟨S65536x9x9, .f32⟩ : BufTy).Contents (Elt F)),
    binary main_v24 main_v24 main_v25 (mulf : (⟨S65536x9x9, .f32⟩ : BufTy).Contents (Elt F) → (⟨S65536x9x9, .f32⟩ : BufTy).Contents (Elt F) → (⟨S65536x9x9, .f32⟩ : BufTy).Contents (Elt F)),
    nullary main_cst_5 (constant S_ .f32 0x00000000#32),
    binary main_v25 main_cst_5 main_v26 ((fun x v => Host.reduceAdd x v reducesTo_S65536x9x9_S9_d0_2 h_S_) : (⟨S65536x9x9, .f32⟩ : BufTy).Contents (Elt F) → (⟨S_, .f32⟩ : BufTy).Contents (Elt F) → (⟨S9, .f32⟩ : BufTy).Contents (Elt F)),
    nullary main_cst_6 (constant S_ .f32 0x49100000#32),
    unary main_cst_6 main_v27 (broadcastInDim S9 ![] bcast_S_S9 : (⟨S_, .f32⟩ : BufTy).Contents (Elt F) → (⟨S9, .f32⟩ : BufTy).Contents (Elt F)),
    binary main_v26 main_v27 main_v28 (Host.divf : (⟨S9, .f32⟩ : BufTy).Contents (Elt F) → (⟨S9, .f32⟩ : BufTy).Contents (Elt F) → (⟨S9, .f32⟩ : BufTy).Contents (Elt F)),
    nullary main_cst_7 (constant S_ .f32 0x00000000#32),
    binary main_v28 main_cst_7 main_v29 ((fun x v => Host.reduceAdd x v reducesTo_S9_S_d0 h_S_) : (⟨S9, .f32⟩ : BufTy).Contents (Elt F) → (⟨S_, .f32⟩ : BufTy).Contents (Elt F) → (⟨S_, .f32⟩ : BufTy).Contents (Elt F)) ]

/-- Operations 76 … 94: the column loss. -/
abbrev opsE : List (HloOp τ sig (Elt F)) :=
  [ nullary main_cst_8 (constant S_ .f32 0x00000000#32),
    binary main_v16 main_cst_8 main_v30 ((fun x v => Host.reduceAdd x v reducesTo_S65536x9x9x10_S65536x9x10_d1 h_S_) : (⟨S65536x9x9x10, .f32⟩ : BufTy).Contents (Elt F) → (⟨S_, .f32⟩ : BufTy).Contents (Elt F) → (⟨S65536x9x10, .f32⟩ : BufTy).Contents (Elt F)),
    nullary main_cst_9 (constant S_ .f32 0x00000000#32),
    binary main_v2 main_cst_9 main_v31 ((fun x v => Host.reduceAdd x v reducesTo_S65536x9x9_S65536x9_d1 h_S_) : (⟨S65536x9x9, .f32⟩ : BufTy).Contents (Elt F) → (⟨S_, .f32⟩ : BufTy).Contents (Elt F) → (⟨S65536x9, .f32⟩ : BufTy).Contents (Elt F)),
    unary main_v31 main_v32 (broadcastInDim S65536x9x1 ![0, 1] bcast_S65536x9_S65536x9x1_0_1 : (⟨S65536x9, .f32⟩ : BufTy).Contents (Elt F) → (⟨S65536x9x1, .f32⟩ : BufTy).Contents (Elt F)),
    nullary main_cst_10 (constant S_ .f32 0x41100000#32),
    unary main_cst_10 main_v33 (broadcastInDim S65536x9x1 ![] bcast_S_S65536x9x1 : (⟨S_, .f32⟩ : BufTy).Contents (Elt F) → (⟨S65536x9x1, .f32⟩ : BufTy).Contents (Elt F)),
    binary main_v32 main_v33 main_v34 (Host.divf : (⟨S65536x9x1, .f32⟩ : BufTy).Contents (Elt F) → (⟨S65536x9x1, .f32⟩ : BufTy).Contents (Elt F) → (⟨S65536x9x1, .f32⟩ : BufTy).Contents (Elt F)),
    unary main_v30 main_v35 ((extractStridedSlice S65536x9x9 ![0, 0, 1] · slices_S65536x9x10_S65536x9x9_0_0_1) : (⟨S65536x9x10, .f32⟩ : BufTy).Contents (Elt F) → (⟨S65536x9x9, .f32⟩ : BufTy).Contents (Elt F)),
    unary main_v34 main_v36 (broadcastInDim S65536x9x9 ![0, 1, 2] bcast_S65536x9x1_S65536x9x9_0_1_2 : (⟨S65536x9x1, .f32⟩ : BufTy).Contents (Elt F) → (⟨S65536x9x9, .f32⟩ : BufTy).Contents (Elt F)),
    binary main_v35 main_v36 main_v37 (subf : (⟨S65536x9x9, .f32⟩ : BufTy).Contents (Elt F) → (⟨S65536x9x9, .f32⟩ : BufTy).Contents (Elt F) → (⟨S65536x9x9, .f32⟩ : BufTy).Contents (Elt F)),
    binary main_v37 main_v37 main_v38 (mulf : (⟨S65536x9x9, .f32⟩ : BufTy).Contents (Elt F) → (⟨S65536x9x9, .f32⟩ : BufTy).Contents (Elt F) → (⟨S65536x9x9, .f32⟩ : BufTy).Contents (Elt F)),
    nullary main_cst_11 (constant S_ .f32 0x00000000#32),
    binary main_v38 main_cst_11 main_v39 ((fun x v => Host.reduceAdd x v reducesTo_S65536x9x9_S9_d0_2 h_S_) : (⟨S65536x9x9, .f32⟩ : BufTy).Contents (Elt F) → (⟨S_, .f32⟩ : BufTy).Contents (Elt F) → (⟨S9, .f32⟩ : BufTy).Contents (Elt F)),
    nullary main_cst_12 (constant S_ .f32 0x49100000#32),
    unary main_cst_12 main_v40 (broadcastInDim S9 ![] bcast_S_S9 : (⟨S_, .f32⟩ : BufTy).Contents (Elt F) → (⟨S9, .f32⟩ : BufTy).Contents (Elt F)),
    binary main_v39 main_v40 main_v41 (Host.divf : (⟨S9, .f32⟩ : BufTy).Contents (Elt F) → (⟨S9, .f32⟩ : BufTy).Contents (Elt F) → (⟨S9, .f32⟩ : BufTy).Contents (Elt F)),
    nullary main_cst_13 (constant S_ .f32 0x00000000#32),
    binary main_v41 main_cst_13 main_v42 ((fun x v => Host.reduceAdd x v reducesTo_S9_S_d0 h_S_) : (⟨S9, .f32⟩ : BufTy).Contents (Elt F) → (⟨S_, .f32⟩ : BufTy).Contents (Elt F) → (⟨S_, .f32⟩ : BufTy).Contents (Elt F)) ]

/-- Operations 95 … 117: the box loss. -/
abbrev opsF : List (HloOp τ sig (Elt F)) :=
  [ reshape main_v16 main_v43 rfl shapeCasts_S65536x9x9x10_S65536x3x3x3x3x10,
    nullary main_cst_14 (constant S_ .f32 0x00000000#32),
    binary main_v43 main_cst_14 main_v44 ((fun x v => Host.reduceAdd x v reducesTo_S65536x3x3x3x3x10_S65536x3x3x10_d2_4 h_S_) : (⟨S65536x3x3x3x3x10, .f32⟩ : BufTy).Contents (Elt F) → (⟨S_, .f32⟩ : BufTy).Contents (Elt F) → (⟨S65536x3x3x10, .f32⟩ : BufTy).Contents (Elt F)),
    reshape main_v44 main_v45 rfl shapeCasts_S65536x3x3x10_S65536x9x10,
    reshape main_v2 main_v46 rfl shapeCasts_S65536x9x9_S65536x3x3x3x3,
    nullary main_cst_15 (constant S_ .f32 0x00000000#32),
    binary main_v46 main_cst_15 main_v47 ((fun x v => Host.reduceAdd x v reducesTo_S65536x3x3x3x3_S65536x3x3_d2_4 h_S_) : (⟨S65536x3x3x3x3, .f32⟩ : BufTy).Contents (Elt F) → (⟨S_, .f32⟩ : BufTy).Contents (Elt F) → (⟨S65536x3x3, .f32⟩ : BufTy).Contents (Elt F)),
    reshape main_v47 main_v48 rfl shapeCasts_S65536x3x3_S65536x9,
    unary main_v48 main_v49 (broadcastInDim S65536x9x1 ![0, 1] bcast_S65536x9_S65536x9x1_0_1 : (⟨S65536x9, .f32⟩ : BufTy).Contents (Elt F) → (⟨S65536x9x1, .f32⟩ : BufTy).Contents (Elt F)),
    nullary main_cst_16 (constant S_ .f32 0x41100000#32),
    unary main_cst_16 main_v50 (broadcastInDim S65536x9x1 ![] bcast_S_S65536x9x1 : (⟨S_, .f32⟩ : BufTy).Contents (Elt F) → (⟨S65536x9x1, .f32⟩ : BufTy).Contents (Elt F)),
    binary main_v49 main_v50 main_v51 (Host.divf : (⟨S65536x9x1, .f32⟩ : BufTy).Contents (Elt F) → (⟨S65536x9x1, .f32⟩ : BufTy).Contents (Elt F) → (⟨S65536x9x1, .f32⟩ : BufTy).Contents (Elt F)),
    unary main_v45 main_v52 ((extractStridedSlice S65536x9x9 ![0, 0, 1] · slices_S65536x9x10_S65536x9x9_0_0_1) : (⟨S65536x9x10, .f32⟩ : BufTy).Contents (Elt F) → (⟨S65536x9x9, .f32⟩ : BufTy).Contents (Elt F)),
    unary main_v51 main_v53 (broadcastInDim S65536x9x9 ![0, 1, 2] bcast_S65536x9x1_S65536x9x9_0_1_2 : (⟨S65536x9x1, .f32⟩ : BufTy).Contents (Elt F) → (⟨S65536x9x9, .f32⟩ : BufTy).Contents (Elt F)),
    binary main_v52 main_v53 main_v54 (subf : (⟨S65536x9x9, .f32⟩ : BufTy).Contents (Elt F) → (⟨S65536x9x9, .f32⟩ : BufTy).Contents (Elt F) → (⟨S65536x9x9, .f32⟩ : BufTy).Contents (Elt F)),
    binary main_v54 main_v54 main_v55 (mulf : (⟨S65536x9x9, .f32⟩ : BufTy).Contents (Elt F) → (⟨S65536x9x9, .f32⟩ : BufTy).Contents (Elt F) → (⟨S65536x9x9, .f32⟩ : BufTy).Contents (Elt F)),
    nullary main_cst_17 (constant S_ .f32 0x00000000#32),
    binary main_v55 main_cst_17 main_v56 ((fun x v => Host.reduceAdd x v reducesTo_S65536x9x9_S9_d0_2 h_S_) : (⟨S65536x9x9, .f32⟩ : BufTy).Contents (Elt F) → (⟨S_, .f32⟩ : BufTy).Contents (Elt F) → (⟨S9, .f32⟩ : BufTy).Contents (Elt F)),
    nullary main_cst_18 (constant S_ .f32 0x49100000#32),
    unary main_cst_18 main_v57 (broadcastInDim S9 ![] bcast_S_S9 : (⟨S_, .f32⟩ : BufTy).Contents (Elt F) → (⟨S9, .f32⟩ : BufTy).Contents (Elt F)),
    binary main_v56 main_v57 main_v58 (Host.divf : (⟨S9, .f32⟩ : BufTy).Contents (Elt F) → (⟨S9, .f32⟩ : BufTy).Contents (Elt F) → (⟨S9, .f32⟩ : BufTy).Contents (Elt F)),
    nullary main_cst_19 (constant S_ .f32 0x00000000#32),
    binary main_v58 main_cst_19 main_v59 ((fun x v => Host.reduceAdd x v reducesTo_S9_S_d0 h_S_) : (⟨S9, .f32⟩ : BufTy).Contents (Elt F) → (⟨S_, .f32⟩ : BufTy).Contents (Elt F) → (⟨S_, .f32⟩ : BufTy).Contents (Elt F)) ]

/-- Operations 118 … 124: the three losses combined. -/
abbrev opsG : List (HloOp τ sig (Elt F)) :=
  [ binary main_v29 main_v42 main_v60 (addf : (⟨S_, .f32⟩ : BufTy).Contents (Elt F) → (⟨S_, .f32⟩ : BufTy).Contents (Elt F) → (⟨S_, .f32⟩ : BufTy).Contents (Elt F)),
    binary main_v60 main_v59 main_v61 (addf : (⟨S_, .f32⟩ : BufTy).Contents (Elt F) → (⟨S_, .f32⟩ : BufTy).Contents (Elt F) → (⟨S_, .f32⟩ : BufTy).Contents (Elt F)),
    nullary main_cst_20 (constant S_ .f32 0x41D80000#32),
    binary main_v61 main_cst_20 main_v62 (Host.divf : (⟨S_, .f32⟩ : BufTy).Contents (Elt F) → (⟨S_, .f32⟩ : BufTy).Contents (Elt F) → (⟨S_, .f32⟩ : BufTy).Contents (Elt F)),
    nullary main_cst_21 (constant S_ .f32 0x3DCCCCCD#32),
    binary main_cst_21 main_v62 main_v63 (mulf : (⟨S_, .f32⟩ : BufTy).Contents (Elt F) → (⟨S_, .f32⟩ : BufTy).Contents (Elt F) → (⟨S_, .f32⟩ : BufTy).Contents (Elt F)),
    binary main_v12 main_v63 main_v64 (addf : (⟨S_, .f32⟩ : BufTy).Contents (Elt F) → (⟨S_, .f32⟩ : BufTy).Contents (Elt F) → (⟨S_, .f32⟩ : BufTy).Contents (Elt F)) ]

/-- @main's 124 operations, in order (a called function's operations stand in its call's place). -/
abbrev ops : List (HloOp τ sig (Elt F)) := opsA ++ (opsB ++ (opsC ++ (opsD ++ (opsE ++ (opsF ++ opsG)))))

/-- @main's 124 operations as printed, in order. -/
abbrev opsT : List (HloOp τ sig (Elt F)) := tA ++ (tB ++ (opsC ++ (opsD ++ (opsE ++ (opsF ++ opsG)))))

/-- Over literal references the typed builders are the plain ones: the transport along a reference's type equation is
    the identity. -/
theorem tA_eq : (tA : List (HloOp τ sig (Elt F))) = opsA := by
  unfold tA opsA
  simp only [TRef.nullary, TRef.unary, TRef.binary, TRef.ternary, TRef.reshape, TRef.toBuf, TRef.ofBuf, cast_eq]
  rfl

theorem tB_eq : (tB : List (HloOp τ sig (Elt F))) = opsB := by
  unfold tB opsB
  simp only [TRef.nullary, TRef.unary, TRef.binary, TRef.ternary, TRef.reshape, TRef.toBuf, TRef.ofBuf, cast_eq]
  rfl

theorem opsT_eq : (opsT : List (HloOp τ sig (Elt F))) = ops := by
  unfold opsT ops
  rw [tA_eq, tB_eq]

set_option maxRecDepth 65536 in
set_option maxHeartbeats 4000000 in
theorem main_eq (c : Dev nD) : main (F := F) c = seq opsT := rfl

/-! ## The valuation at the cuts

After each stretch of operations the buffers that a later stretch (or the claim) still reads hold their stages of the
three arguments, and the arguments are unchanged. -/

/-- After operation 19. -/
structure AtA (V W : Valuation τ sig (Elt F)) : Prop where
  a0 : W (Proc.devRef .tc main_arg0) = V (Proc.devRef .tc main_arg0)
  a1 : W (Proc.devRef .tc main_arg1) = V (Proc.devRef .tc main_arg1)
  a2 : W (Proc.devRef .tc main_arg2) = V (Proc.devRef .tc main_arg2)
  v2 : W (Proc.devRef .tc main_v2) = val_main_v2 (F := F) (V (Proc.devRef .tc main_arg2))
  v3 : W (Proc.devRef .tc main_v3) = val_main_v3 (F := F) (V (Proc.devRef .tc main_arg0))

/-- After operation 52. -/
structure AtB (V W : Valuation τ sig (Elt F)) : Prop where
  a0 : W (Proc.devRef .tc main_arg0) = V (Proc.devRef .tc main_arg0)
  a1 : W (Proc.devRef .tc main_arg1) = V (Proc.devRef .tc main_arg1)
  a2 : W (Proc.devRef .tc main_arg2) = V (Proc.devRef .tc main_arg2)
  v2 : W (Proc.devRef .tc main_v2) = val_main_v2 (F := F) (V (Proc.devRef .tc main_arg2))
  v3 : W (Proc.devRef .tc main_v3) = val_main_v3 (F := F) (V (Proc.devRef .tc main_arg0))
  v12 : W (Proc.devRef .tc main_v12) = val_main_v12 (F := F) (V (Proc.devRef .tc main_arg0)) (V (Proc.devRef .tc main_arg1)) (V (Proc.devRef .tc main_arg2))

/-- After operation 56. -/
structure AtC (V W : Valuation τ sig (Elt F)) : Prop where
  a0 : W (Proc.devRef .tc main_arg0) = V (Proc.devRef .tc main_arg0)
  a1 : W (Proc.devRef .tc main_arg1) = V (Proc.devRef .tc main_arg1)
  a2 : W (Proc.devRef .tc main_arg2) = V (Proc.devRef .tc main_arg2)
  v2 : W (Proc.devRef .tc main_v2) = val_main_v2 (F := F) (V (Proc.devRef .tc main_arg2))
  v12 : W (Proc.devRef .tc main_v12) = val_main_v12 (F := F) (V (Proc.devRef .tc main_arg0)) (V (Proc.devRef .tc main_arg1)) (V (Proc.devRef .tc main_arg2))
  v16 : W (Proc.devRef .tc main_v16) = val_main_v16 (F := F) (V (Proc.devRef .tc main_arg0)) (V (Proc.devRef .tc main_arg2))

/-- After operation 75. -/
structure AtD (V W : Valuation τ sig (Elt F)) : Prop where
  a0 : W (Proc.devRef .tc main_arg0) = V (Proc.devRef .tc main_arg0)
  a1 : W (Proc.devRef .tc main_arg1) = V (Proc.devRef .tc main_arg1)
  a2 : W (Proc.devRef .tc main_arg2) = V (Proc.devRef .tc main_arg2)
  v2 : W (Proc.devRef .tc main_v2) = val_main_v2 (F := F) (V (Proc.devRef .tc main_arg2))
  v12 : W (Proc.devRef .tc main_v12) = val_main_v12 (F := F) (V (Proc.devRef .tc main_arg0)) (V (Proc.devRef .tc main_arg1)) (V (Proc.devRef .tc main_arg2))
  v16 : W (Proc.devRef .tc main_v16) = val_main_v16 (F := F) (V (Proc.devRef .tc main_arg0)) (V (Proc.devRef .tc main_arg2))
  v29 : W (Proc.devRef .tc main_v29) = val_main_v29 (F := F) (V (Proc.devRef .tc main_arg0)) (V (Proc.devRef .tc main_arg2))

/-- After operation 94. -/
structure AtE (V W : Valuation τ sig (Elt F)) : Prop where
  a0 : W (Proc.devRef .tc main_arg0) = V (Proc.devRef .tc main_arg0)
  a1 : W (Proc.devRef .tc main_arg1) = V (Proc.devRef .tc main_arg1)
  a2 : W (Proc.devRef .tc main_arg2) = V (Proc.devRef .tc main_arg2)
  v2 : W (Proc.devRef .tc main_v2) = val_main_v2 (F := F) (V (Proc.devRef .tc main_arg2))
  v12 : W (Proc.devRef .tc main_v12) = val_main_v12 (F := F) (V (Proc.devRef .tc main_arg0)) (V (Proc.devRef .tc main_arg1)) (V (Proc.devRef .tc main_arg2))
  v16 : W (Proc.devRef .tc main_v16) = val_main_v16 (F := F) (V (Proc.devRef .tc main_arg0)) (V (Proc.devRef .tc main_arg2))
  v29 : W (Proc.devRef .tc main_v29) = val_main_v29 (F := F) (V (Proc.devRef .tc main_arg0)) (V (Proc.devRef .tc main_arg2))
  v42 : W (Proc.devRef .tc main_v42) = val_main_v42 (F := F) (V (Proc.devRef .tc main_arg0)) (V (Proc.devRef .tc main_arg2))

/-- After operation 117. -/
structure AtF (V W : Valuation τ sig (Elt F)) : Prop where
  a0 : W (Proc.devRef .tc main_arg0) = V (Proc.devRef .tc main_arg0)
  a1 : W (Proc.devRef .tc main_arg1) = V (Proc.devRef .tc main_arg1)
  a2 : W (Proc.devRef .tc main_arg2) = V (Proc.devRef .tc main_arg2)
  v12 : W (Proc.devRef .tc main_v12) = val_main_v12 (F := F) (V (Proc.devRef .tc main_arg0)) (V (Proc.devRef .tc main_arg1)) (V (Proc.devRef .tc main_arg2))
  v29 : W (Proc.devRef .tc main_v29) = val_main_v29 (F := F) (V (Proc.devRef .tc main_arg0)) (V (Proc.devRef .tc main_arg2))
  v42 : W (Proc.devRef .tc main_v42) = val_main_v42 (F := F) (V (Proc.devRef .tc main_arg0)) (V (Proc.devRef .tc main_arg2))
  v59 : W (Proc.devRef .tc main_v59) = val_main_v59 (F := F) (V (Proc.devRef .tc main_arg0)) (V (Proc.devRef .tc main_arg2))

/-- After the last operation: the three results at their stages. -/
structure AtG (V W : Valuation τ sig (Elt F)) : Prop where
  a0 : W (Proc.devRef .tc main_arg0) = V (Proc.devRef .tc main_arg0)
  a1 : W (Proc.devRef .tc main_arg1) = V (Proc.devRef .tc main_arg1)
  a2 : W (Proc.devRef .tc main_arg2) = V (Proc.devRef .tc main_arg2)
  v12 : W (Proc.devRef .tc main_v12) = val_main_v12 (F := F) (V (Proc.devRef .tc main_arg0)) (V (Proc.devRef .tc main_arg1)) (V (Proc.devRef .tc main_arg2))
  v62 : W (Proc.devRef .tc main_v62) = val_main_v62 (F := F) (V (Proc.devRef .tc main_arg0)) (V (Proc.devRef .tc main_arg2))
  v64 : W (Proc.devRef .tc main_v64) = val_main_v64 (F := F) (V (Proc.devRef .tc main_arg0)) (V (Proc.devRef .tc main_arg1)) (V (Proc.devRef .tc main_arg2))

/-! ## One stretch at a time

Each field: the fold over the stretch read at the buffer (an operation's result at its own buffer is its function's
value, at any other buffer what was there), the buffers read from before the stretch replaced by their stages, and the
stage's definition unfolded. -/

theorem stepA (V : Valuation τ sig (Elt F)) : AtA V (after opsA V) where
  a0 := by after_results_simp <;> rfl
  a1 := by after_results_simp <;> rfl
  a2 := by after_results_simp <;> rfl
  v2 := by after_results_simp <;> rfl
  v3 := by after_results_simp <;> rfl

theorem stepB {V W : Valuation τ sig (Elt F)} (h : AtA V W) : AtB V (after opsB W) where
  a0 := by after_results_simp; exact h.a0
  a1 := by after_results_simp; exact h.a1
  a2 := by after_results_simp; exact h.a2
  v2 := by after_results_simp; exact h.v2
  v3 := by after_results_simp; exact h.v3
  v12 := by after_results_simp; rw [h.a1, h.v2, h.v3]; rfl

theorem stepC {V W : Valuation τ sig (Elt F)} (h : AtB V W) : AtC V (after opsC W) where
  a0 := by after_results_simp; exact h.a0
  a1 := by after_results_simp; exact h.a1
  a2 := by after_results_simp; exact h.a2
  v2 := by after_results_simp; exact h.v2
  v12 := by after_results_simp; exact h.v12
  v16 := by after_results_simp; rw [h.v2, h.v3]; rfl

theorem stepD {V W : Valuation τ sig (Elt F)} (h : AtC V W) : AtD V (after opsD W) where
  a0 := by after_results_simp; exact h.a0
  a1 := by after_results_simp; exact h.a1
  a2 := by after_results_simp; exact h.a2
  v2 := by after_results_simp; exact h.v2
  v12 := by after_results_simp; exact h.v12
  v16 := by after_results_simp; exact h.v16
  v29 := by after_results_simp; rw [h.v2, h.v16]; rfl

theorem stepE {V W : Valuation τ sig (Elt F)} (h : AtD V W) : AtE V (after opsE W) where
  a0 := by after_results_simp; exact h.a0
  a1 := by after_results_simp; exact h.a1
  a2 := by after_results_simp; exact h.a2
  v2 := by after_results_simp; exact h.v2
  v12 := by after_results_simp; exact h.v12
  v16 := by after_results_simp; exact h.v16
  v29 := by after_results_simp; exact h.v29
  v42 := by after_results_simp; rw [h.v2, h.v16]; rfl

theorem stepF {V W : Valuation τ sig (Elt F)} (h : AtE V W) : AtF V (after opsF W) where
  a0 := by after_results_simp; exact h.a0
  a1 := by after_results_simp; exact h.a1
  a2 := by after_results_simp; exact h.a2
  v12 := by after_results_simp; exact h.v12
  v29 := by after_results_simp; exact h.v29
  v42 := by after_results_simp; exact h.v42
  v59 := by after_results_simp; rw [h.v2, h.v16]; rfl

theorem stepG {V W : Valuation τ sig (Elt F)} (h : AtF V W) : AtG V (after opsG W) where
  a0 := by after_results_simp; exact h.a0
  a1 := by after_results_simp; exact h.a1
  a2 := by after_results_simp; exact h.a2
  v12 := by after_results_simp; exact h.v12
  v62 := by after_results_simp; rw [h.v29, h.v42, h.v59]; rfl
  v64 := by after_results_simp; rw [h.v12, h.v29, h.v42, h.v59]; rfl

/-! ## The whole line -/

/-- The fold over two stretches in a row is the fold over the second from the fold over the first. -/
theorem after_app (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- After all 124 operations the three results hold their stages of the arguments, and the arguments are unchanged. -/
theorem atEnd (V : Valuation τ sig (Elt F)) : AtG V (after ops V) := by
  have e : after (ops (F := F)) V
      = after opsG (after opsF (after opsE (after opsD (after opsC (after opsB (after opsA V)))))) := by
    unfold ops
    rw [after_app, after_app, after_app, after_app, after_app, after_app]
  rw [e]
  exact stepG (stepF (stepE (stepD (stepC (stepB (stepA V))))))

/-! ## The run -/

/-- A fact of every element of two lists is a fact of every element of their concatenation. -/
theorem mem_app_elim {α : Type} {p : α → Prop} {l₁ l₂ : List α} (h₁ : ∀ x ∈ l₁, p x) (h₂ : ∀ x ∈ l₂, p x) :
    ∀ x ∈ l₁ ++ l₂, p x :=
  fun x hx => (List.mem_append.1 hx).elim (h₁ x) (h₂ x)

/-! Every operation touches TensorCore references only, stretch by stretch. -/

theorem subA : (opsA : List (HloOp τ sig (Elt F))).Forall fun op => op.bufs ⊆ tcRefs τ sig :=
  ⟨nullary_bufs_sub .., unary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
theorem subB : (opsB : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., binary_bufs_sub .., nullary_bufs_sub .., binary_bufs_sub .., nullary_bufs_sub .., binary_bufs_sub .., nullary_bufs_sub .., binary_bufs_sub .., binary_bufs_sub ..⟩
theorem subC : (opsC : List (HloOp τ sig (Elt F))).Forall fun op => op.bufs ⊆ tcRefs τ sig :=
  ⟨unary_bufs_sub .., unary_bufs_sub .., unary_bufs_sub .., binary_bufs_sub ..⟩
theorem subD : (opsD : List (HloOp τ sig (Elt F))).Forall fun op => op.bufs ⊆ tcRefs τ sig :=
  ⟨nullary_bufs_sub .., binary_bufs_sub .., nullary_bufs_sub .., binary_bufs_sub .., unary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., nullary_bufs_sub .., binary_bufs_sub ..⟩
theorem subE : (opsE : List (HloOp τ sig (Elt F))).Forall fun op => op.bufs ⊆ tcRefs τ sig :=
  ⟨nullary_bufs_sub .., binary_bufs_sub .., nullary_bufs_sub .., binary_bufs_sub .., unary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., nullary_bufs_sub .., binary_bufs_sub ..⟩
theorem subF : (opsF : List (HloOp τ sig (Elt F))).Forall fun op => op.bufs ⊆ tcRefs τ sig :=
  ⟨reshape_bufs_sub .., nullary_bufs_sub .., binary_bufs_sub .., reshape_bufs_sub .., reshape_bufs_sub .., nullary_bufs_sub .., binary_bufs_sub .., reshape_bufs_sub .., unary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., nullary_bufs_sub .., binary_bufs_sub ..⟩
theorem subG : (opsG : List (HloOp τ sig (Elt F))).Forall fun op => op.bufs ⊆ tcRefs τ sig :=
  ⟨binary_bufs_sub .., binary_bufs_sub .., nullary_bufs_sub .., binary_bufs_sub .., nullary_bufs_sub .., binary_bufs_sub .., binary_bufs_sub ..⟩

theorem ops_sub : (ops : List (HloOp τ sig (Elt F))).Forall fun op => op.bufs ⊆ tcRefs τ sig :=
  List.forall_iff_forall_mem.2 <|
    mem_app_elim (List.forall_iff_forall_mem.1 subA) <| mem_app_elim (List.forall_iff_forall_mem.1 subB) <|
    mem_app_elim (List.forall_iff_forall_mem.1 subC) <| mem_app_elim (List.forall_iff_forall_mem.1 subD) <|
    mem_app_elim (List.forall_iff_forall_mem.1 subE) <| mem_app_elim (List.forall_iff_forall_mem.1 subF)
      (List.forall_iff_forall_mem.1 subG)

/-! Every operation determines its results (none allocates a buffer of contents not chosen), stretch by stretch. -/

theorem freshA : ∀ op ∈ (opsA : List (HloOp τ sig (Elt F))), op.fresh = ∅ := by
  intro _ h; (repeat (cases h with | head => rfl | tail _ h => ?_)); exact nomatch h
theorem freshB : ∀ op ∈ (opsB : List (HloOp τ sig (Elt F))), op.fresh = ∅ := by
  intro _ h; (repeat (cases h with | head => rfl | tail _ h => ?_)); exact nomatch h
theorem freshC : ∀ op ∈ (opsC : List (HloOp τ sig (Elt F))), op.fresh = ∅ := by
  intro _ h; (repeat (cases h with | head => rfl | tail _ h => ?_)); exact nomatch h
theorem freshD : ∀ op ∈ (opsD : List (HloOp τ sig (Elt F))), op.fresh = ∅ := by
  intro _ h; (repeat (cases h with | head => rfl | tail _ h => ?_)); exact nomatch h
theorem freshE : ∀ op ∈ (opsE : List (HloOp τ sig (Elt F))), op.fresh = ∅ := by
  intro _ h; (repeat (cases h with | head => rfl | tail _ h => ?_)); exact nomatch h
theorem freshF : ∀ op ∈ (opsF : List (HloOp τ sig (Elt F))), op.fresh = ∅ := by
  intro _ h; (repeat (cases h with | head => rfl | tail _ h => ?_)); exact nomatch h
theorem freshG : ∀ op ∈ (opsG : List (HloOp τ sig (Elt F))), op.fresh = ∅ := by
  intro _ h; (repeat (cases h with | head => rfl | tail _ h => ?_)); exact nomatch h

theorem ops_fresh : ∀ op ∈ (ops : List (HloOp τ sig (Elt F))), op.fresh = ∅ :=
  mem_app_elim freshA <| mem_app_elim freshB <| mem_app_elim freshC <| mem_app_elim freshD <|
    mem_app_elim freshE <| mem_app_elim freshF freshG

theorem scopedRefs_eq : (Finset.univ.filter fun b : Ref sig .tc => b.isScoped) = ∅ := by decide
theorem scopedSems_eq : (Finset.univ.filter fun sm : SemLoc sig => sm.isScoped .tc) = ∅ := by decide

/-- @main is the straight line of the 124 operations in their plain spelling. -/
theorem main_ops (c : Dev nD) : main (F := F) c = seq ops := (main_eq c).trans (congrArg seq opsT_eq)

/-- On every device, for any float values, from any memory with zero counters: every weakly fair execution of
    @main terminates with each result at its stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v64) = Cert.ReferenceIdeal.Read.val_main_v64 (F := F) (m ((c.tc : Thread nD τ).loc main_arg0)) (m ((c.tc : Thread nD τ).loc main_arg1)) (m ((c.tc : Thread nD τ).loc main_arg2))
      ∧ r.2.mem ((c.tc : Thread nD τ).loc main_v12) = Cert.ReferenceIdeal.Read.val_main_v12 (F := F) (m ((c.tc : Thread nD τ).loc main_arg0)) (m ((c.tc : Thread nD τ).loc main_arg1)) (m ((c.tc : Thread nD τ).loc main_arg2))
      ∧ r.2.mem ((c.tc : Thread nD τ).loc main_v62) = Cert.ReferenceIdeal.Read.val_main_v62 (F := F) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      have e := atEnd (F := F) (launchContents m c)
      ⟨(h c main_v64).trans e.v64, (h c main_v12).trans e.v12, (h c main_v62).trans e.v62,
        (h c main_arg0).trans e.a0, (h c main_arg1).trans e.a1, (h c main_arg2).trans e.a2⟩)
    (run_seq scopedRefs_eq scopedSems_eq defs main (fun _ => ops) main_ops (fun _ => ops_sub) m ρ (fun _ => ops_fresh))

end Cert.ReferenceIdeal.HandRun

end
-- ==== Proof.PreDecode.lean ====
import proofs.«410291_j73229192397510_2_alg».proof.Proof.Spec
import proofs.«410291_j73229192397510_2_alg».proof.Proof.LibReal
import proofs.«410291_j73229192397510_2_alg».proof.Pre_finite_inputs
import Idealize.ShloMosaic.Lib.ReduceAll
import Idealize.ShloMosaic.Lib.StableHlo.Predicate

noncomputable section

open scoped BigOperators

namespace Cert.Sudoku

open Idealize.ShloMosaic Idealize.ShloMosaic.ValueIdx Cert.Sudoku Cert.LibReal

namespace PreDecode

/-- A rank-0 shape has one index. -/
instance subsingleton_scalar_idx : Subsingleton Cert.Pre_finite_inputs.S_.Idx :=
  ⟨fun a b => funext fun d => d.elim0⟩

/-- The conjunction of two bits is 1 exactly when both are. -/
theorem and_bits : ∀ a b : BitVec 1, IntOp.andi a b = 1#1 ↔ a = 1#1 ∧ b = 1#1 := by decide

/-- The pattern of the positive infinity denotes the top of the extended reals. -/
theorem inf_pattern : Ideal.ofBits .f32 0x7F800000#32 = (⊤ : EReal) := by
  simp [Ideal.ofBits, Ideal.ieee]

/-- An extended real whose absolute value max x (-x) lies below +∞ is a real number: at −∞ the
    negation is +∞, at +∞ the value itself is, and neither lies below +∞. -/
theorem isReal_of_abs_lt_top (x : EReal) (h : max x (-x) < ⊤) : IsReal x := by
  induction x using EReal.rec with
  | bot => exact absurd h (by simp)
  | coe r => exact IsReal.coe r
  | top => exact absurd h (by simp)

/-- A word that is at least 0 and below 10 as a signed integer has a value below 10. -/
theorem toNat_lt_ten (w : BitVec 32) (h0 : IntOp.cmpi .sge w 0#32 = 1#1)
    (h1 : IntOp.cmpi .slt w 10#32 = 1#1) : w.toNat < 10 := by
  unfold IntOp.cmpi at h0 h1
  rw [StableHlo.Predicate.ofBool_eq_one_iff] at h0 h1
  simp only [BitVec.slt, BitVec.sle, decide_eq_true_eq] at h0 h1
  have h32 := w.isLt
  unfold BitVec.toInt at h0 h1
  split at h1 <;> simp at h0 h1 <;> omega

end PreDecode

open PreDecode

/-- What the precondition says: every score is a real number, and every label word lies in 0 … 9. -/
theorem pre_decode [Cert.Pre_finite_inputs.Facts] (X : Scores) (T P : WordsAll)
    (h : Cert.Pre_finite_inputs.fn (F := Ideal) X T P = fun _ => 1#1) :
    (∀ i, IsReal (X i)) ∧ (∀ i, (T i).toNat < 10) := by
  have e := congrFun h ValueIdx.ix0
  dsimp only [Cert.Pre_finite_inputs.fn] at e
  -- the outer conjunction: the scores' reduction and the labels' reduction are both 1
  obtain ⟨hx, ht⟩ := (and_bits _ _).1 e
  refine ⟨fun i => ?_, fun i => ?_⟩
  · -- the reduction by conjunction over all four axes is 1, so its operand is 1 at i
    have hi := Host.reduce_andi_all _ _ _ _ ValueIdx.ix0 hx i
    -- the operand at i is the comparison |X i| < +∞ on the order of the extended reals
    have hc : Ideal.cmp .olt (max (X i) (-(X i))) (Ideal.ofBits .f32 0x7F800000#32) = 1#1 := hi
    rw [inf_pattern] at hc
    unfold Ideal.cmp at hc
    rw [StableHlo.Predicate.ofBool_eq_one_iff, decide_eq_true_eq] at hc
    exact isReal_of_abs_lt_top (X i) hc
  · -- the reduction by conjunction over all three axes is 1, so its operand is 1 at i
    have hi := Host.reduce_andi_all _ _ _ _ ValueIdx.ix0 ht i
    -- the operand at i is (T i ≥ 0) ∧ (T i < 10), signed, the constants read at every index
    have hc : IntOp.andi (IntOp.cmpi .sge (T i) 0#32) (IntOp.cmpi .slt (T i) 10#32) = 1#1 := hi
    obtain ⟨h0, h1⟩ := (and_bits _ _).1 hc
    exact toNat_lt_ten (T i) h0 h1

end Cert.Sudoku

end
-- ==== Proof.lean ====
/-
  The Sudoku loss kernel against its jnp reference, over the extended reals.

  Both programs take 65536 puzzles: per cell ten class scores, a label and a givens word.  They compute
  the masked cross entropy of the log-softmax at the label over the blank cells, divided by the number
  of blank cells plus a small constant, and a constraint term: for every row, column and 3 × 3 box the
  squared deviation, over the classes 1 … 9, of the blank-weighted softmax mass from one ninth of the
  group's blank count, averaged and added.  The kernel walks the puzzles in 1024 blocks of 64, adds five
  per-block sums into a five-lane accumulator, and finishes with a few scalar operations; the reference
  computes whole-array sums.

  The two agree when every score is a real number and every label lies in 0 … 9, which is what the
  precondition says: on reals the quotient form of the softmax is the exponential of the log-softmax,
  a one-hot sum picks the log-softmax at an in-range label, a product with the named constant 1/9 is a
  quotient by nine, and a sum of per-group means of nonnegative terms is the mean of the grand total;
  the order and grouping of the sums is free in a commutative monoid.  Outside 0 … 9 the reference wraps
  or fills a label while the kernel's one-hot is empty, so the range is needed.

  The kernel's value is read off its run point by point (Proof/KAcc.lean, Proof/KValue.lean over the
  per-block modules), the reference's off its run (Proof/RefRunHand.lean) one operation at a time (Proof/RCell.lean … Proof/RValue.lean),
  both against Proof/Spec.lean; Proof/Math.lean joins the two spellings and Proof/PreDecode.lean reads the
  precondition.
-/
import proofs.«410291_j73229192397510_2_alg».proof.Defs
import proofs.«410291_j73229192397510_2_alg».proof.Proof.Gen.Kernel
import proofs.«410291_j73229192397510_2_alg».proof.Proof.Gen.Kernel.Frame
import proofs.«410291_j73229192397510_2_alg».proof.Proof.Gen.KernelIdeal
import proofs.«410291_j73229192397510_2_alg».proof.Proof.Gen.KernelIdeal.Frame
import proofs.«410291_j73229192397510_2_alg».proof.Proof.Gen.ReferenceIdeal
import proofs.«410291_j73229192397510_2_alg».proof.Proof.Gen.Pre_finite_inputs
import proofs.«410291_j73229192397510_2_alg».proof.Proof.KValue
import proofs.«410291_j73229192397510_2_alg».proof.Proof.RValue
import proofs.«410291_j73229192397510_2_alg».proof.Proof.RefRunHand
import proofs.«410291_j73229192397510_2_alg».proof.Proof.PreDecode
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations: its run with the results dropped. -/
theorem frame_ri : Cert.frame_ReferenceIdeal := fun m ρ _ =>
  (θ_run Cert.ReferenceIdeal.defs _ _).mono (fun _ h c => (h c).2.2.2) (Cert.ReferenceIdeal.HandRun.run (F := Ideal) m ρ)

/-- The three named constants: the table gives "inv_9" the value 1/9, and the printed constant is that value. -/
theorem preserves : Cert.preserves_Kernel_KernelIdeal :=
  ⟨IdealRules.named_const.statement Cert.KernelIdeal.κ "inv_9" .f32 0x3DE38E39#32 ((1 / 9 : ℝ) : EReal) rfl,
   IdealRules.named_const.statement Cert.KernelIdeal.κ "inv_9" .f32 0x3DE38E39#32 ((1 / 9 : ℝ) : EReal) rfl,
   IdealRules.named_const.statement Cert.KernelIdeal.κ "inv_9" .f32 0x3DE38E39#32 ((1 / 9 : ℝ) : EReal) rfl⟩

/-- From agreeing arguments both programs end with the total loss, the cross-entropy loss and the constraint loss of
    those arguments. -/
theorem algebraic : Cert.algebraic_KernelIdeal_ReferenceIdeal := by
  intro m ρ m' ρ' hpre hagree
  refine ⟨_, _, _, Cert.Sudoku.Kernel.run m ρ, ?_⟩
  refine (θ_run Cert.ReferenceIdeal.defs _ _).mono (fun _ h c => ?_) (Cert.ReferenceIdeal.HandRun.run (F := Ideal) m' ρ')
  obtain ⟨hX, hT⟩ := Cert.Sudoku.pre_decode _ _ _ (hpre c)
  have hres := Cert.Sudoku.Ref.results _ _ (Cert.Sudoku.Kernel.givens m c) hX hT
  refine ⟨(h c).1.trans ?_, (h c).2.1.trans ?_, (h c).2.2.1.trans ?_, (h c).2.2.2⟩
  · rw [(hagree c).1, (hagree c).2.1, (hagree c).2.2]
    exact hres.1
  · rw [(hagree c).1, (hagree c).2.1, (hagree c).2.2]
    exact hres.2.1
  · rw [(hagree c).1, (hagree c).2.2]
    exact hres.2.2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
